-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x1024 : Shape := ⟨3, ![4, 1024, 1024]⟩
abbrev S1024x1024 : Shape := ⟨2, ![1024, 1024]⟩
abbrev S3072x1024 : Shape := ⟨2, ![3072, 1024]⟩
abbrev S3072 : Shape := ⟨1, ![3072]⟩
abbrev S1024 : Shape := ⟨1, ![1024]⟩
abbrev S_ : Shape := ⟨0, ![]⟩

class Facts : Prop where
  bcast_S_S4x1024x1024 : S_.BroadcastsInDim S4x1024x1024 (![] : Fin 0 → Fin S4x1024x1024.rank)
  reducesTo_S4x1024x1024_S_d0_1_2 : S4x1024x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg5 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x1024x1024 .f32) (main_arg1 : IVec S1024x1024 1) (main_arg2 : FVec F S3072x1024 .f32) (main_arg3 : FVec F S3072 .f32) (main_arg4 : FVec F S1024x1024 .f32) (main_arg5 : FVec F S1024 .f32) : IVec S_ 1 :=
  let main_v0 : FVec F S4x1024x1024 .f32 := Host.absf main_arg0
  let main_cst : FVec F S_ .f32 := constant S_ .f32 0x7F800000#32
  let main_v1 : FVec F S4x1024x1024 .f32 := broadcastInDim S4x1024x1024 ![] bcast_S_S4x1024x1024 main_cst
  let main_v2 : IVec S4x1024x1024 1 := cmpf .olt main_v0 main_v1
  let main_c : IVec S_ 1 := constantI S_ 1 1#1
  let main_v3 : IVec S_ 1 := (fun x v => Host.reduce IntOp.andi x v reducesTo_S4x1024x1024_S_d0_1_2 h_S_) main_v2 main_c
  let main_v4 : FVec F S3072x1024 .f32 := Host.absf main_arg2
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg3
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_v13 main_v16
-- ==== Kernel.lean ====
abbrev S4x1024x1024 : Shape := ⟨3, ![4, 1024, 1024]⟩
abbrev S1024x1024 : Shape := ⟨2, ![1024, 1024]⟩
abbrev S3072x1024 : Shape := ⟨2, ![3072, 1024]⟩
abbrev S3072 : Shape := ⟨1, ![3072]⟩
abbrev S1024 : Shape := ⟨1, ![1024]⟩
abbrev S1x3072 : Shape := ⟨2, ![1, 3072]⟩
abbrev S4096x1024 : Shape := ⟨2, ![4096, 1024]⟩
abbrev S4096x3072 : Shape := ⟨2, ![4096, 3072]⟩
abbrev S512x1024 : Shape := ⟨2, ![512, 1024]⟩
abbrev S1x1024 : Shape := ⟨2, ![1, 1024]⟩
abbrev S4x1024x3072 : Shape := ⟨3, ![4, 1024, 3072]⟩
abbrev S64x1024x1024 : Shape := ⟨3, ![64, 1024, 1024]⟩
abbrev S1x512x128 : Shape := ⟨3, ![1, 512, 128]⟩
abbrev S1x1024x128 : Shape := ⟨3, ![1, 1024, 128]⟩
abbrev S2x512x1024 : Shape := ⟨3, ![2, 512, 1024]⟩
abbrev S512x128 : Shape := ⟨2, ![512, 128]⟩
abbrev S1024x128 : Shape := ⟨2, ![1024, 128]⟩
abbrev S512x64 : Shape := ⟨2, ![512, 64]⟩
abbrev S1024x64 : Shape := ⟨2, ![1024, 64]⟩
abbrev S512 : Shape := ⟨1, ![512]⟩
abbrev S512x1 : Shape := ⟨2, ![512, 1]⟩
abbrev S1x512x1024 : Shape := ⟨3, ![1, 512, 1024]⟩

abbrev nBuf : Space → Nat
  | .hbm => 17
  | .vmem => 26
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .i1⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S1x3072, .f32⟩
  | .hbm, ⟨7, _⟩ => ⟨S4096x1024, .f32⟩
  | .hbm, ⟨8, _⟩ => ⟨S4096x3072, .bf16⟩
  | .hbm, ⟨9, _⟩ => ⟨S4x1024x3072, .bf16⟩
  | .hbm, ⟨10, _⟩ => ⟨S1024x1024, .i32⟩
  | .hbm, ⟨11, _⟩ => ⟨S4x1024x1024, .bf16⟩
  | .hbm, ⟨12, _⟩ => ⟨S64x1024x1024, .f32⟩
  | .hbm, ⟨13, _⟩ => ⟨S1x1024, .f32⟩
  | .hbm, ⟨14, _⟩ => ⟨S4096x1024, .bf16⟩
  | .hbm, ⟨15, _⟩ => ⟨S4096x1024, .f32⟩
  | .hbm, ⟨16, _⟩ => ⟨S4x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .bf16⟩
  | .local _ .vmem, ⟨7, _⟩ => ⟨S512x1024, .bf16⟩
  | .local _ .vmem, ⟨8, _⟩ => ⟨S1x512x128, .bf16⟩
  | .local _ .vmem, ⟨9, _⟩ => ⟨S1x512x128, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S512x1024, .i32⟩
  | .local _ .vmem, ⟨15, _⟩ => ⟨S512x1024, .i32⟩
  | .local _ .vmem, ⟨16, _⟩ => ⟨S1x512x128, .bf16⟩
  | .local _ .vmem, ⟨17, _⟩ => ⟨S1x512x128, .bf16⟩
  | .local _ .vmem, ⟨18, _⟩ => ⟨S2x512x1024, .f32⟩
  | .local _ .vmem, ⟨19, _⟩ => ⟨S2x512x1024, .f32⟩
  | .local _ .vmem, ⟨20, _⟩ => ⟨S512x1024, .bf16⟩
  | .local _ .vmem, ⟨21, _⟩ => ⟨S512x1024, .bf16⟩
  | .local _ .vmem, ⟨22, _⟩ => ⟨S1024x1024, .f32⟩
  | .local _ .vmem, ⟨23, _⟩ => ⟨S1x1024, .f32⟩
  | .local _ .vmem, ⟨24, _⟩ => ⟨S512x1024, .f32⟩
  | .local _ .vmem, ⟨25, _⟩ => ⟨S512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg4_1 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc1_sem4_0 : DmaSem sig := 16
abbrev cc1_sem4_1 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25

abbrev nD : Nat := 1
abbrev τ : Topo := Topo.v7x

variable {F : FTy → Type} [FloatOps F]

abbrev grid0 : Pipeline.Grid := ⟨2, ![3, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨3, ![4, 8, 2], ![false, false, false]⟩

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, arg2.toNat, c0_i32.toNat]

abbrev stage1_0 : Fin 2 → Memref sig .tc .vmem S1x512x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1024x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S512x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, false, true]

abbrev stage1_4 : Fin 2 → Memref sig .tc .vmem S1x512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S2x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S3072_S1x3072 : S3072.ShapeCasts S1x3072
  shapeCasts_S4x1024x1024_S4096x1024 : S4x1024x1024.ShapeCasts S4096x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S4096x3072_S4x1024x3072 : S4096x3072.ShapeCasts S4x1024x3072
  natLt_1_32 : 1 < 32
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  inb_S1x1024x128_S1x1024x128_0_0_0 : ∀ a, (![0, 0, 0] : Fin 3 → Nat) a + S1x1024x128.size a ≤ S1x1024x128.size a
  h_S1x1024x128 : 0 < S1x1024x128.numel
  shapeCasts_S1x1024x128_S1024x128 : S1x1024x128.ShapeCasts S1024x128
  slices_S512x128_o0_0_S512x64 : S512x128.Slices ![0, 0] S512x64
  slices_S1024x128_o0_0_S1024x64 : S1024x128.Slices ![0, 0] S1024x64
  reduces_S512x1024_S512 : S512x1024.Reduces [1] S512
  shapeCasts_S512_S512x1 : S512.ShapeCasts S512x1
  broadcasts_S512x1_S512x1024 : S512x1.Broadcasts S512x1024
  inb_S2x512x1024_S1x512x1024_0_0_0 : ∀ a, (![0, 0, 0] : Fin 3 → Nat) a + S1x512x1024.size a ≤ S2x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  slices_S512x128_o0_64_S512x64 : S512x128.Slices ![0, 64] S512x64
  slices_S1024x128_o0_64_S1024x64 : S1024x128.Slices ![0, 64] S1024x64
  inb_S2x512x1024_S1x512x1024_1_0_0 : ∀ a, (![1, 0, 0] : Fin 3 → Nat) a + S1x512x1024.size a ≤ S2x512x1024.size a
  concatenates_S512x64_S512x64_S512x128_d1 : Shape.Concatenates [S512x64, S512x64] S512x128 1
  shapeCasts_S512x128_S1x512x128 : S512x128.ShapeCasts S1x512x128
  packedbf16_S1x512x128_S1x512x128_0_0_0 : (Rect.unit (s := S1x512x128) ![0, 0, 0] S1x512x128.size inb_S1x512x128_S1x512x128_0_0_0).PackedRows (EltTy.packing .bf16)
  shapeCasts_S1024_S1x1024 : S1024.ShapeCasts S1x1024
  shapeCasts_S4096x1024_S4x1024x1024 : S4096x1024.ShapeCasts S4x1024x1024
  dot_S512x1024_S1024x1024_S512x1024_1_1_0_0_n_n_wf : DotDims.WF S512x1024 S1024x1024 S512x1024 [1] [1] [0] [0] [] []
  dot_S512x64_S1024x64_S512x1024_1_1_0_0_n_n_wf : DotDims.WF S512x64 S1024x64 S512x1024 [1] [1] [0] [0] [] []
  dot_S512x1024_S1024x64_S512x64_1_0_0_1_n_n_wf : DotDims.WF S512x1024 S1024x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S3072x1024.size a
  hwx0_1 : ∀ i : grid0.Coords, EltTy.bits .f32 = 32 ∨ (Rect.block (s := S3072x1024) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x3072.size a
  hwx0_2 : ∀ i : grid0.Coords, EltTy.bits .f32 = 32 ∨ (Rect.block (s := S1x3072) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x3072.size a
  hwx0_3 : ∀ i : grid0.Coords, EltTy.bits .bf16 = 32 ∨ (Rect.block (s := S4096x3072) S512x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x128.size a ≤ S4x1024x3072.size a
  hwx1_0 : ∀ i : grid1.Coords, EltTy.bits .bf16 = 32 ∨ (Rect.block (s := S4x1024x3072) S1x512x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x128.size a ≤ S4x1024x3072.size a
  hwx1_1 : ∀ i : grid1.Coords, EltTy.bits .bf16 = 32 ∨ (Rect.block (s := S4x1024x3072) S1x1024x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x128.size a ≤ S4x1024x3072.size a
  hwx1_2 : ∀ i : grid1.Coords, EltTy.bits .bf16 = 32 ∨ (Rect.block (s := S4x1024x3072) S1x1024x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S1024x1024.size a
  hwx1_3 : ∀ i : grid1.Coords, EltTy.bits .i32 = 32 ∨ (Rect.block (s := S1024x1024) S512x1024.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x128.size a ≤ S4x1024x1024.size a
  hwx1_4 : ∀ i : grid1.Coords, EltTy.bits .bf16 = 32 ∨ (Rect.block (s := S4x1024x1024) S1x512x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2x512x1024.size a ≤ S64x1024x1024.size a
  hwx1_5 : ∀ i : grid1.Coords, EltTy.bits .f32 = 32 ∨ (Rect.block (s := S64x1024x1024) S2x512x1024.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 false = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1024.size a ≤ S4096x1024.size a
  hwx2_3 : ∀ i : grid2.Coords, EltTy.bits .f32 = 32 ∨ (Rect.block (s := S4096x1024) S512x1024.size (cc2_transform_3 i) (hinb2_3 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf
def dot_S512x64_S1024x64_S512x1024_1_1_0_0_n_n : DotDims S512x64 S1024x64 S512x1024 where
  lhsContracting := [1]
  rhsContracting := [1]
  lhsNonContracting := [0]
  rhsNonContracting := [0]
  lhsBatch := []
  rhsBatch := []
  wf := dot_S512x64_S1024x64_S512x1024_1_1_0_0_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v3) S1x512x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S1x1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S1x1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v5_0) S1x512x128.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5_1) S2x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v7) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S1024x1024.size cc2_transform_1 reads2_1 false false 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S1x1024.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v8) S512x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x1024x1024 : Shape := ⟨3, ![4, 1024, 1024]⟩
abbrev S1024x1024 : Shape := ⟨2, ![1024, 1024]⟩
abbrev S3072x1024 : Shape := ⟨2, ![3072, 1024]⟩
abbrev S3072 : Shape := ⟨1, ![3072]⟩
abbrev S1024 : Shape := ⟨1, ![1024]⟩
abbrev S4x1024x3072 : Shape := ⟨3, ![4, 1024, 3072]⟩
abbrev S1x1x3072 : Shape := ⟨3, ![1, 1, 3072]⟩
abbrev S4x1024x16x64 : Shape := ⟨4, ![4, 1024, 16, 64]⟩
abbrev S4x16x1024x64 : Shape := ⟨4, ![4, 16, 1024, 64]⟩
abbrev S4x16x1024x1024 : Shape := ⟨4, ![4, 16, 1024, 1024]⟩
abbrev S_ : Shape := ⟨0, ![]⟩
abbrev S1x1x1024x1024 : Shape := ⟨4, ![1, 1, 1024, 1024]⟩
abbrev S4x16x1024 : Shape := ⟨3, ![4, 16, 1024]⟩
abbrev S4x16x1024x1 : Shape := ⟨4, ![4, 16, 1024, 1]⟩
abbrev S1x1x1024 : Shape := ⟨3, ![1, 1, 1024]⟩
abbrev S64x1024x1024 : Shape := ⟨3, ![64, 1024, 1024]⟩

abbrev nBuf : Space → Nat
  | .hbm => 51
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S1024x1024, .i1⟩
  | .hbm, ⟨2, _⟩ => ⟨S3072x1024, .f32⟩
  | .hbm, ⟨3, _⟩ => ⟨S3072, .f32⟩
  | .hbm, ⟨4, _⟩ => ⟨S1024x1024, .f32⟩
  | .hbm, ⟨5, _⟩ => ⟨S1024, .f32⟩
  | .hbm, ⟨6, _⟩ => ⟨S4x1024x3072, .f32⟩
  | .hbm, ⟨7, _⟩ => ⟨S1x1x3072, .f32⟩
  | .hbm, ⟨8, _⟩ => ⟨S4x1024x3072, .f32⟩
  | .hbm, ⟨9, _⟩ => ⟨S4x1024x3072, .f32⟩
  | .hbm, ⟨10, _⟩ => ⟨S4x1024x1024, .f32⟩
  | .hbm, ⟨11, _⟩ => ⟨S4x1024x1024, .f32⟩
  | .hbm, ⟨12, _⟩ => ⟨S4x1024x1024, .f32⟩
  | .hbm, ⟨13, _⟩ => ⟨S4x1024x16x64, .f32⟩
  | .hbm, ⟨14, _⟩ => ⟨S4x16x1024x64, .f32⟩
  | .hbm, ⟨15, _⟩ => ⟨S4x1024x16x64, .f32⟩
  | .hbm, ⟨16, _⟩ => ⟨S4x16x1024x64, .f32⟩
  | .hbm, ⟨17, _⟩ => ⟨S4x1024x16x64, .f32⟩
  | .hbm, ⟨18, _⟩ => ⟨S4x16x1024x64, .f32⟩
  | .hbm, ⟨19, _⟩ => ⟨S4x16x1024x1024, .f32⟩
  | .hbm, ⟨20, _⟩ => ⟨S_, .f32⟩
  | .hbm, ⟨21, _⟩ => ⟨S4x16x1024x1024, .f32⟩
  | .hbm, ⟨22, _⟩ => ⟨S4x16x1024x1024, .f32⟩
  | .hbm, ⟨23, _⟩ => ⟨S1x1x1024x1024, .i1⟩
  | .hbm, ⟨24, _⟩ => ⟨S_, .f32⟩
  | .hbm, ⟨25, _⟩ => ⟨S_, .f32⟩
  | .hbm, ⟨26, _⟩ => ⟨S4x16x1024x1024, .i1⟩
  | .hbm, ⟨27, _⟩ => ⟨S4x16x1024x1024, .f32⟩
  | .hbm, ⟨28, _⟩ => ⟨S4x16x1024x1024, .f32⟩
  | .hbm, ⟨29, _⟩ => ⟨S_, .f32⟩
  | .hbm, ⟨30, _⟩ => ⟨S4x16x1024, .f32⟩
  | .hbm, ⟨31, _⟩ => ⟨S_, .f32⟩
  | .hbm, ⟨32, _⟩ => ⟨S4x16x1024, .f32⟩
  | .hbm, ⟨33, _⟩ => ⟨S4x16x1024, .f32⟩
  | .hbm, ⟨34, _⟩ => ⟨S4x16x1024x1, .f32⟩
  | .hbm, ⟨35, _⟩ => ⟨S4x16x1024x1024, .f32⟩
  | .hbm, ⟨36, _⟩ => ⟨S4x16x1024x1024, .f32⟩
  | .hbm, ⟨37, _⟩ => ⟨S4x16x1024x1024, .f32⟩
  | .hbm, ⟨38, _⟩ => ⟨S_, .f32⟩
  | .hbm, ⟨39, _⟩ => ⟨S4x16x1024, .f32⟩
  | .hbm, ⟨40, _⟩ => ⟨S4x16x1024x1, .f32⟩
  | .hbm, ⟨41, _⟩ => ⟨S4x16x1024x1024, .f32⟩
  | .hbm, ⟨42, _⟩ => ⟨S4x16x1024x1024, .f32⟩
  | .hbm, ⟨43, _⟩ => ⟨S4x16x1024x64, .f32⟩
  | .hbm, ⟨44, _⟩ => ⟨S4x1024x16x64, .f32⟩
  | .hbm, ⟨45, _⟩ => ⟨S4x1024x1024, .f32⟩
  | .hbm, ⟨46, _⟩ => ⟨S4x1024x1024, .f32⟩
  | .hbm, ⟨47, _⟩ => ⟨S1x1x1024, .f32⟩
  | .hbm, ⟨48, _⟩ => ⟨S4x1024x1024, .f32⟩
  | .hbm, ⟨49, _⟩ => ⟨S4x1024x1024, .f32⟩
  | .hbm, ⟨50, _⟩ => ⟨S64x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S4x1024x3072_0_1_2 : S1x1x3072.BroadcastsInDim S4x1024x3072 (![0, 1, 2] : Fin 3 → Fin S4x1024x3072.rank)
  slices_S4x1024x3072_S4x1024x1024_0_0_0 : S4x1024x3072.Slices ![0, 0, 0] S4x1024x1024
  slices_S4x1024x3072_S4x1024x1024_0_0_1024 : S4x1024x3072.Slices ![0, 0, 1024] S4x1024x1024
  slices_S4x1024x3072_S4x1024x1024_0_0_2048 : S4x1024x3072.Slices ![0, 0, 2048] S4x1024x1024
  shapeCasts_S4x1024x1024_S4x1024x16x64 : S4x1024x1024.ShapeCasts S4x1024x16x64
  transposes_S4x1024x16x64_S4x16x1024x64_0_2_1_3 : S4x1024x16x64.Transposes [0, 2, 1, 3] S4x16x1024x64
  bcast_S_S4x16x1024x1024 : S_.BroadcastsInDim S4x16x1024x1024 (![] : Fin 0 → Fin S4x16x1024x1024.rank)
  bcast_S1024x1024_S1x1x1024x1024_2_3 : S1024x1024.BroadcastsInDim S1x1x1024x1024 (![2, 3] : Fin 2 → Fin S1x1x1024x1024.rank)
  bcast_S1x1x1024x1024_S4x16x1024x1024_0_1_2_3 : S1x1x1024x1024.BroadcastsInDim S4x16x1024x1024 (![0, 1, 2, 3] : Fin 4 → Fin S4x16x1024x1024.rank)
  reducesTo_S4x16x1024x1024_S4x16x1024_d3 : S4x16x1024x1024.ReducesTo [3] S4x16x1024
  h_S_ : 0 < S_.numel
  bcast_S_S4x16x1024 : S_.BroadcastsInDim S4x16x1024 (![] : Fin 0 → Fin S4x16x1024.rank)
  bcast_S4x16x1024_S4x16x1024x1_0_1_2 : S4x16x1024.BroadcastsInDim S4x16x1024x1 (![0, 1, 2] : Fin 3 → Fin S4x16x1024x1.rank)
  bcast_S4x16x1024x1_S4x16x1024x1024_0_1_2_3 : S4x16x1024x1.BroadcastsInDim S4x16x1024x1024 (![0, 1, 2, 3] : Fin 4 → Fin S4x16x1024x1024.rank)
  transposes_S4x16x1024x64_S4x1024x16x64_0_2_1_3 : S4x16x1024x64.Transposes [0, 2, 1, 3] S4x1024x16x64
  shapeCasts_S4x1024x16x64_S4x1024x1024 : S4x1024x16x64.ShapeCasts S4x1024x1024
  bcast_S1024_S1x1x1024_2 : S1024.BroadcastsInDim S1x1x1024 (![2] : Fin 1 → Fin S1x1x1024.rank)
  bcast_S1x1x1024_S4x1024x1024_0_1_2 : S1x1x1024.BroadcastsInDim S4x1024x1024 (![0, 1, 2] : Fin 3 → Fin S4x1024x1024.rank)
  shapeCasts_S4x16x1024x1024_S64x1024x1024 : S4x16x1024x1024.ShapeCasts S64x1024x1024
  dot_S4x1024x1024_S3072x1024_S4x1024x3072_2_1_01_0_n_n_wf : DotDims.WF S4x1024x1024 S3072x1024 S4x1024x3072 [2] [1] [0, 1] [0] [] []
  dot_S4x16x1024x64_S4x16x1024x64_S4x16x1024x1024_3_3_2_2_01_01_wf : DotDims.WF S4x16x1024x64 S4x16x1024x64 S4x16x1024x1024 [3] [3] [2] [2] [0, 1] [0, 1]
  dot_S4x16x1024x1024_S4x16x1024x64_S4x16x1024x64_3_2_2_3_01_01_wf : DotDims.WF S4x16x1024x1024 S4x16x1024x64 S4x16x1024x64 [3] [2] [2] [3] [0, 1] [0, 1]
  dot_S4x1024x1024_S1024x1024_S4x1024x1024_2_1_01_0_n_n_wf : DotDims.WF S4x1024x1024 S1024x1024 S4x1024x1024 [2] [1] [0, 1] [0] [] []

variable [Facts₀]

def dot_S4x1024x1024_S3072x1024_S4x1024x3072_2_1_01_0_n_n : DotDims S4x1024x1024 S3072x1024 S4x1024x3072 where
  lhsContracting := [2]
  rhsContracting := [1]
  lhsNonContracting := [0, 1]
  rhsNonContracting := [0]
  lhsBatch := []
  rhsBatch := []
  wf := dot_S4x1024x1024_S3072x1024_S4x1024x3072_2_1_01_0_n_n_wf
def dot_S4x16x1024x64_S4x16x1024x64_S4x16x1024x1024_3_3_2_2_01_01 : DotDims S4x16x1024x64 S4x16x1024x64 S4x16x1024x1024 where
  lhsContracting := [3]
  rhsContracting := [3]
  lhsNonContracting := [2]
  rhsNonContracting := [2]
  lhsBatch := [0, 1]
  rhsBatch := [0, 1]
  wf := dot_S4x16x1024x64_S4x16x1024x64_S4x16x1024x1024_3_3_2_2_01_01_wf
def dot_S4x16x1024x1024_S4x16x1024x64_S4x16x1024x64_3_2_2_3_01_01 : DotDims S4x16x1024x1024 S4x16x1024x64 S4x16x1024x64 where
  lhsContracting := [3]
  rhsContracting := [2]
  lhsNonContracting := [2]
  rhsNonContracting := [3]
  lhsBatch := [0, 1]
  rhsBatch := [0, 1]
  wf := dot_S4x16x1024x1024_S4x16x1024x64_S4x16x1024x64_3_2_2_3_01_01_wf
def dot_S4x1024x1024_S1024x1024_S4x1024x1024_2_1_01_0_n_n : DotDims S4x1024x1024 S1024x1024 S4x1024x1024 where
  lhsContracting := [2]
  rhsContracting := [1]
  lhsNonContracting := [0, 1]
  rhsNonContracting := [0]
  lhsBatch := []
  rhsBatch := []
  wf := dot_S4x1024x1024_S1024x1024_S4x1024x1024_2_1_01_0_n_n_wf

class Facts : Prop extends Facts₀ where

variable [Facts]
-- ==== Proof.KR0.lean ====
/-
  Region 0 of the printed kernel's @main: the fused query/key/value projection, one pallas_call on a 3 × 8 grid.
  At a grid point the body reads a 512 × 1024 block of the activations, a 1024 × 1024 block of the weight and a
  1 × 1024 block of the bias, and stores ONE 512 × 1024 block: the block of activations times the transposed weight
  block, plus the bias row. Nothing is kept from point to point, so what the output window's staging buffer holds
  after the body is a function of the three input blocks alone (`out0_3`), and each input window's buffer holds
  its block at every point, fetched there or not. This module states that and proves the body's obligation to the
  pipeline at the region's entry contents `V`, whatever they are.
-/
import proofs.«404232_j53352083751420_3_alg».proof.Proof.Gen.Kernel.Launch
import proofs.«404232_j53352083751420_3_alg».proof.Proof.Gen.Kernel.Skeleton
import proofs.«404232_j53352083751420_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: where the pipeline did not fetch it
    the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_a : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-! ## What the body leaves in the output window's buffer -/

/-- The output buffer after the body, from the three input blocks: its one store, of the whole block. -/
def out0_3 (x0 : Vec F S512x1024 .f32) (x1 : Vec F S1024x1024 .f32) (x2 : Vec F S1x1024 .f32) : Vec F S512x1024 .bf16 :=
  View.canon [⟨r0_a, k0_pay1 (View.ld x0 r0_a) (View.ld x1 r0_w) (View.ld x2 r0_b)⟩]

/-- The one store covers the buffer. -/
theorem cover0_3 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

/-! ## The body's triple -/

set_option maxHeartbeats 1000000 in
/-- The body on whole staging memrefs, the inputs' at read contents `x0 x1 x2` and the output's at anything, runs to
    the continuation holding the inputs' as they were and the output's at `out0_3` of them. -/
theorem sound_kernel0 (c : Dev nD) (E : Set ℕ) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Pipeline 0's proof data on core `c`: the arrays as the region finds them; after the body at point `t` each
    input's buffer at its block and the output's at `out0_3` of the input blocks; the invariant is the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KR1.lean ====
/-
  Region 1 of the printed kernel's @main: the attention call, one pallas_call on a 4 × 8 × 2 grid (batch entry,
  pair of heads, half of the query rows). At a grid point the body reads four blocks: 512 query rows of the two
  heads' 128 query columns, all 1024 rows of the same two heads' 128 key columns and 128 value columns — three blocks
  of ONE array, the fused projection's output, at column offsets 0, 1024 and 2048 — and the 512 × 1024 block of the
  mask's words for those query rows. It stores the two heads' 512 × 1024 attention probabilities, one head after the
  other, into the two leading slices of a 2 × 512 × 1024 block, and the two heads' 512 × 64 outputs, side by side,
  into a 1 × 512 × 128 block. Nothing is kept from point to point, so what each output window's staging buffer holds
  after the body is a function of the input blocks alone (`out1_4`, `out1_5`), and each input window's buffer holds
  its block at every point, fetched there or not. This module states that, proves the body's obligation to the
  pipeline at the region's entry contents `V`, whatever they are, and splits the region's arrays off the core's
  unscoped buffers and joins them back: the three input windows on the one array each hold a third share of it.
-/
import proofs.«404232_j53352083751420_3_alg».proof.Proof.Gen.Kernel.Launch
import proofs.«404232_j53352083751420_3_alg».proof.Proof.Gen.Kernel.Skeleton
import proofs.«404232_j53352083751420_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point: where the pipeline did not fetch it
    the block index has not moved since the last fetch (the key and value blocks do not depend on the half of the
    query rows, so they are fetched at every other point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The query block, the key block (the value block has its shape), the mask block and the output block, each
    whole; -/
abbrev r1_q : Rect S1x512x128 := Rect.unit (s := S1x512x128) ![0, 0, 0] S1x512x128.size inb_S1x512x128_S1x512x128_0_0_0
abbrev r1_k : Rect S1x1024x128 := Rect.unit (s := S1x1024x128) ![0, 0, 0] S1x1024x128.size inb_S1x1024x128_S1x1024x128_0_0_0
abbrev r1_m : Rect S512x1024 := Rect.unit (s := S512x1024) ![0, 0] S512x1024.size inb_S512x1024_S512x1024_0_0
/-- and the two slices of the probabilities' block: the first head's and the second head's. -/
abbrev r1_p0 : Rect S2x512x1024 := Rect.unit (s := S2x512x1024) ![0, 0, 0] S1x512x1024.size inb_S2x512x1024_S1x512x1024_0_0_0
abbrev r1_p1 : Rect S2x512x1024 := Rect.unit (s := S2x512x1024) ![1, 0, 0] S1x512x1024.size inb_S2x512x1024_S1x512x1024_1_0_0

/-! ## What the body leaves in the output windows' buffers -/

/-- The attention outputs' buffer after the body, from the four input blocks: its one store, of the whole block —
    the first head's probabilities times the first 64 value columns beside the second head's times the last 64. -/
def out1_4 (x0 : Vec F S1x512x128 .bf16) (x1 x2 : Vec F S1x1024x128 .bf16) (x3 : Vec F S512x1024 .i32) : Vec F S1x512x128 .bf16 :=
  View.canon [⟨r1_q, k1_pay3 (k1_pay4 (View.ld x3 r1_m)) (k1_pay10 (View.ld x3 r1_m) (View.ld x0 r1_q) (View.ld x1 r1_k) (View.ld x2 r1_k))
    (k1_pay11 (View.ld x2 r1_k)) (k1_pay12 (View.ld x0 r1_q) (View.ld x1 r1_k))⟩]

/-- The probabilities' buffer after the body, from the query, key and mask blocks: its two stores, the later one
    first — the second head's masked softmax in slice 1, the first head's in slice 0. The value block is not read
    for it. -/
def out1_5 (x0 : Vec F S1x512x128 .bf16) (x1 : Vec F S1x1024x128 .bf16) (x3 : Vec F S512x1024 .i32) : Vec F S2x512x1024 .f32 :=
  View.canon [⟨r1_p1, k1_pay2 (k1_pay4 (View.ld x3 r1_m)) (k1_pay12 (View.ld x0 r1_q) (View.ld x1 r1_k))⟩,
    ⟨r1_p0, k1_pay9 (View.ld x3 r1_m) (View.ld x0 r1_q) (View.ld x1 r1_k)⟩]

/-- The one store covers the outputs' buffer, -/
theorem cover1_4 (p0 : Vec F S1x512x128 .bf16) (y : S1x512x128.Idx) :
    ∃ pc ∈ ([⟨r1_q, p0⟩] : List (View.Piece (Elt F) S1x512x128 .bf16)), y ∈ pc.1.set :=
  View.cover_of_tiled [⟨r1_q, p0⟩] S1x512x128.size (by rfl) y

/-- and the two slices tile the probabilities' buffer. -/
theorem cover1_5 (p1 p0 : Vec F S1x512x1024 .f32) (y : S2x512x1024.Idx) :
    ∃ pc ∈ ([⟨r1_p1, p1⟩, ⟨r1_p0, p0⟩] : List (View.Piece (Elt F) S2x512x1024 .f32)), y ∈ pc.1.set :=
  View.cover_of_tiled [⟨r1_p1, p1⟩, ⟨r1_p0, p0⟩] S1x512x1024.size (by rfl) y

/-! ## The body's triple -/

set_option maxHeartbeats 4000000 in
/-- The body on whole staging memrefs, the inputs' at read contents `x0 x1 x2 x3` and the outputs' at anything, runs
    to the continuation holding the inputs' as they were, the attention outputs' at `out1_4` and the
    probabilities' at `out1_5` of them. -/
theorem sound_kernel1 (c : Dev nD) (E : Set ℕ) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S512x1024 .i32) (harg6 : arg6.IsWhole) (arg7 : Memref sig .tc .vmem S1x512x128 .bf16) (harg7 : arg7.IsWhole) (arg8 : Memref sig .tc .vmem S2x512x1024 .f32) (harg8 : arg8.IsWhole)
    (x0 : Vec F S1x512x128 .bf16) (x1 x2 : Vec F S1x1024x128 .bf16) (x3 : Vec F S512x1024 .i32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (out1_4 x0 x1 x2 x3) ∗ owns (c : Thread nD τ) arg8 fullShare (out1_5 x0 x1 x3)) -∗ K ⟨⟩))
      ⊢ wp frame (wpE (defs₀ (F := F)) Variants.none c none) E (cc1__kernel i arg3 harg3 arg4 harg4 arg5 harg5 arg6 harg6 arg7 harg7 arg8 harg8) K := by
  simp only [cc1__kernel_eq_skeleton]; unfold cc1__kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _ _)

/-! ## The pipeline's proof data -/

/-- Pipeline 1's proof data on core `c`: the arrays as the region finds them; after the body at point `t` each
    input's buffer at its block, the attention outputs' at `out1_4` and the probabilities' at `out1_5` of the input
    blocks; the invariant is the scoped buffers no window stages and the generator register, untouched; nothing
    owed. The query, key and value windows read one array, so each holds a third of it: the left half of the full
    share, and the two halves of the right half; the mask's window holds its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's arrays among the core's unscoped buffers -/

/-- The buffers behind the six windows' arrays are four: the projection's output, which the query, key and value
    windows all read, the mask's words and the two results. -/
theorem arrRefs1 : Finset.univ.image (Pipeline.arrRef spec1) = [main_v3, main_v4, main_v5_0, main_v5_1].toFinset := by decide

/-- A core's unscoped buffers at contents `V'` are those four and the rest. -/
theorem unscopedBufs_split1 (c : Dev nD) (V' : (b : Ref sig .tc) → Buf (Elt F) ((c : Thread nD τ).loc b)) :
    (unscopedBufs c V' : sProp 𝕄) = iprop(Pipeline.arrBufs spec1 c V' ∗ Pipeline.unscopedRest spec1 c V') :=
  Pipeline.unscopedBufs_split₀ cfgs 1 winFacts₀1.arr_unscoped c V'

/-- The four, each whole at the full share, one by one. -/
theorem arrBufs1_eq (c : Dev nD) (V' : (b : Ref sig .tc) → Buf (Elt F) ((c : Thread nD τ).loc b)) :
    (Pipeline.arrBufs spec1 c V' : sProp 𝕄)
      = iprop((((c : Thread nD τ).loc main_v3) ↦{fullShare} V' main_v3) ∗ (((c : Thread nD τ).loc main_v4) ↦{fullShare} V' main_v4)
          ∗ (((c : Thread nD τ).loc main_v5_0) ↦{fullShare} V' main_v5_0) ∗ (((c : Thread nD τ).loc main_v5_1) ↦{fullShare} V' main_v5_1)) := by
  unfold Pipeline.arrBufs
  exact bigSep_eq_bigSepL_of_eq [main_v3, main_v4, main_v5_0, main_v5_1] arrRefs1 (by decide) _

/-- The pipeline's arrays at the contents a valuation `V'` gives them, window by window: the three windows on the
    projection's output hold a third of it each, the other three hold their arrays whole. -/
theorem arrays1_eq (c : Dev nD) (V' : (b : Ref sig .tc) → Buf (Elt F) ((c : Thread nD τ).loc b)) :
    ((dat1 V c).arrays (fun w => V' (Pipeline.arrRef spec1 w)) : sProp 𝕄)
      = iprop((((c : Thread nD τ).loc main_v3) ↦{fullShare.left} V' main_v3) ∗ (((c : Thread nD τ).loc main_v3) ↦{fullShare.right.left} V' main_v3)
          ∗ (((c : Thread nD τ).loc main_v3) ↦{fullShare.right.right} V' main_v3) ∗ (((c : Thread nD τ).loc main_v4) ↦{fullShare} V' main_v4)
          ∗ (((c : Thread nD τ).loc main_v5_0) ↦{fullShare} V' main_v5_0) ∗ (((c : Thread nD τ).loc main_v5_1) ↦{fullShare} V' main_v5_1)) := by
  unfold Dat.arrays
  rw [bigSep_W1]
  have s0 : (dat1 V c).share 0 = fullShare.left := (if_neg (by decide)).trans (by dsimp only [dat1])
  have s1 : (dat1 V c).share 1 = fullShare.right.left := (if_neg (by decide)).trans (by dsimp only [dat1])
  have s2 : (dat1 V c).share 2 = fullShare.right.right := (if_neg (by decide)).trans (by dsimp only [dat1])
  have s3 : (dat1 V c).share 3 = fullShare := (if_neg (by decide)).trans (by dsimp only [dat1])
  have s4 : (dat1 V c).share 4 = fullShare := if_pos rfl
  have s5 : (dat1 V c).share 5 = fullShare := if_pos rfl
  rw [s0, s1, s2, s3, s4, s5]
  simp only [View.set_whole]

/-- ENTRY: a core's unscoped buffers at the region's entry contents are the pipeline's arrays at the proof data's
    entry contents and the unscoped rest — the full share of the projection's output split in three. -/
theorem entry1 (c : Dev nD) : (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  have h0 : (fun w => (dat1 V c).arrAt w 0) = fun w => V c (Pipeline.arrRef spec1 w) := funext fun w => A_eq1 V c w
  rw [unscopedBufs_split1, arrBufs1_eq, h0, arrays1_eq]
  iintro ⟨⟨H3, H4, H50, H51⟩, Hrest⟩
  ihave H3' := (pointsTo_share (PosShare.mem_left_op_right fullShare)).1 $$ H3
  icases H3' with ⟨Hq, Hkv⟩
  ihave Hkv' := (pointsTo_share (PosShare.mem_left_op_right fullShare.right)).1 $$ Hkv
  icases Hkv' with ⟨Hk, Hv⟩
  isplitr [Hrest]
  · isplitl [Hq]; · iexact Hq
    isplitl [Hk]; · iexact Hk
    isplitl [Hv]; · iexact Hv
    isplitl [H4]; · iexact H4
    isplitl [H50]; · iexact H50
    iexact H51
  iexact Hrest

/-- EXIT: the pipeline's arrays at what its write-backs leave and the unscoped rest as entered are the core's
    unscoped buffers at any valuation `V'` that has the arrays at those contents and agrees with the entry contents
    off them — the three thirds of the projection's output, all at the one contents, joined back. -/
theorem exit1 (c : Dev nD) (V' : (b : Ref sig .tc) → Buf (Elt F) ((c : Thread nD τ).loc b)) (hF : ∀ w, (dat1 V c).arrAt w cfg1.N = V' (Pipeline.arrRef spec1 w)) (hrest : ∀ b, b ∉ Finset.univ.image (Pipeline.arrRef spec1) → V' b = V c b) : iprop((dat1 V c).arrays ((dat1 V c).arrAt · cfg1.N) ∗ Pipeline.unscopedRest (Ix := Unit) (Name := ℕ) (U := UR sig nD τ) (Lvl := ℕ) spec1 c (V c)) ⊢ (unscopedBufs c V' : sProp 𝕄) := by
  have hN : (fun w => (dat1 V c).arrAt w cfg1.N) = fun w => V' (Pipeline.arrRef spec1 w) := funext hF
  have hR : (Pipeline.unscopedRest spec1 c (V c) : sProp 𝕄) = Pipeline.unscopedRest spec1 c V' := by
    unfold Pipeline.unscopedRest
    exact bigSep_congr fun b hb => by rw [hrest b (Finset.mem_sdiff.mp hb).2]
  rw [unscopedBufs_split1, arrBufs1_eq, hN, arrays1_eq, hR]
  iintro ⟨⟨Hq, Hk, Hv, H4, H50, H51⟩, Hrest⟩
  ihave Hkv := (pointsTo_share (PosShare.mem_left_op_right fullShare.right)).2 $$ [Hk Hv]
  · isplitl [Hk]; · iexact Hk
    iexact Hv
  ihave H3 := (pointsTo_share (PosShare.mem_left_op_right fullShare)).2 $$ [Hq Hkv]
  · isplitl [Hq]; · iexact Hq
    iexact Hkv
  isplitr [Hrest]
  · isplitl [H3]; · iexact H3
    isplitl [H4]; · iexact H4
    isplitl [H50]; · iexact H50
    iexact H51
  iexact Hrest

end Cert.Kernel.Hand

end
-- ==== Proof.KR2.lean ====
/- Region 2 of the printed kernel's @main: the output projection, one pallas_call on a 1 × 8 grid.
  At a grid point the body reads a 512 × 1024 block of the context rows, the whole 1024 × 1024 weight and the whole
  1 × 1024 bias, and stores ONE 512 × 1024 block: the block of rows times the transposed weight, plus the bias row.
  Nothing is kept from point to point, so what the output window's staging buffer holds after the body is a function
  of the three input blocks alone (`out2_3`), and each input window's buffer holds its block at every point, fetched
  there or not. This module states that and proves the body's obligation to the pipeline at the region's entry
  contents `V`, whatever they are.
-/
import proofs.«404232_j53352083751420_3_alg».proof.Proof.Gen.Kernel.Launch
import proofs.«404232_j53352083751420_3_alg».proof.Proof.Gen.Kernel.Skeleton
import proofs.«404232_j53352083751420_3_alg».proof.Proof.Gen.Kernel.Points
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point: where the pipeline did not fetch it
    the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_a : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-! ## What the body leaves in the output window's buffer -/

/-- The output buffer after the body, from the three input blocks: its one store, of the whole block. -/
def out2_3 (x0 : Vec F S512x1024 .bf16) (x1 : Vec F S1024x1024 .f32) (x2 : Vec F S1x1024 .f32) : Vec F S512x1024 .f32 :=
  View.canon [⟨r2_a, k2_pay1 (View.ld x0 r2_a) (View.ld x1 r2_w) (View.ld x2 r2_b)⟩]

/-- The one store covers the buffer. -/
theorem cover2_3 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

/-! ## The body's triple -/

set_option maxHeartbeats 1000000 in
/-- The body on whole staging memrefs, the inputs' at read contents `x0 x1 x2` and the output's at anything, runs to
    the continuation holding the inputs' as they were and the output's at `out2_3` of them. -/
theorem sound_kernel2 (c : Dev nD) (E : Set ℕ) (i : grid2.Coords) (arg2 : Memref sig .tc .vmem S512x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Pipeline 2's proof data on core `c`: the arrays as the region finds them; after the body at point `t` each
    input's buffer at its block and the output's at `out2_3` of the input blocks; the invariant is the scoped
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The printed kernel's @main from launch to return: host re-layouts, the projection region, host re-layouts, the
  attention region, host re-layouts, the output-projection region, a last re-layout.
  The contents of the core's unscoped buffers are followed through the seven segments as a fold from the launch
  memory: a host stretch applies its operations; a region leaves each of its output arrays at what its write-backs
  fold to and every other buffer as it found it. Each region is entered from "every unscoped buffer at the fold's
  contents, the generator register at some state, nothing owed" and left at the same with the fold advanced, so the
  segments chain, and the run ends with every unscoped buffer at the last contents of the fold. From that one run
  follow the frame (no segment writes an argument) and, read at the two result buffers, the values.
-/
import proofs.«404232_j53352083751420_3_alg».proof.Proof.Gen.Kernel.Regions
import proofs.«404232_j53352083751420_3_alg».proof.Proof.KR0
import proofs.«404232_j53352083751420_3_alg».proof.Proof.KR1
import proofs.«404232_j53352083751420_3_alg».proof.Proof.KR2
import Idealize.ShloMosaic.Lib.Pipeline.RegionsLoop
import Idealize.ShloMosaic.Lib.Pipeline.FrameSuffix

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the bias as a row, the activations as 4096 rows): the projection's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the projected rows as [4, 1024, 3072], the mask as words): attention's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At attention's exit: the context and the weights at what the pipeline leaves, every other buffer as entered
    (its three input windows on the projected array and the one on the mask words leave their arrays alone). -/
def W4 (c : Dev nD) : Valuation τ sig (Elt F) :=
  Function.update (Function.update (W3 m ρ c) (Proc.devRef .tc main_v5_0) ((dat1 (V3 m ρ) c).arrAt 4 cfg1.N))
    (Proc.devRef .tc main_v5_1) ((dat1 (V3 m ρ) c).arrAt 5 cfg1.N)
abbrev V4 : (c : Dev nD) → (b : Ref sig .tc) → Buf (Elt F) ((c : Thread nD τ).loc b) := fun c b => W4 m ρ c b
theorem W4_main_v5_1 (c : Dev nD) : W4 m ρ c (Proc.devRef .tc main_v5_1) = (dat1 (V3 m ρ) c).arrAt 5 cfg1.N := by
  unfold W4; exact Function.update_self ..
theorem W4_main_v5_0 (c : Dev nD) : W4 m ρ c (Proc.devRef .tc main_v5_0) = (dat1 (V3 m ρ) c).arrAt 4 cfg1.N := by
  unfold W4
  rw [Function.update_of_ne (StableHlo.devRef_ne_of_ne (by decide) : (Proc.devRef .tc main_v5_0 : DevRef τ sig) ≠ Proc.devRef .tc main_v5_1)]
  exact Function.update_self ..
theorem W4_of_ne (c : Dev nD) (b : Ref sig .tc) (h0 : b ≠ main_v5_0) (h1 : b ≠ main_v5_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
theorem hF1 (c : Dev nD) (w : Fin cfg1.W) : (dat1 (V3 m ρ) c).arrAt w cfg1.N = V4 m ρ c (Pipeline.arrRef spec1 w) := by
  match w with
  | ⟨0, _⟩ => exact (((dat1 (V3 m ρ) c).arrAt_in 0 rfl _).trans (A_eq1 (V3 m ρ) c 0)).trans (W4_of_ne m ρ c main_v3 (by decide) (by decide)).symm
  | ⟨1, _⟩ => exact (((dat1 (V3 m ρ) c).arrAt_in 1 rfl _).trans (A_eq1 (V3 m ρ) c 1)).trans (W4_of_ne m ρ c main_v3 (by decide) (by decide)).symm
  | ⟨2, _⟩ => exact (((dat1 (V3 m ρ) c).arrAt_in 2 rfl _).trans (A_eq1 (V3 m ρ) c 2)).trans (W4_of_ne m ρ c main_v3 (by decide) (by decide)).symm
  | ⟨3, _⟩ => exact (((dat1 (V3 m ρ) c).arrAt_in 3 rfl _).trans (A_eq1 (V3 m ρ) c 3)).trans (W4_of_ne m ρ c main_v4 (by decide) (by decide)).symm
  | ⟨4, _⟩ => exact (W4_main_v5_0 m ρ c).symm
  | ⟨5, _⟩ => exact (W4_main_v5_1 m ρ c).symm
theorem hrest1 (c : Dev nD) : ∀ b, b ∉ Finset.univ.image (Pipeline.arrRef spec1) → V4 m ρ c b = V3 m ρ c b :=
  fun b hb => W4_of_ne m ρ c b (fun e => hb (Finset.mem_image.mpr ⟨4, Finset.mem_univ _, e.symm⟩))
    (fun e => hb (Finset.mem_image.mpr ⟨5, Finset.mem_univ _, e.symm⟩))

/-- After the third host stretch (the output bias as a row, the context as 4096 rows): the output projection's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the output projection's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the last host stretch (the output rows as [4, 1024, 1024]): the return. -/
abbrev W7 : Dev nD → Valuation τ sig (Elt F) := fun c => StableHlo.after hostOps3 (W6 m ρ c)

/-! ### What a host stretch leaves alone -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h

/-- A buffer no host stretch has written and no region has as an output array holds its launch contents, boundary
    by boundary. -/
theorem W2_kept (c : Dev nD) (r : Ref sig .tc) (h0 : r ∉ hostOps0_W)
    (hr0 : ∀ w, Pipeline.arrRef spec0 w ≠ r ∨ (cfg0.win w).isOut = false) :
    W2 m ρ c r = m ((c : Thread nD τ).loc r) := by
  have e2 : W2 m ρ c (Proc.devRef .tc r) = W1 m ρ c (Proc.devRef .tc r) := by
    by_cases hw : ∃ w, Pipeline.arrRef spec0 w = r
    · obtain ⟨w, rfl⟩ := hw
      rcases hr0 w with h | h
      · exact absurd rfl h
      · exact (W2_arr m ρ c w).trans (((dat0 (V1 m ρ) c).arrAt_in w h _).trans (A_eq0 (V1 m ρ) c w))
    · exact W2_of_ne m ρ c r fun w e => hw ⟨w, e⟩
  exact e2.trans <| (W1_of m ρ c r h0).trans rfl
theorem W4_kept (c : Dev nD) (r : Ref sig .tc) (h0 : r ∉ hostOps0_W) (h1 : r ∉ hostOps1_W)
    (hr0 : ∀ w, Pipeline.arrRef spec0 w ≠ r ∨ (cfg0.win w).isOut = false) (hr1a : r ≠ main_v5_0) (hr1b : r ≠ main_v5_1) :
    W4 m ρ c r = m ((c : Thread nD τ).loc r) :=
  (W4_of_ne m ρ c r hr1a hr1b).trans <| (W3_of m ρ c r h1).trans <| W2_kept m ρ c r h0 hr0
theorem W6_kept (c : Dev nD) (r : Ref sig .tc) (h0 : r ∉ hostOps0_W) (h1 : r ∉ hostOps1_W) (h2 : r ∉ hostOps2_W)
    (hr0 : ∀ w, Pipeline.arrRef spec0 w ≠ r ∨ (cfg0.win w).isOut = false) (hr1a : r ≠ main_v5_0) (hr1b : r ≠ main_v5_1)
    (hr2 : ∀ w, Pipeline.arrRef spec2 w ≠ r ∨ (cfg2.win w).isOut = false) :
    W6 m ρ c r = m ((c : Thread nD τ).loc r) := by
  have e6 : W6 m ρ c (Proc.devRef .tc r) = W5 m ρ c (Proc.devRef .tc r) := by
    by_cases hw : ∃ w, Pipeline.arrRef spec2 w = r
    · obtain ⟨w, rfl⟩ := hw
      rcases hr2 w with h | h
      · exact absurd rfl h
      · exact (W6_arr m ρ c w).trans (((dat2 (V5 m ρ) c).arrAt_in w h _).trans (A_eq2 (V5 m ρ) c w))
    · exact W6_of_ne m ρ c r fun w e => hw ⟨w, e⟩
  exact e6.trans <| (W5_of m ρ c r h2).trans <| W4_kept m ρ c r h0 h1 hr0 hr1a hr1b
theorem W7_kept (c : Dev nD) (r : Ref sig .tc) (h0 : r ∉ hostOps0_W) (h1 : r ∉ hostOps1_W) (h2 : r ∉ hostOps2_W) (h3 : r ∉ hostOps3_W)
    (hr0 : ∀ w, Pipeline.arrRef spec0 w ≠ r ∨ (cfg0.win w).isOut = false)
    (hr1a : r ≠ main_v5_0) (hr1b : r ≠ main_v5_1)
    (hr2 : ∀ w, Pipeline.arrRef spec2 w ≠ r ∨ (cfg2.win w).isOut = false) :
    W7 m ρ c r = m ((c : Thread nD τ).loc r) :=
  (W7_of m ρ c r h3).trans <| W6_kept m ρ c r h0 h1 h2 hr0 hr1a hr1b hr2

theorem W7_main_arg0 (c : Dev nD) : W7 m ρ c main_arg0 = m ((c : Thread nD τ).loc main_arg0) :=
  W7_kept m ρ c main_arg0 (by decide) (by decide) (by decide) (by decide) (by decide) (by decide) (by decide) (by decide)
theorem W7_main_arg1 (c : Dev nD) : W7 m ρ c main_arg1 = m ((c : Thread nD τ).loc main_arg1) :=
  W7_kept m ρ c main_arg1 (by decide) (by decide) (by decide) (by decide) (by decide) (by decide) (by decide) (by decide)
theorem W7_main_arg2 (c : Dev nD) : W7 m ρ c main_arg2 = m ((c : Thread nD τ).loc main_arg2) :=
  W7_kept m ρ c main_arg2 (by decide) (by decide) (by decide) (by decide) (by decide) (by decide) (by decide) (by decide)
theorem W7_main_arg3 (c : Dev nD) : W7 m ρ c main_arg3 = m ((c : Thread nD τ).loc main_arg3) :=
  W7_kept m ρ c main_arg3 (by decide) (by decide) (by decide) (by decide) (by decide) (by decide) (by decide) (by decide)
theorem W7_main_arg4 (c : Dev nD) : W7 m ρ c main_arg4 = m ((c : Thread nD τ).loc main_arg4) :=
  W7_kept m ρ c main_arg4 (by decide) (by decide) (by decide) (by decide) (by decide) (by decide) (by decide) (by decide)
theorem W7_main_arg5 (c : Dev nD) : W7 m ρ c main_arg5 = m ((c : Thread nD τ).loc main_arg5) :=
  W7_kept m ρ c main_arg5 (by decide) (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. Three of its windows read one
    array, so its arrays are sorted out of the unscoped buffers, and put back, at shares of that array. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V3 m ρ c)) := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (unscopedBufs c (V4 m ρ c) : sProp 𝕄) := exit1 (V3 m ρ) c (V4 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output-projection region: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds each unscoped buffer of each core at the fold's last contents. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W7 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0 (by decide)).trans (W7_main_arg0 m ρ c), (h c main_arg1 (by decide)).trans (W7_main_arg1 m ρ c),
      (h c main_arg2 (by decide)).trans (W7_main_arg2 m ρ c), (h c main_arg3 (by decide)).trans (W7_main_arg3 m ρ c),
      (h c main_arg4 (by decide)).trans (W7_main_arg4 m ρ c), (h c main_arg5 (by decide)).trans (W7_main_arg5 m ρ c)⟩)
    (run m ρ)

end Cert.Kernel.Hand

end
-- ==== Proof.KiR0.lean ====
/-
  Region 0 of the idealized kernel's @main: the fused query/key/value projection, one pallas_call on a 3 × 8 grid.
  At a grid point the body reads a 512 × 1024 block of the activations, a 1024 × 1024 block of the weight and a
  1 × 1024 block of the bias, and stores ONE 512 × 1024 block: the block of activations times the transposed weight
  block, plus the bias row. Nothing is kept from point to point, so what the output window's staging buffer holds
  after the body is a function of the three input blocks alone (`out0_3`), and each input window's buffer holds
  its block at every point, fetched there or not. This module states that and proves the body's obligation to the
  pipeline at the region's entry contents `V`, whatever they are.
-/
import proofs.«404232_j53352083751420_3_alg».proof.Proof.Gen.KernelIdeal.Launch
import proofs.«404232_j53352083751420_3_alg».proof.Proof.Gen.KernelIdeal.Skeleton
import proofs.«404232_j53352083751420_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point: where the pipeline did not fetch it
    the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each staging buffer whole -/

abbrev r0_a : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-! ## What the body leaves in the output window's buffer -/

/-- The output buffer after the body, from the three input blocks: its one store, of the whole block. -/
def out0_3 (x0 : Vec F S512x1024 .f32) (x1 : Vec F S1024x1024 .f32) (x2 : Vec F S1x1024 .f32) : Vec F S512x1024 .bf16 :=
  View.canon [⟨r0_a, k0_pay1 (View.ld x0 r0_a) (View.ld x1 r0_w) (View.ld x2 r0_b)⟩]

/-- The one store covers the buffer. -/
theorem cover0_3 (p0 : Vec F S512x1024 .bf16) (y : S512x1024.Idx) :
    ∃ pc ∈ ([⟨r0_a, p0⟩] : List (View.Piece (Elt F) S512x1024 .bf16)), y ∈ pc.1.set :=
  View.cover_of_tiled [⟨r0_a, p0⟩] S512x1024.size (by rfl) y

/-! ## The body's triple -/

set_option maxHeartbeats 1000000 in
/-- The body on whole staging memrefs, the inputs' at read contents `x0 x1 x2` and the output's at anything, runs to
    the continuation holding the inputs' as they were and the output's at `out0_3` of them. -/
theorem sound_kernel0 (c : Dev nD) (E : Set ℕ) (i : grid0.Coords) (arg2 : Memref sig .tc .vmem S512x1024 .f32) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .bf16) (harg5 : arg5.IsWhole)
    (x0 : Vec F S512x1024 .f32) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out0_3 x0 x1 x2)) -∗ K ⟨⟩))
      ⊢ wp frame (wpE (defs₀ (F := F)) Variants.none c none) E (cc0__linear_kernel i arg2 harg2 arg3 harg3 arg4 harg4 arg5 harg5) K := by
  simp only [cc0__linear_kernel_eq_skeleton]; unfold cc0__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Pipeline 0's proof data on core `c`: the arrays as the region finds them; after the body at point `t` each
    input's buffer at its block and the output's at `out0_3` of the input blocks; the invariant is the scoped
    buffers no window stages and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KiR1.lean ====
/-
  Region 1 of the idealized kernel's @main: the attention call, one pallas_call on a 4 × 8 × 2 grid (batch entry,
  pair of heads, half of the query rows). At a grid point the body reads four blocks: 512 query rows of the two
  heads' 128 query columns, all 1024 rows of the same two heads' 128 key columns and 128 value columns — three blocks
  of ONE array, the fused projection's output, at column offsets 0, 1024 and 2048 — and the 512 × 1024 block of the
  mask's words for those query rows. It stores the two heads' 512 × 1024 attention probabilities, one head after the
  other, into the two leading slices of a 2 × 512 × 1024 block, and the two heads' 512 × 64 outputs, side by side,
  into a 1 × 512 × 128 block. Nothing is kept from point to point, so what each output window's staging buffer holds
  after the body is a function of the input blocks alone (`out1_4`, `out1_5`), and each input window's buffer holds
  its block at every point, fetched there or not. This module states that, proves the body's obligation to the
  pipeline at the region's entry contents `V`, whatever they are, and splits the region's arrays off the core's
  unscoped buffers and joins them back: the three input windows on the one array each hold a third share of it.
-/
import proofs.«404232_j53352083751420_3_alg».proof.Proof.Gen.KernelIdeal.Launch
import proofs.«404232_j53352083751420_3_alg».proof.Proof.Gen.KernelIdeal.Skeleton
import proofs.«404232_j53352083751420_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point: where the pipeline did not fetch it
    the block index has not moved since the last fetch (the key and value blocks do not depend on the half of the
    query rows, so they are fetched at every other point only). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The query block, the key block (the value block has its shape), the mask block and the output block, each
    whole; -/
abbrev r1_q : Rect S1x512x128 := Rect.unit (s := S1x512x128) ![0, 0, 0] S1x512x128.size inb_S1x512x128_S1x512x128_0_0_0
abbrev r1_k : Rect S1x1024x128 := Rect.unit (s := S1x1024x128) ![0, 0, 0] S1x1024x128.size inb_S1x1024x128_S1x1024x128_0_0_0
abbrev r1_m : Rect S512x1024 := Rect.unit (s := S512x1024) ![0, 0] S512x1024.size inb_S512x1024_S512x1024_0_0
/-- and the two slices of the probabilities' block: the first head's and the second head's. -/
abbrev r1_p0 : Rect S2x512x1024 := Rect.unit (s := S2x512x1024) ![0, 0, 0] S1x512x1024.size inb_S2x512x1024_S1x512x1024_0_0_0
abbrev r1_p1 : Rect S2x512x1024 := Rect.unit (s := S2x512x1024) ![1, 0, 0] S1x512x1024.size inb_S2x512x1024_S1x512x1024_1_0_0

/-! ## What the body leaves in the output windows' buffers -/

/-- The attention outputs' buffer after the body, from the four input blocks: its one store, of the whole block —
    the first head's probabilities times the first 64 value columns beside the second head's times the last 64. -/
def out1_4 (x0 : Vec F S1x512x128 .bf16) (x1 x2 : Vec F S1x1024x128 .bf16) (x3 : Vec F S512x1024 .i32) : Vec F S1x512x128 .bf16 :=
  View.canon [⟨r1_q, k1_pay3 (k1_pay4 (View.ld x3 r1_m)) (k1_pay10 (View.ld x3 r1_m) (View.ld x0 r1_q) (View.ld x1 r1_k) (View.ld x2 r1_k))
    (k1_pay11 (View.ld x2 r1_k)) (k1_pay12 (View.ld x0 r1_q) (View.ld x1 r1_k))⟩]

/-- The probabilities' buffer after the body, from the query, key and mask blocks: its two stores, the later one
    first — the second head's masked softmax in slice 1, the first head's in slice 0. The value block is not read
    for it. -/
def out1_5 (x0 : Vec F S1x512x128 .bf16) (x1 : Vec F S1x1024x128 .bf16) (x3 : Vec F S512x1024 .i32) : Vec F S2x512x1024 .f32 :=
  View.canon [⟨r1_p1, k1_pay2 (k1_pay4 (View.ld x3 r1_m)) (k1_pay12 (View.ld x0 r1_q) (View.ld x1 r1_k))⟩,
    ⟨r1_p0, k1_pay9 (View.ld x3 r1_m) (View.ld x0 r1_q) (View.ld x1 r1_k)⟩]

/-- The one store covers the outputs' buffer, -/
theorem cover1_4 (p0 : Vec F S1x512x128 .bf16) (y : S1x512x128.Idx) :
    ∃ pc ∈ ([⟨r1_q, p0⟩] : List (View.Piece (Elt F) S1x512x128 .bf16)), y ∈ pc.1.set :=
  View.cover_of_tiled [⟨r1_q, p0⟩] S1x512x128.size (by rfl) y

/-- and the two slices tile the probabilities' buffer. -/
theorem cover1_5 (p1 p0 : Vec F S1x512x1024 .f32) (y : S2x512x1024.Idx) :
    ∃ pc ∈ ([⟨r1_p1, p1⟩, ⟨r1_p0, p0⟩] : List (View.Piece (Elt F) S2x512x1024 .f32)), y ∈ pc.1.set :=
  View.cover_of_tiled [⟨r1_p1, p1⟩, ⟨r1_p0, p0⟩] S1x512x1024.size (by rfl) y

/-! ## The body's triple -/

set_option maxHeartbeats 4000000 in
/-- The body on whole staging memrefs, the inputs' at read contents `x0 x1 x2 x3` and the outputs' at anything, runs
    to the continuation holding the inputs' as they were, the attention outputs' at `out1_4` and the
    probabilities' at `out1_5` of them. -/
theorem sound_kernel1 (c : Dev nD) (E : Set ℕ) (i : grid1.Coords) (arg3 : Memref sig .tc .vmem S1x512x128 .bf16) (harg3 : arg3.IsWhole) (arg4 : Memref sig .tc .vmem S1x1024x128 .bf16) (harg4 : arg4.IsWhole) (arg5 : Memref sig .tc .vmem S1x1024x128 .bf16) (harg5 : arg5.IsWhole) (arg6 : Memref sig .tc .vmem S512x1024 .i32) (harg6 : arg6.IsWhole) (arg7 : Memref sig .tc .vmem S1x512x128 .bf16) (harg7 : arg7.IsWhole) (arg8 : Memref sig .tc .vmem S2x512x1024 .f32) (harg8 : arg8.IsWhole)
    (x0 : Vec F S1x512x128 .bf16) (x1 x2 : Vec F S1x1024x128 .bf16) (x3 : Vec F S512x1024 .i32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3
            ∗ owns (c : Thread nD τ) arg7 fullShare (out1_4 x0 x1 x2 x3) ∗ owns (c : Thread nD τ) arg8 fullShare (out1_5 x0 x1 x3)) -∗ K ⟨⟩))
      ⊢ wp frame (wpE (defs₀ (F := F)) Variants.none c none) E (cc1__kernel i arg3 harg3 arg4 harg4 arg5 harg5 arg6 harg6 arg7 harg7 arg8 harg8) K := by
  simp only [cc1__kernel_eq_skeleton]; unfold cc1__kernel_skel
  simp only [k1_part1_eq_skeleton]; unfold k1_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover1_4 _)
  iexists _; isplitr
  swap; · iexact H5
  ipureintro
  exact View.read_writes_eq_canon _ _ _ (cover1_5 _ _)

/-! ## The pipeline's proof data -/

/-- Pipeline 1's proof data on core `c`: the arrays as the region finds them; after the body at point `t` each
    input's buffer at its block, the attention outputs' at `out1_4` and the probabilities' at `out1_5` of the input
    blocks; the invariant is the scoped buffers no window stages and the generator register, untouched; nothing
    owed. The query, key and value windows read one array, so each holds a third of it: the left half of the full
    share, and the two halves of the right half; the mask's window holds its array whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
    | ⟨5, _⟩ => out1_5 (iblk1 V c 0 t) (iblk1 V c 1 t) (iblk1 V c 3 t)
  Φ _ := Pipeline.ΦA spec1 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = out1_4 (iblk1 V c 0 t) (iblk1 V c 1 t) (iblk1 V c 2 t) (iblk1 V c 3 t) := by dsimp only [dat1]
theorem after1_5 (c : Dev nD) (t : Fin cfg1.N) : (dat1 V c).after 5 t = out1_5 (iblk1 V c 0 t) (iblk1 V c 1 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

/-! ## The region's arrays among the core's unscoped buffers -/

/-- The buffers behind the six windows' arrays are four: the projection's output, which the query, key and value
    windows all read, the mask's words and the two results. -/
theorem arrRefs1 : Finset.univ.image (Pipeline.arrRef spec1) = [main_v3, main_v4, main_v5_0, main_v5_1].toFinset := by decide

/-- A core's unscoped buffers at contents `V'` are those four and the rest. -/
theorem unscopedBufs_split1 (c : Dev nD) (V' : (b : Ref sig .tc) → Buf (Elt F) ((c : Thread nD τ).loc b)) :
    (unscopedBufs c V' : sProp 𝕄) = iprop(Pipeline.arrBufs spec1 c V' ∗ Pipeline.unscopedRest spec1 c V') :=
  Pipeline.unscopedBufs_split₀ cfgs 1 winFacts₀1.arr_unscoped c V'

/-- The four, each whole at the full share, one by one. -/
theorem arrBufs1_eq (c : Dev nD) (V' : (b : Ref sig .tc) → Buf (Elt F) ((c : Thread nD τ).loc b)) :
    (Pipeline.arrBufs spec1 c V' : sProp 𝕄)
      = iprop((((c : Thread nD τ).loc main_v3) ↦{fullShare} V' main_v3) ∗ (((c : Thread nD τ).loc main_v4) ↦{fullShare} V' main_v4)
          ∗ (((c : Thread nD τ).loc main_v5_0) ↦{fullShare} V' main_v5_0) ∗ (((c : Thread nD τ).loc main_v5_1) ↦{fullShare} V' main_v5_1)) := by
  unfold Pipeline.arrBufs
  exact bigSep_eq_bigSepL_of_eq [main_v3, main_v4, main_v5_0, main_v5_1] arrRefs1 (by decide) _

/-- The pipeline's arrays at the contents a valuation `V'` gives them, window by window: the three windows on the
    projection's output hold a third of it each, the other three hold their arrays whole. -/
theorem arrays1_eq (c : Dev nD) (V' : (b : Ref sig .tc) → Buf (Elt F) ((c : Thread nD τ).loc b)) :
    ((dat1 V c).arrays (fun w => V' (Pipeline.arrRef spec1 w)) : sProp 𝕄)
      = iprop((((c : Thread nD τ).loc main_v3) ↦{fullShare.left} V' main_v3) ∗ (((c : Thread nD τ).loc main_v3) ↦{fullShare.right.left} V' main_v3)
          ∗ (((c : Thread nD τ).loc main_v3) ↦{fullShare.right.right} V' main_v3) ∗ (((c : Thread nD τ).loc main_v4) ↦{fullShare} V' main_v4)
          ∗ (((c : Thread nD τ).loc main_v5_0) ↦{fullShare} V' main_v5_0) ∗ (((c : Thread nD τ).loc main_v5_1) ↦{fullShare} V' main_v5_1)) := by
  unfold Dat.arrays
  rw [bigSep_W1]
  have s0 : (dat1 V c).share 0 = fullShare.left := (if_neg (by decide)).trans (by dsimp only [dat1])
  have s1 : (dat1 V c).share 1 = fullShare.right.left := (if_neg (by decide)).trans (by dsimp only [dat1])
  have s2 : (dat1 V c).share 2 = fullShare.right.right := (if_neg (by decide)).trans (by dsimp only [dat1])
  have s3 : (dat1 V c).share 3 = fullShare := (if_neg (by decide)).trans (by dsimp only [dat1])
  have s4 : (dat1 V c).share 4 = fullShare := if_pos rfl
  have s5 : (dat1 V c).share 5 = fullShare := if_pos rfl
  rw [s0, s1, s2, s3, s4, s5]
  simp only [View.set_whole]

/-- ENTRY: a core's unscoped buffers at the region's entry contents are the pipeline's arrays at the proof data's
    entry contents and the unscoped rest — the full share of the projection's output split in three. -/
theorem entry1 (c : Dev nD) : (unscopedBufs c (V c) : sProp 𝕄) ⊢ iprop((dat1 V c).arrays ((dat1 V c).arrAt · 0) ∗ Pipeline.unscopedRest (Ix := Unit) (Name := ℕ) (U := UR sig nD τ) (Lvl := ℕ) spec1 c (V c)) := by
  have h0 : (fun w => (dat1 V c).arrAt w 0) = fun w => V c (Pipeline.arrRef spec1 w) := funext fun w => A_eq1 V c w
  rw [unscopedBufs_split1, arrBufs1_eq, h0, arrays1_eq]
  iintro ⟨⟨H3, H4, H50, H51⟩, Hrest⟩
  ihave H3' := (pointsTo_share (PosShare.mem_left_op_right fullShare)).1 $$ H3
  icases H3' with ⟨Hq, Hkv⟩
  ihave Hkv' := (pointsTo_share (PosShare.mem_left_op_right fullShare.right)).1 $$ Hkv
  icases Hkv' with ⟨Hk, Hv⟩
  isplitr [Hrest]
  · isplitl [Hq]; · iexact Hq
    isplitl [Hk]; · iexact Hk
    isplitl [Hv]; · iexact Hv
    isplitl [H4]; · iexact H4
    isplitl [H50]; · iexact H50
    iexact H51
  iexact Hrest

/-- EXIT: the pipeline's arrays at what its write-backs leave and the unscoped rest as entered are the core's
    unscoped buffers at any valuation `V'` that has the arrays at those contents and agrees with the entry contents
    off them — the three thirds of the projection's output, all at the one contents, joined back. -/
theorem exit1 (c : Dev nD) (V' : (b : Ref sig .tc) → Buf (Elt F) ((c : Thread nD τ).loc b)) (hF : ∀ w, (dat1 V c).arrAt w cfg1.N = V' (Pipeline.arrRef spec1 w)) (hrest : ∀ b, b ∉ Finset.univ.image (Pipeline.arrRef spec1) → V' b = V c b) : iprop((dat1 V c).arrays ((dat1 V c).arrAt · cfg1.N) ∗ Pipeline.unscopedRest (Ix := Unit) (Name := ℕ) (U := UR sig nD τ) (Lvl := ℕ) spec1 c (V c)) ⊢ (unscopedBufs c V' : sProp 𝕄) := by
  have hN : (fun w => (dat1 V c).arrAt w cfg1.N) = fun w => V' (Pipeline.arrRef spec1 w) := funext hF
  have hR : (Pipeline.unscopedRest spec1 c (V c) : sProp 𝕄) = Pipeline.unscopedRest spec1 c V' := by
    unfold Pipeline.unscopedRest
    exact bigSep_congr fun b hb => by rw [hrest b (Finset.mem_sdiff.mp hb).2]
  rw [unscopedBufs_split1, arrBufs1_eq, hN, arrays1_eq, hR]
  iintro ⟨⟨Hq, Hk, Hv, H4, H50, H51⟩, Hrest⟩
  ihave Hkv := (pointsTo_share (PosShare.mem_left_op_right fullShare.right)).2 $$ [Hk Hv]
  · isplitl [Hk]; · iexact Hk
    iexact Hv
  ihave H3 := (pointsTo_share (PosShare.mem_left_op_right fullShare)).2 $$ [Hq Hkv]
  · isplitl [Hq]; · iexact Hq
    iexact Hkv
  isplitr [Hrest]
  · isplitl [H3]; · iexact H3
    isplitl [H4]; · iexact H4
    isplitl [H50]; · iexact H50
    iexact H51
  iexact Hrest

end Cert.KernelIdeal.Hand

end
-- ==== Proof.KiR2.lean ====
/- Region 2 of the idealized kernel's @main: the output projection, one pallas_call on a 1 × 8 grid.
  At a grid point the body reads a 512 × 1024 block of the context rows, the whole 1024 × 1024 weight and the whole
  1 × 1024 bias, and stores ONE 512 × 1024 block: the block of rows times the transposed weight, plus the bias row.
  Nothing is kept from point to point, so what the output window's staging buffer holds after the body is a function
  of the three input blocks alone (`out2_3`), and each input window's buffer holds its block at every point, fetched
  there or not. This module states that and proves the body's obligation to the pipeline at the region's entry
  contents `V`, whatever they are.
-/
import proofs.«404232_j53352083751420_3_alg».proof.Proof.Gen.KernelIdeal.Launch
import proofs.«404232_j53352083751420_3_alg».proof.Proof.Gen.KernelIdeal.Skeleton
import proofs.«404232_j53352083751420_3_alg».proof.Proof.Gen.KernelIdeal.Points
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point: where the pipeline did not fetch it
    the block index has not moved since the last fetch. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each staging buffer whole -/

abbrev r2_a : Rect S512x1024 := Rect.unit (s := S512x1024) ![0, 0] S512x1024.size inb_S512x1024_S512x1024_0_0
abbrev r2_w : Rect S1024x1024 := Rect.unit (s := S1024x1024) ![0, 0] S1024x1024.size inb_S1024x1024_S1024x1024_0_0
abbrev r2_b : Rect S1x1024 := Rect.unit (s := S1x1024) ![0, 0] S1x1024.size inb_S1x1024_S1x1024_0_0

/-! ## What the body leaves in the output window's buffer -/

/-- The output buffer after the body, from the three input blocks: its one store, of the whole block. -/
def out2_3 (x0 : Vec F S512x1024 .bf16) (x1 : Vec F S1024x1024 .f32) (x2 : Vec F S1x1024 .f32) : Vec F S512x1024 .f32 :=
  View.canon [⟨r2_a, k2_pay1 (View.ld x0 r2_a) (View.ld x1 r2_w) (View.ld x2 r2_b)⟩]

/-- The one store covers the buffer. -/
theorem cover2_3 (p0 : Vec F S512x1024 .f32) (y : S512x1024.Idx) :
    ∃ pc ∈ ([⟨r2_a, p0⟩] : List (View.Piece (Elt F) S512x1024 .f32)), y ∈ pc.1.set :=
  View.cover_of_tiled [⟨r2_a, p0⟩] S512x1024.size (by rfl) y

/-! ## The body's triple -/

set_option maxHeartbeats 1000000 in
/-- The body on whole staging memrefs, the inputs' at read contents `x0 x1 x2` and the output's at anything, runs to
    the continuation holding the inputs' as they were and the output's at `out2_3` of them. -/
theorem sound_kernel2 (c : Dev nD) (E : Set ℕ) (i : grid2.Coords) (arg2 : Memref sig .tc .vmem S512x1024 .bf16) (harg2 : arg2.IsWhole) (arg3 : Memref sig .tc .vmem S1024x1024 .f32) (harg3 : arg3.IsWhole) (arg4 : Memref sig .tc .vmem S1x1024 .f32) (harg4 : arg4.IsWhole) (arg5 : Memref sig .tc .vmem S512x1024 .f32) (harg5 : arg5.IsWhole)
    (x0 : Vec F S512x1024 .bf16) (x1 : Vec F S1024x1024 .f32) (x2 : Vec F S1x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__linear_kernel i arg2 harg2 arg3 harg3 arg4 harg4 arg5 harg5) K := by
  simp only [cc2__linear_kernel_eq_skeleton]; unfold cc2__linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- Pipeline 2's proof data on core `c`: the arrays as the region finds them; after the body at point `t` each
    input's buffer at its block and the output's at `out2_3` of the input blocks; the invariant is the scoped
    buffers no window stages and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ (grid2.coords t) _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KiRun.lean ====
/-
  The idealized kernel's @main from launch to return: host re-layouts, the projection region, host re-layouts, the
  attention region, host re-layouts, the output-projection region, a last re-layout.
  The contents of the core's unscoped buffers are followed through the seven segments as a fold from the launch
  memory: a host stretch applies its operations; a region leaves each of its output arrays at what its write-backs
  fold to and every other buffer as it found it. Each region is entered from "every unscoped buffer at the fold's
  contents, the generator register at some state, nothing owed" and left at the same with the fold advanced, so the
  segments chain, and the run ends with every unscoped buffer at the last contents of the fold. From that one run
  follow the frame (no segment writes an argument) and, read at the two result buffers, the values.
-/
import proofs.«404232_j53352083751420_3_alg».proof.Proof.Gen.KernelIdeal.Regions
import proofs.«404232_j53352083751420_3_alg».proof.Proof.KiR0
import proofs.«404232_j53352083751420_3_alg».proof.Proof.KiR1
import proofs.«404232_j53352083751420_3_alg».proof.Proof.KiR2
import Idealize.ShloMosaic.Lib.Pipeline.RegionsLoop
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
/-- After the first host stretch (the bias as a row, the activations as 4096 rows): the projection's entry. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the projection's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the projected rows as [4, 1024, 3072], the mask as words): attention's entry. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At attention's exit: the context and the weights at what the pipeline leaves, every other buffer as entered
    (its three input windows on the projected array and the one on the mask words leave their arrays alone). -/
def W4 (c : Dev nD) : Valuation τ sig (Elt F) :=
  Function.update (Function.update (W3 m ρ c) (Proc.devRef .tc main_v5_0) ((dat1 (V3 m ρ) c).arrAt 4 cfg1.N))
    (Proc.devRef .tc main_v5_1) ((dat1 (V3 m ρ) c).arrAt 5 cfg1.N)
abbrev V4 : (c : Dev nD) → (b : Ref sig .tc) → Buf (Elt F) ((c : Thread nD τ).loc b) := fun c b => W4 m ρ c b
theorem W4_main_v5_1 (c : Dev nD) : W4 m ρ c (Proc.devRef .tc main_v5_1) = (dat1 (V3 m ρ) c).arrAt 5 cfg1.N := by
  unfold W4; exact Function.update_self ..
theorem W4_main_v5_0 (c : Dev nD) : W4 m ρ c (Proc.devRef .tc main_v5_0) = (dat1 (V3 m ρ) c).arrAt 4 cfg1.N := by
  unfold W4
  rw [Function.update_of_ne (StableHlo.devRef_ne_of_ne (by decide) : (Proc.devRef .tc main_v5_0 : DevRef τ sig) ≠ Proc.devRef .tc main_v5_1)]
  exact Function.update_self ..
theorem W4_of_ne (c : Dev nD) (b : Ref sig .tc) (h0 : b ≠ main_v5_0) (h1 : b ≠ main_v5_1) :
    W4 m ρ c (Proc.devRef .tc b) = W3 m ρ c (Proc.devRef .tc b) := by
  unfold W4
  rw [Function.update_of_ne (StableHlo.devRef_ne_of_ne h1 : (Proc.devRef .tc b : DevRef τ sig) ≠ Proc.devRef .tc main_v5_1),
    Function.update_of_ne (StableHlo.devRef_ne_of_ne h0 : (Proc.devRef .tc b : DevRef τ sig) ≠ Proc.devRef .tc main_v5_0)]
theorem hF1 (c : Dev nD) (w : Fin cfg1.W) : (dat1 (V3 m ρ) c).arrAt w cfg1.N = V4 m ρ c (Pipeline.arrRef spec1 w) := by
  match w with
  | ⟨0, _⟩ => exact (((dat1 (V3 m ρ) c).arrAt_in 0 rfl _).trans (A_eq1 (V3 m ρ) c 0)).trans (W4_of_ne m ρ c main_v3 (by decide) (by decide)).symm
  | ⟨1, _⟩ => exact (((dat1 (V3 m ρ) c).arrAt_in 1 rfl _).trans (A_eq1 (V3 m ρ) c 1)).trans (W4_of_ne m ρ c main_v3 (by decide) (by decide)).symm
  | ⟨2, _⟩ => exact (((dat1 (V3 m ρ) c).arrAt_in 2 rfl _).trans (A_eq1 (V3 m ρ) c 2)).trans (W4_of_ne m ρ c main_v3 (by decide) (by decide)).symm
  | ⟨3, _⟩ => exact (((dat1 (V3 m ρ) c).arrAt_in 3 rfl _).trans (A_eq1 (V3 m ρ) c 3)).trans (W4_of_ne m ρ c main_v4 (by decide) (by decide)).symm
  | ⟨4, _⟩ => exact (W4_main_v5_0 m ρ c).symm
  | ⟨5, _⟩ => exact (W4_main_v5_1 m ρ c).symm
theorem hrest1 (c : Dev nD) : ∀ b, b ∉ Finset.univ.image (Pipeline.arrRef spec1) → V4 m ρ c b = V3 m ρ c b :=
  fun b hb => W4_of_ne m ρ c b (fun e => hb (Finset.mem_image.mpr ⟨4, Finset.mem_univ _, e.symm⟩))
    (fun e => hb (Finset.mem_image.mpr ⟨5, Finset.mem_univ _, e.symm⟩))

/-- After the third host stretch (the output bias as a row, the context as 4096 rows): the output projection's entry. -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- At the output projection's exit. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)
/-- After the last host stretch (the output rows as [4, 1024, 1024]): the return. -/
abbrev W7 : Dev nD → Valuation τ sig (Elt F) := fun c => StableHlo.after hostOps3 (W6 m ρ c)

/-! ### What a host stretch leaves alone -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h
theorem W7_of (c : Dev nD) (r : Ref sig .tc) (h : r ∉ hostOps3_W) : W7 m ρ c r = W6 m ρ c r :=
  StableHlo.after_of_writes_sub hostOps3 _ hostOps3_writes h

/-- A buffer no host stretch has written and no region has as an output array holds its launch contents, boundary
    by boundary. -/
theorem W2_kept (c : Dev nD) (r : Ref sig .tc) (h0 : r ∉ hostOps0_W)
    (hr0 : ∀ w, Pipeline.arrRef spec0 w ≠ r ∨ (cfg0.win w).isOut = false) :
    W2 m ρ c r = m ((c : Thread nD τ).loc r) := by
  have e2 : W2 m ρ c (Proc.devRef .tc r) = W1 m ρ c (Proc.devRef .tc r) := by
    by_cases hw : ∃ w, Pipeline.arrRef spec0 w = r
    · obtain ⟨w, rfl⟩ := hw
      rcases hr0 w with h | h
      · exact absurd rfl h
      · exact (W2_arr m ρ c w).trans (((dat0 (V1 m ρ) c).arrAt_in w h _).trans (A_eq0 (V1 m ρ) c w))
    · exact W2_of_ne m ρ c r fun w e => hw ⟨w, e⟩
  exact e2.trans <| (W1_of m ρ c r h0).trans rfl
theorem W4_kept (c : Dev nD) (r : Ref sig .tc) (h0 : r ∉ hostOps0_W) (h1 : r ∉ hostOps1_W)
    (hr0 : ∀ w, Pipeline.arrRef spec0 w ≠ r ∨ (cfg0.win w).isOut = false) (hr1a : r ≠ main_v5_0) (hr1b : r ≠ main_v5_1) :
    W4 m ρ c r = m ((c : Thread nD τ).loc r) :=
  (W4_of_ne m ρ c r hr1a hr1b).trans <| (W3_of m ρ c r h1).trans <| W2_kept m ρ c r h0 hr0
theorem W6_kept (c : Dev nD) (r : Ref sig .tc) (h0 : r ∉ hostOps0_W) (h1 : r ∉ hostOps1_W) (h2 : r ∉ hostOps2_W)
    (hr0 : ∀ w, Pipeline.arrRef spec0 w ≠ r ∨ (cfg0.win w).isOut = false) (hr1a : r ≠ main_v5_0) (hr1b : r ≠ main_v5_1)
    (hr2 : ∀ w, Pipeline.arrRef spec2 w ≠ r ∨ (cfg2.win w).isOut = false) :
    W6 m ρ c r = m ((c : Thread nD τ).loc r) := by
  have e6 : W6 m ρ c (Proc.devRef .tc r) = W5 m ρ c (Proc.devRef .tc r) := by
    by_cases hw : ∃ w, Pipeline.arrRef spec2 w = r
    · obtain ⟨w, rfl⟩ := hw
      rcases hr2 w with h | h
      · exact absurd rfl h
      · exact (W6_arr m ρ c w).trans (((dat2 (V5 m ρ) c).arrAt_in w h _).trans (A_eq2 (V5 m ρ) c w))
    · exact W6_of_ne m ρ c r fun w e => hw ⟨w, e⟩
  exact e6.trans <| (W5_of m ρ c r h2).trans <| W4_kept m ρ c r h0 h1 hr0 hr1a hr1b
theorem W7_kept (c : Dev nD) (r : Ref sig .tc) (h0 : r ∉ hostOps0_W) (h1 : r ∉ hostOps1_W) (h2 : r ∉ hostOps2_W) (h3 : r ∉ hostOps3_W)
    (hr0 : ∀ w, Pipeline.arrRef spec0 w ≠ r ∨ (cfg0.win w).isOut = false)
    (hr1a : r ≠ main_v5_0) (hr1b : r ≠ main_v5_1)
    (hr2 : ∀ w, Pipeline.arrRef spec2 w ≠ r ∨ (cfg2.win w).isOut = false) :
    W7 m ρ c r = m ((c : Thread nD τ).loc r) :=
  (W7_of m ρ c r h3).trans <| W6_kept m ρ c r h0 h1 h2 hr0 hr1a hr1b hr2

theorem W7_main_arg0 (c : Dev nD) : W7 m ρ c main_arg0 = m ((c : Thread nD τ).loc main_arg0) :=
  W7_kept m ρ c main_arg0 (by decide) (by decide) (by decide) (by decide) (by decide) (by decide) (by decide) (by decide)
theorem W7_main_arg1 (c : Dev nD) : W7 m ρ c main_arg1 = m ((c : Thread nD τ).loc main_arg1) :=
  W7_kept m ρ c main_arg1 (by decide) (by decide) (by decide) (by decide) (by decide) (by decide) (by decide) (by decide)
theorem W7_main_arg2 (c : Dev nD) : W7 m ρ c main_arg2 = m ((c : Thread nD τ).loc main_arg2) :=
  W7_kept m ρ c main_arg2 (by decide) (by decide) (by decide) (by decide) (by decide) (by decide) (by decide) (by decide)
theorem W7_main_arg3 (c : Dev nD) : W7 m ρ c main_arg3 = m ((c : Thread nD τ).loc main_arg3) :=
  W7_kept m ρ c main_arg3 (by decide) (by decide) (by decide) (by decide) (by decide) (by decide) (by decide) (by decide)
theorem W7_main_arg4 (c : Dev nD) : W7 m ρ c main_arg4 = m ((c : Thread nD τ).loc main_arg4) :=
  W7_kept m ρ c main_arg4 (by decide) (by decide) (by decide) (by decide) (by decide) (by decide) (by decide) (by decide)
theorem W7_main_arg5 (c : Dev nD) : W7 m ρ c main_arg5 = m ((c : Thread nD τ).loc main_arg5) :=
  W7_kept m ρ c main_arg5 (by decide) (by decide) (by decide) (by decide) (by decide) (by decide) (by decide) (by decide)

/-! ## The proof data family and the thread state -/

/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The projection region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The attention region: entered from every unscoped buffer at `W3`, left at `W4`. Three of its windows read one
    array, so its arrays are sorted out of the unscoped buffers, and put back, at shares of that array. -/
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit : (unscopedBufs c (V3 m ρ c) : sProp 𝕄)
        ⊢ iprop((pdats m ρ 1 c).arrays ((pdats m ρ 1 c).arrAt · 0)
          ∗ Pipeline.unscopedRest (Ix := Unit) (Name := ℕ) (U := UR sig nD τ) (Lvl := ℕ) spec1 c (V3 m ρ c)) := entry1 (V3 m ρ) c
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m ρ 1 c).arrays ((pdats m ρ 1 c).arrAt · cfg1.N)
          ∗ Pipeline.unscopedRest (Ix := Unit) (Name := ℕ) (U := UR sig nD τ) (Lvl := ℕ) spec1 c (V3 m ρ c))
        ⊢ (unscopedBufs c (V4 m ρ c) : sProp 𝕄) := exit1 (V3 m ρ) c (V4 m ρ c) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The output-projection region: entered from every unscoped buffer at `W5`, left at `W6`. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's seven segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)) ]
/-- @main IS the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state holds each unscoped buffer of each core at the fold's last contents. -/
theorem run : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W7 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      show (iprop(StableHlo.held (c : Thread nD τ) (Pipeline.ucRefs τ sig) (W7 m ρ c) ∗ R c) : sProp 𝕄)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c b hb => h c _ (mem_uc b hb))

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c main_arg0 (by decide)).trans (W7_main_arg0 m ρ c), (h c main_arg1 (by decide)).trans (W7_main_arg1 m ρ c),
      (h c main_arg2 (by decide)).trans (W7_main_arg2 m ρ c), (h c main_arg3 (by decide)).trans (W7_main_arg3 m ρ c),
      (h c main_arg4 (by decide)).trans (W7_main_arg4 m ρ c), (h c main_arg5 (by decide)).trans (W7_main_arg5 m ρ c)⟩)
    (run m ρ)

end Cert.KernelIdeal.Hand

end
-- ==== Proof.Spec.lean ====
/-
  The mathematics both programs compute, on the extended reals, index by index.

  Multi-head self-attention over a batch of 4 sequences of 1024 tokens, model width 1024, 16 heads of width 64:
    * the fused projection  qkv[b, s, f] = (∑ e, x[b, s, e] · W[f, e]) + bias[f],  f < 3072: columns 0..1023 are the
      queries, 1024..2047 the keys, 2048..3071 the values; head h owns the 64 columns h·64 .. h·64 + 63 of each;
    * the scores  sc[b, h, s, t] = (∑ d, q[b, s, h·64 + d] · k[b, t, h·64 + d]) · 2⁻³, replaced by −∞ where the mask
      holds at (s, t);
    * the attention weights: the softmax of each row  t ↦ sc[b, h, s, t]  — the exponential of the entry less the
      row's maximum, over the sum of those exponentials;
    * the context  ctx[b, s, h·64 + d] = ∑ t, weights[b, h, s, t] · v[b, t, h·64 + d];
    * the output projection  out[b, s, f] = (∑ e, ctx[b, s, e] · Wo[f, e]) + bo[f].
  The results are `out` and the weights laid out as [b·16 + h, s, t].

  Everything is stated over literal shapes. The two-dimensional forms (`lin3072`, `lin1024` over 4096 = 4·1024 rows,
  `attw`, `ctx` over the projected [4, 1024, 3072] array) are what one pallas_call computes of the arrays it is
  handed; `rows`, `unrows…`, `asRow…` are the row-major re-layouts between them.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Sh1 (a : Nat) : Shape := ⟨1, ![a]⟩
abbrev Sh2 (a b : Nat) : Shape := ⟨2, ![a, b]⟩
abbrev Sh3 (a b c : Nat) : Shape := ⟨3, ![a, b, c]⟩

/-! ## Columns and rows -/

/-- Column `h·64 + d` of a 1024-wide third: head `h`, lane `d`. -/
def col (h : Fin 16) (d : Fin 64) : Fin 1024 := ⟨h.val * 64 + d.val, by have := h.isLt; have := d.isLt; omega⟩
/-- The query, key and value columns of the projected array. -/
def colQ (e : Fin 1024) : Fin 3072 := ⟨e.val, by have := e.isLt; omega⟩
def colK (e : Fin 1024) : Fin 3072 := ⟨1024 + e.val, by have := e.isLt; omega⟩
def colV (e : Fin 1024) : Fin 3072 := ⟨2048 + e.val, by have := e.isLt; omega⟩
/-- The head that owns column `e`. -/
def headOf (e : Fin 1024) : Fin 16 := ⟨e.val / 64, by have := e.isLt; omega⟩
/-- Row `b·1024 + s` of the 4096 token rows. -/
def row (b : Fin 4) (s : Fin 1024) : Fin 4096 := ⟨b.val * 1024 + s.val, by have := b.isLt; have := s.isLt; omega⟩
def rowB (r : Fin 4096) : Fin 4 := ⟨r.val / 1024, by have := r.isLt; omega⟩
def rowS (r : Fin 4096) : Fin 1024 := ⟨r.val % 1024, Nat.mod_lt _ (by decide)⟩
/-- Slab `b·16 + h` of the 64 weight slabs. -/
def slab (b : Fin 4) (h : Fin 16) : Fin 64 := ⟨b.val * 16 + h.val, by have := b.isLt; have := h.isLt; omega⟩
def slabB (g : Fin 64) : Fin 4 := ⟨g.val / 16, by have := g.isLt; omega⟩
def slabH (g : Fin 64) : Fin 16 := ⟨g.val % 16, Nat.mod_lt _ (by decide)⟩

/-! ## Re-layouts -/

def rows (x : FVec Ideal (Sh3 4 1024 1024) .f32) : FVec Ideal (Sh2 4096 1024) .f32 :=
  fun j => x (ix3 (rowB (j 0)) (rowS (j 0)) (j 1))
def unrows3072 (y : FVec Ideal (Sh2 4096 3072) .f32) : FVec Ideal (Sh3 4 1024 3072) .f32 :=
  fun j => y (ix2 (row (j 0) (j 1)) (j 2))
def unrows1024 (y : FVec Ideal (Sh2 4096 1024) .f32) : FVec Ideal (Sh3 4 1024 1024) .f32 :=
  fun j => y (ix2 (row (j 0) (j 1)) (j 2))
def asRow3072 (b : FVec Ideal (Sh1 3072) .f32) : FVec Ideal (Sh2 1 3072) .f32 := fun j => b (ix1 (j 1))
def asRow1024 (b : FVec Ideal (Sh1 1024) .f32) : FVec Ideal (Sh2 1 1024) .f32 := fun j => b (ix1 (j 1))

/-! ## The two projections, over the 4096 token rows -/

/-- `a · wᵀ + b` into 3072 columns. -/
def lin3072 (a : FVec Ideal (Sh2 4096 1024) .f32) (w : FVec Ideal (Sh2 3072 1024) .f32) (b : FVec Ideal (Sh2 1 3072) .f32) :
    FVec Ideal (Sh2 4096 3072) .f32 :=
  fun j => (∑ k : Fin 1024, a (ix2 (j 0) k) * w (ix2 (j 1) k)) + b (ix2 (0 : Fin 1) (j 1))
/-- `a · wᵀ + b` into 1024 columns. -/
def lin1024 (a : FVec Ideal (Sh2 4096 1024) .f32) (w : FVec Ideal (Sh2 1024 1024) .f32) (b : FVec Ideal (Sh2 1 1024) .f32) :
    FVec Ideal (Sh2 4096 1024) .f32 :=
  fun j => (∑ k : Fin 1024, a (ix2 (j 0) k) * w (ix2 (j 1) k)) + b (ix2 (0 : Fin 1) (j 1))

/-! ## One row of scores to one row of weights -/

/-- The maximum of a row, from −∞. -/
def rowMax (r : Fin 1024 → EReal) : EReal := (Finset.univ : Finset (Fin 1024)).fold max ⊥ r
/-- The softmax of a row at `t`. -/
def smax (r : Fin 1024 → EReal) (t : Fin 1024) : EReal :=
  Ideal.div (Ideal.exp (r t - rowMax r)) (∑ t' : Fin 1024, Ideal.exp (r t' - rowMax r))

/-! ## Attention over the projected array -/

/-- The scale 2⁻³ = 64^(−1/2), as the word both programs print. -/
def scale : EReal := Ideal.ofBits .f32 0x3E000000#32

open Classical in
/-- The masked score of query `s` against key `t` in head `h` of batch `b`; `mk` holds where the mask does. -/
def score (qkv : FVec Ideal (Sh3 4 1024 3072) .f32) (mk : Fin 1024 → Fin 1024 → Prop)
    (b : Fin 4) (h : Fin 16) (s t : Fin 1024) : EReal :=
  if mk s t then ⊥ else (∑ d : Fin 64, qkv (ix3 b s (colQ (col h d))) * qkv (ix3 b t (colK (col h d)))) * scale

theorem score_of_mask {qkv : FVec Ideal (Sh3 4 1024 3072) .f32} {mk : Fin 1024 → Fin 1024 → Prop} {b : Fin 4} {h : Fin 16} {s t : Fin 1024}
    (hm : mk s t) : score qkv mk b h s t = ⊥ := by unfold score; exact if_pos hm
theorem score_of_not_mask {qkv : FVec Ideal (Sh3 4 1024 3072) .f32} {mk : Fin 1024 → Fin 1024 → Prop} {b : Fin 4} {h : Fin 16} {s t : Fin 1024}
    (hm : ¬ mk s t) : score qkv mk b h s t = (∑ d : Fin 64, qkv (ix3 b s (colQ (col h d))) * qkv (ix3 b t (colK (col h d)))) * scale := by
  unfold score; exact if_neg hm

/-- The attention weight. -/
def weight (qkv : FVec Ideal (Sh3 4 1024 3072) .f32) (mk : Fin 1024 → Fin 1024 → Prop)
    (b : Fin 4) (h : Fin 16) (s t : Fin 1024) : EReal :=
  smax (fun t' => score qkv mk b h s t') t

/-- The weights as the [64, 1024, 1024] result. -/
def attw (qkv : FVec Ideal (Sh3 4 1024 3072) .f32) (mk : Fin 1024 → Fin 1024 → Prop) :
    FVec Ideal (Sh3 64 1024 1024) .f32 :=
  fun j => weight qkv mk (slabB (j 0)) (slabH (j 0)) (j 1) (j 2)

/-- The context: each head's weights applied to its value columns. -/
def ctx (qkv : FVec Ideal (Sh3 4 1024 3072) .f32) (mk : Fin 1024 → Fin 1024 → Prop) :
    FVec Ideal (Sh3 4 1024 1024) .f32 :=
  fun j => ∑ t : Fin 1024, weight qkv mk (j 0) (headOf (j 2)) (j 1) t * qkv (ix3 (j 0) t (colV (j 2)))

/-! ## The whole computation of the arguments -/

/-- The mask as a relation: it holds where the Boolean array has a one. -/
def maskOf (m : IVec (Sh2 1024 1024) 1) : Fin 1024 → Fin 1024 → Prop := fun s t => m (ix2 s t) = 1#1

/-- The projected array. -/
def qkvOf (x : FVec Ideal (Sh3 4 1024 1024) .f32) (w : FVec Ideal (Sh2 3072 1024) .f32) (b : FVec Ideal (Sh1 3072) .f32) :
    FVec Ideal (Sh3 4 1024 3072) .f32 :=
  unrows3072 (lin3072 (rows x) w (asRow3072 b))

/-- The second result: the attention weights. -/
def resWeights (x : FVec Ideal (Sh3 4 1024 1024) .f32) (m : IVec (Sh2 1024 1024) 1) (w : FVec Ideal (Sh2 3072 1024) .f32)
    (b : FVec Ideal (Sh1 3072) .f32) : FVec Ideal (Sh3 64 1024 1024) .f32 :=
  attw (qkvOf x w b) (maskOf m)

/-- The first result: the output projection of the context. -/
def resOut (x : FVec Ideal (Sh3 4 1024 1024) .f32) (m : IVec (Sh2 1024 1024) 1) (w : FVec Ideal (Sh2 3072 1024) .f32)
    (b : FVec Ideal (Sh1 3072) .f32) (wo : FVec Ideal (Sh2 1024 1024) .f32) (bo : FVec Ideal (Sh1 1024) .f32) :
    FVec Ideal (Sh3 4 1024 1024) .f32 :=
  unrows1024 (lin1024 (rows (ctx (qkvOf x w b) (maskOf m))) wo (asRow1024 bo))

end Cert.Spec

end
-- ==== Proof.KiVal0.lean ====
/-
  What region 0 of the idealized kernel leaves in its output array, on the extended reals: the fused query/key/value
  projection  out[r, n] = (∑ k, a[r, k] · w[n, k]) + bias[0, n],  r < 4096, n < 3072, of the three arrays the region finds.

  The region runs a 3 × 8 grid. At the point with coordinates (i0, i1) the body holds rows 512·i1 … 512·i1 + 511 of the
  activations, rows 1024·i0 … 1024·i0 + 1023 of the weight and columns 1024·i0 … 1024·i0 + 1023 of the bias row, and it
  stores the 512 × 1024 block of the output at rows 512·i1 …, columns 1024·i0 …: entry (p, q) of that block is row p of the
  activations' block against row q of the weight's block, summed over the 1024 contracted positions, plus entry q of the
  bias block. The body's changes of float format are the identity on the extended reals and its product accumulates into
  zero. So every point writes back exactly its block of the projection; the blocks tile the array (row r, column n lies in
  the block of the point with i1 = r / 512 and i0 = n / 1024), and the array ends holding the projection.
-/
import proofs.«404232_j53352083751420_3_alg».proof.Proof.KiR0
import proofs.«404232_j53352083751420_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's block product and bias, at an entry -/

/-- The product's left operand is read at the output's row and the contracted position, -/
theorem dotL0_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem dotL0_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- and its right operand at the output's column, as a row, and the contracted position. -/
theorem dotR0_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem dotR0_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The block product into the zero splat, at row `p` and column `q`: the sum over the 1024 contracted positions of the
    left block's row `p` times the right block's row `q`. -/
theorem blockProduct0_apply (l : FVec Ideal S512x1024 .bf16) (r : FVec Ideal S1024x1024 .bf16) (p : Fin 512) (q : Fin 1024) :
    matmul dot_S512x1024_S1024x1024_S512x1024_1_1_0_0_n_n none l r (constant (F := Ideal) S512x1024 .f32 0x00000000#32) (ix2 p q)
      = ∑ k : Fin 1024, l (ix2 p k) * r (ix2 q k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact dotL0_0 _ _
    | ⟨1, _⟩ => exact (dotL0_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact dotR0_0 _ _
    | ⟨1, _⟩ => exact (dotR0_1 _ _).trans hk)
  rw [el, er]

/-- The bias row spread over the 512 rows reads, in every row, the row's entry of the column. -/
theorem biasRows0_apply (b : FVec Ideal S1x1024 .f32) (p : Fin 512) (q : Fin 1024) :
    broadcastTo S512x1024 b broadcasts_S1x1024_S512x1024 (ix2 p q) = b (ix2 0 q) :=
  broadcastTo_apply b broadcasts_S1x1024_S512x1024 (ix2 p q) (ix2 0 q) fun a => by
    match a with
    | ⟨0, _⟩ => rfl
    | ⟨1, _⟩ => rfl

/-- What the body stores at row `p`, column `q` of its block: row `p` of the first block against row `q` of the second,
    plus the third's entry `q`. The changes of float format are the identity on the extended reals. -/
theorem pay0_apply (x0 : Vec Ideal S512x1024 .f32) (x1 : Vec Ideal S1024x1024 .f32) (x2 : Vec Ideal S1x1024 .f32)
    (p : Fin 512) (q : Fin 1024) :
    k0_pay1 (F := Ideal) x0 x1 x2 (ix2 p q) = (∑ k : Fin 1024, x0 (ix2 p k) * x1 (ix2 q k)) + x2 (ix2 0 q) := by
  unfold k0_pay1
  simp only [shapeCast_self]
  refine (congrArg₂ (· + ·) (blockProduct0_apply _ _ p q) (biasRows0_apply x2 p q)).trans ?_
  rfl

/-! ## The projection's blocks -/

variable (V : (c : Dev nD) → (b : Ref sig .tc) → Buf (Elt Ideal) ((c : Thread nD τ).loc b))

theorem hz0 : (![0, 0] : Fin 2 → Nat) = fun _ => 0 := funext fun a => by fin_cases a <;> rfl

/-- The projection at row `r`, column `n`. -/
theorem lin3072_apply (A : FVec Ideal (Cert.Spec.Sh2 4096 1024) .f32) (W : FVec Ideal (Cert.Spec.Sh2 3072 1024) .f32)
    (B : FVec Ideal (Cert.Spec.Sh2 1 3072) .f32) (r : Fin 4096) (n : Fin 3072) :
    Cert.Spec.lin3072 A W B (ix2 r n) = (∑ k : Fin 1024, A (ix2 r k) * W (ix2 n k)) + B (ix2 (0 : Fin 1) n) := rfl

/-- The windows' index maps over the grid's points: the first block moves with the output's row block, the second and the
    third with the output's column block; the row block's index is at most 7, the column block's at most 2. -/
theorem idx_facts0 : ∀ t : Fin cfg0.N, win0_0.index t (0 : Fin 2) = win0_3.index t (0 : Fin 2)
    ∧ win0_0.index t (1 : Fin 2) = 0
    ∧ win0_1.index t (0 : Fin 2) = win0_3.index t (1 : Fin 2)
    ∧ win0_1.index t (1 : Fin 2) = 0
    ∧ win0_2.index t (0 : Fin 2) = 0
    ∧ win0_2.index t (1 : Fin 2) = win0_3.index t (1 : Fin 2)
    ∧ win0_3.index t (0 : Fin 2) ≤ 7
    ∧ win0_3.index t (1 : Fin 2) ≤ 2 :=
  (by decide +kernel : ∀ t : Fin grid0.N, _)

/-- Every pair of a row block and a column block is some point's. -/
theorem idx_onto0 : ∀ (q0 : Fin 8) (q1 : Fin 3), ∃ t : Fin cfg0.N, win0_3.index t = ![q0.val, q1.val] :=
  (by decide +kernel : ∀ (q0 : Fin 8) (q1 : Fin 3), ∃ t : Fin grid0.N, win0_3.index t = ![q0.val, q1.val])

/-- The first block at point `t`, entry (p, k): the array at row (block index) · 512 + p. -/
theorem ablk0_apply (c : Dev nD) (t : Fin cfg0.N) (p : Fin 512) (k : Fin 1024) (r : Fin 4096)
    (hr : r.val = win0_0.index t (0 : Fin 2) * 512 + p.val) (h1 : win0_0.index t (1 : Fin 2) = 0) :
    (iblk0 V c 0 t : Vec Ideal S512x1024 .f32) (ix2 p k) = (V c main_v1 : S4096x1024.Idx → EReal) (ix2 r k) := by
  unfold iblk0
  show V c main_v1 (((cfg0.win 0).blk t).view.emb (ix2 p k)) = V c main_v1 (ix2 r k)
  refine congrArg (V c main_v1) (funext fun a => Fin.ext ?_)
  match a with
  | ⟨0, _⟩ => show win0_0.index t (0 : Fin 2) * 512 + 1 * p.val = r.val; omega
  | ⟨1, _⟩ => show win0_0.index t (1 : Fin 2) * 1024 + 1 * k.val = k.val; omega

/-- The second block at point `t`, entry (q, k): the array at row (block index) · 1024 + q. -/
theorem wblk0_apply (c : Dev nD) (t : Fin cfg0.N) (q : Fin 1024) (k : Fin 1024) (n : Fin 3072)
    (hn : n.val = win0_1.index t (0 : Fin 2) * 1024 + q.val) (h1 : win0_1.index t (1 : Fin 2) = 0) :
    (iblk0 V c 1 t : Vec Ideal S1024x1024 .f32) (ix2 q k) = (V c main_arg2 : S3072x1024.Idx → EReal) (ix2 n k) := by
  unfold iblk0
  show V c main_arg2 (((cfg0.win 1).blk t).view.emb (ix2 q k)) = V c main_arg2 (ix2 n k)
  refine congrArg (V c main_arg2) (funext fun a => Fin.ext ?_)
  match a with
  | ⟨0, _⟩ => show win0_1.index t (0 : Fin 2) * 1024 + 1 * q.val = n.val; omega
  | ⟨1, _⟩ => show win0_1.index t (1 : Fin 2) * 1024 + 1 * k.val = k.val; omega

/-- The third block at point `t`, entry (0, q): the row at column (block index) · 1024 + q. -/
theorem bblk0_apply (c : Dev nD) (t : Fin cfg0.N) (q : Fin 1024) (n : Fin 3072)
    (h0 : win0_2.index t (0 : Fin 2) = 0) (hn : n.val = win0_2.index t (1 : Fin 2) * 1024 + q.val) :
    (iblk0 V c 2 t : Vec Ideal S1x1024 .f32) (ix2 (0 : Fin 1) q) = (V c main_v0 : S1x3072.Idx → EReal) (ix2 (0 : Fin 1) n) := by
  unfold iblk0
  show V c main_v0 (((cfg0.win 2).blk t).view.emb (ix2 (0 : Fin 1) q)) = V c main_v0 (ix2 (0 : Fin 1) n)
  refine congrArg (V c main_v0) (funext fun a => Fin.ext ?_)
  match a with
  | ⟨0, _⟩ => show win0_2.index t (0 : Fin 2) * 1 + 1 * 0 = 0; omega
  | ⟨1, _⟩ => show win0_2.index t (1 : Fin 2) * 1024 + 1 * q.val = n.val; omega

/-- What point `t` writes back is block `t` of the projection of the arrays as the region finds them. -/
theorem flushed0_eq (c : Dev nD) (t : Fin cfg0.N) :
    (dat0 (F := Ideal) V c).flushed 3 t
      = ((cfg0.win 3).blk t).view.read (Elt Ideal) (Cert.Spec.lin3072 (V c main_v1) (V c main_arg2) (V c main_v0)) := by
  show (cfg0.win 3).cut (grid0.coords t) ((dat0 V c).after 3 t) = _
  rw [after0_3]
  unfold out0_3
  rw [View.canon_unit_zero hz0]
  simp only [View.ld_unit_zero (S := S512x1024) hz0, View.ld_unit_zero (S := S1024x1024) hz0, View.ld_unit_zero (S := S1x1024) hz0]
  obtain ⟨e0, e1, e2, e3, e4, e5, e6, e7⟩ := idx_facts0 t
  funext j
  obtain ⟨p, q, rfl⟩ : ∃ (p : Fin 512) (q : Fin 1024), j = ix2 p q := ⟨j 0, j 1, eq_ix2 j⟩
  have hp := p.isLt
  have hq := q.isLt
  have hr : win0_3.index t (0 : Fin 2) * 512 + p.val < 4096 := by omega
  have hn : win0_3.index t (1 : Fin 2) * 1024 + q.val < 3072 := by omega
  have hemb : ((cfg0.win 3).blk t).view.emb (ix2 p q) = (ix2 (⟨_, hr⟩ : Fin 4096) (⟨_, hn⟩ : Fin 3072) : S4096x3072.Idx) := by
    funext a; apply Fin.ext
    match a with
    | ⟨0, _⟩ => show win0_3.index t (0 : Fin 2) * 512 + 1 * p.val = win0_3.index t (0 : Fin 2) * 512 + p.val; omega
    | ⟨1, _⟩ => show win0_3.index t (1 : Fin 2) * 1024 + 1 * q.val = win0_3.index t (1 : Fin 2) * 1024 + q.val; omega
  show k0_pay1 (F := Ideal) (iblk0 V c 0 t) (iblk0 V c 1 t) (iblk0 V c 2 t) (ix2 p q)
    = Cert.Spec.lin3072 (V c main_v1) (V c main_arg2) (V c main_v0) (((cfg0.win 3).blk t).view.emb (ix2 p q))
  rw [hemb, lin3072_apply]
  refine (pay0_apply (iblk0 V c 0 t) (iblk0 V c 1 t) (iblk0 V c 2 t) p q).trans ?_
  refine congrArg₂ (· + ·) (Finset.sum_congr rfl fun k _ => congrArg₂ (· * ·) ?_ ?_) ?_
  · exact ablk0_apply V c t p k ⟨_, hr⟩ (by show win0_3.index t (0 : Fin 2) * 512 + p.val = _; omega) e1
  · exact wblk0_apply V c t q k ⟨_, hn⟩ (by show win0_3.index t (1 : Fin 2) * 1024 + q.val = _; omega) e3
  · exact bblk0_apply V c t q ⟨_, hn⟩ e4 (by show win0_3.index t (1 : Fin 2) * 1024 + q.val = _; omega)

/-! ## From the blocks to the array -/

/-- An index of the array is in point `t`'s block iff each coordinate is in the block's range on its axis. -/
theorem mem_blk0 (t : Fin cfg0.N) (i : S4096x3072.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v2).slice (win0_3.rect t)).set ↔ _
  rw [View.set_slice_whole, Rect.mem_set_unit]
  exact Iff.rfl

/-- Row `r`, column `n` of the array is in the block of the point whose row block is `r / 512` and whose column block is
    `n / 1024`; every point writes its block back. -/
theorem cover0 (i : S4096x3072.Idx) :
    ∃ t : Fin cfg0.N, (cfg0.win 3).flush t = true ∧ i ∈ ((cfg0.win 3).blk t).view.set := by
  have hi0 : (i 0).val < 4096 := (i 0).isLt
  have hi1 : (i 1).val < 3072 := (i 1).isLt
  obtain ⟨t, ht⟩ := idx_onto0 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk0]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- After the region's points the output array holds the projection of the arrays the region found: each of the first
    array's 4096 rows against each of the second's rows, plus the third's entry of the column. -/
theorem final0 (c : Dev nD) :
    (dat0 (F := Ideal) V c).arrAt 3 cfg0.N = Cert.Spec.lin3072 (V c main_v1) (V c main_arg2) (V c main_v0) :=
  (dat0 (F := Ideal) V c).arrAt_eq_of_cover 3 (Cert.Spec.lin3072 (V c main_v1) (V c main_arg2) (V c main_v0))
    (fun t _ => flushed0_eq V c t) (cover0)

end Cert.KernelIdeal.Hand

end
-- ==== Proof.KiBlk.lean ====
/-
  One grid point of the attention pallas_call handles two heads: of the 128 lanes of its query, key and value
  blocks, lanes 0..63 belong to the first head of the pair and lanes 64..127 to the second. `blkScore` is the masked,
  scaled score of query row `s` of the point's 512-row block against key row `t`, for head `hh` of the pair, as a
  function of the three blocks the body loaded: the mask block as words (nonzero = masked), the query block and the
  key block.
-/
import proofs.«404232_j53352083751420_3_alg».proof.KernelIdeal
import proofs.«404232_j53352083751420_3_alg».proof.Proof.Spec
import Idealize.ShloMosaic.Lib.ValueIdx

noncomputable section

namespace Cert.KernelIdeal.Hand

open Cert.KernelIdeal Idealize.ShloMosaic Idealize.ShloMosaic.ValueIdx

/-- Lane `hh·64 + d` of the 128: head `hh` of the pair, lane `d` of the head. -/
def lane (hh : Fin 2) (d : Fin 64) : Fin 128 := ⟨hh.val * 64 + d.val, by have := hh.isLt; have := d.isLt; omega⟩

/-- The masked, scaled score of the block's query row `s` against key row `t` in head `hh` of the pair. -/
def blkScore (v0 : Vec Ideal S512x1024 .i32) (v2 : Vec Ideal S1x512x128 .bf16) (v4 : Vec Ideal S1x1024x128 .bf16)
    (hh : Fin 2) (s : Fin 512) (t : Fin 1024) : EReal :=
  if v0 (ix2 s t) ≠ 0#32 then ⊥
  else (∑ d : Fin 64, v2 (ix3 (0 : Fin 1) s (lane hh d)) * v4 (ix3 (0 : Fin 1) t (lane hh d))) * Cert.Spec.scale

end Cert.KernelIdeal.Hand

end
-- ==== Proof.KiVal1.lean ====
/-
  What the attention call leaves in its probabilities' array, at the ideal values: the specification's attention
  weights of the projected array and of the mask read as words.

  The call runs over 64 points. Point t is batch entry b = t / 16, the pair of heads h2 = t / 2 % 8 and the half
  qi = t % 2 of the query rows. Its query block is rows qi·512 .. of entry b at columns h2·128 .., its key block all
  rows of entry b at columns 1024 + h2·128 .., its mask block rows qi·512 .. of the mask's words; its probabilities'
  block is the two slabs (b·8 + h2)·2 + hh, hh = 0, 1, at rows qi·512 .. . Head hh of the pair is head h = 2·h2 + hh:
  slab b·16 + h = (b·8 + h2)·2 + hh and column h·64 + d = h2·128 + hh·64 + d.

  Given that the body's two stored slices are, index by index, the softmax of the block-level masked, scaled scores
  (the hypotheses hw0, hw1), this module reads each block through its window (block coordinate = block index × block
  size + coordinate inside the block), identifies the block-level score with the specification's, shows that what
  point t writes back is block t of the specification's weights, that the 64 blocks cover the array, and concludes.
-/
import proofs.«404232_j53352083751420_3_alg».proof.Proof.Gen.KernelIdeal.Launch
import proofs.«404232_j53352083751420_3_alg».proof.Proof.Gen.KernelIdeal.Skeleton
import proofs.«404232_j53352083751420_3_alg».proof.Proof.Gen.KernelIdeal.Points
import proofs.«404232_j53352083751420_3_alg».proof.Proof.KiR1
import proofs.«404232_j53352083751420_3_alg».proof.Proof.KiBlk
import proofs.«404232_j53352083751420_3_alg».proof.Proof.Spec
import Idealize.ShloMosaic.Lib.Pipeline.FrameBody
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## The grid's points -/

/-- The block indices of the windows at point t, in t itself: the point is the batch entry t / 16, the pair of
    heads t / 2 % 8 and the half t % 2 of the query rows. -/
theorem idx_facts1 : ∀ t : Fin cfg1.N,
    win1_0.index t (0 : Fin 3) = t.val / 16 ∧ win1_0.index t (1 : Fin 3) = t.val % 2 ∧ win1_0.index t (2 : Fin 3) = t.val / 2 % 8
    ∧ win1_1.index t (0 : Fin 3) = t.val / 16 ∧ win1_1.index t (1 : Fin 3) = 0 ∧ win1_1.index t (2 : Fin 3) = 8 + t.val / 2 % 8
    ∧ win1_3.index t (0 : Fin 2) = t.val % 2 ∧ win1_3.index t (1 : Fin 2) = 0
    ∧ win1_5.index t (0 : Fin 3) = t.val / 2 ∧ win1_5.index t (1 : Fin 3) = t.val % 2 ∧ win1_5.index t (2 : Fin 3) = 0 :=
  (by decide +kernel : ∀ t : Fin grid1.N, _)

theorem lt_N1 (t : Fin cfg1.N) : t.val < 64 := Nat.lt_of_lt_of_eq t.isLt N_1

/-- The batch entry of point t, -/
def ptB (t : Fin cfg1.N) : Fin 4 := ⟨t.val / 16, by have := lt_N1 t; omega⟩
/-- head hh of its pair of heads, -/
def ptH (t : Fin cfg1.N) (hh : Fin 2) : Fin 16 := ⟨2 * (t.val / 2 % 8) + hh.val, by have := hh.isLt; omega⟩
/-- and row s of its half of the query rows. -/
def ptRow (t : Fin cfg1.N) (s : Fin 512) : Fin 1024 := ⟨t.val % 2 * 512 + s.val, by have := s.isLt; omega⟩

/-! ## The input blocks, read through their windows -/

/-- The mask is read as words: it holds where the word is not zero. -/
abbrev maskWords (V : (c : Dev nD) → (b : Ref sig .tc) → Buf (Elt Ideal) ((c : Thread nD τ).loc b)) (c : Dev nD) :
    Fin 1024 → Fin 1024 → Prop := fun s t => (V c main_v4 : IVec S1024x1024 32) (ix2 s t) ≠ 0#32

section Blocks
variable (V : (c : Dev nD) → (b : Ref sig .tc) → Buf (Elt Ideal) ((c : Thread nD τ).loc b))

/-- The query block at point t is rows (t % 2)·512 .. of batch entry t / 16, columns (t / 2 % 8)·128 .. ; -/
theorem iblk1_0_apply (c : Dev nD) (t : Fin cfg1.N) (s : Fin 512) (l : Fin 128) (i : S4x1024x3072.Idx)
    (h0 : (i 0).val = t.val / 16) (h1 : (i 1).val = t.val % 2 * 512 + s.val) (h2 : (i 2).val = t.val / 2 % 8 * 128 + l.val) :
    (iblk1 V c 0 t : Vec Ideal S1x512x128 .bf16) (ix3 (0 : Fin 1) s l) = (V c main_v3 : S4x1024x3072.Idx → Elt Ideal .bf16) i := by
  obtain ⟨e0, e1, e2, -⟩ := idx_facts1 t
  unfold iblk1
  rw [View.read_apply]
  show V c main_v3 _ = V c main_v3 _
  congr 1
  funext a
  apply Fin.ext
  match a with
  | ⟨0, _⟩ => show win1_0.index t (0 : Fin 3) * 1 + 1 * (0 : Fin 1).val = (i 0).val; rw [e0, h0]; simp
  | ⟨1, _⟩ => show win1_0.index t (1 : Fin 3) * 512 + 1 * s.val = (i 1).val; rw [e1, h1]; omega
  | ⟨2, _⟩ => show win1_0.index t (2 : Fin 3) * 128 + 1 * l.val = (i 2).val; rw [e2, h2]; omega

/-- the key block is all the rows of that batch entry, columns 1024 + (t / 2 % 8)·128 .. ; -/
theorem iblk1_1_apply (c : Dev nD) (t : Fin cfg1.N) (k : Fin 1024) (l : Fin 128) (i : S4x1024x3072.Idx)
    (h0 : (i 0).val = t.val / 16) (h1 : (i 1).val = k.val) (h2 : (i 2).val = 1024 + t.val / 2 % 8 * 128 + l.val) :
    (iblk1 V c 1 t : Vec Ideal S1x1024x128 .bf16) (ix3 (0 : Fin 1) k l) = (V c main_v3 : S4x1024x3072.Idx → Elt Ideal .bf16) i := by
  obtain ⟨-, -, -, e0, e1, e2, -⟩ := idx_facts1 t
  unfold iblk1
  rw [View.read_apply]
  show V c main_v3 _ = V c main_v3 _
  congr 1
  funext a
  apply Fin.ext
  match a with
  | ⟨0, _⟩ => show win1_1.index t (0 : Fin 3) * 1 + 1 * (0 : Fin 1).val = (i 0).val; rw [e0, h0]; simp
  | ⟨1, _⟩ => show win1_1.index t (1 : Fin 3) * 1024 + 1 * k.val = (i 1).val; rw [e1, h1]; omega
  | ⟨2, _⟩ => show win1_1.index t (2 : Fin 3) * 128 + 1 * l.val = (i 2).val; rw [e2, h2]; omega

/-- the mask block is rows (t % 2)·512 .. of the mask's words, all columns. -/
theorem iblk1_3_apply (c : Dev nD) (t : Fin cfg1.N) (s : Fin 512) (k : Fin 1024) :
    (iblk1 V c 3 t : Vec Ideal S512x1024 .i32) (ix2 s k) = (V c main_v4 : IVec S1024x1024 32) (ix2 (ptRow t s) k) := by
  obtain ⟨-, -, -, -, -, -, e0, e1, -⟩ := idx_facts1 t
  unfold iblk1
  rw [View.read_apply]
  show V c main_v4 _ = V c main_v4 _
  congr 1
  funext a
  apply Fin.ext
  match a with
  | ⟨0, _⟩ => show win1_3.index t (0 : Fin 2) * 512 + 1 * s.val = t.val % 2 * 512 + s.val; rw [e0]; omega
  | ⟨1, _⟩ => show win1_3.index t (1 : Fin 2) * 1024 + 1 * k.val = k.val; rw [e1]; omega

/-- THE BRIDGE: the block-level score of head hh of the pair at point t is the specification's score of head
    2·(t / 2 % 8) + hh of batch entry t / 16, at the array's query row (t % 2)·512 + s. -/
theorem blkScore_iblk1 (c : Dev nD) (t : Fin cfg1.N) (hh : Fin 2) (s : Fin 512) (k : Fin 1024) :
    blkScore (iblk1 V c 3 t) (iblk1 V c 0 t) (iblk1 V c 1 t) hh s k
      = Cert.Spec.score (V c main_v3) (maskWords V c) (ptB t) (ptH t hh) (ptRow t s) k := by
  unfold blkScore
  rw [iblk1_3_apply]
  by_cases hm : (V c main_v4 : IVec S1024x1024 32) (ix2 (ptRow t s) k) ≠ 0#32
  · rw [if_pos hm, Cert.Spec.score_of_mask (mk := maskWords V c) hm]
  · rw [if_neg hm, Cert.Spec.score_of_not_mask (mk := maskWords V c) hm]
    congr 1
    refine Finset.sum_congr rfl fun d _ => ?_
    have hd := d.isLt; have hhh := hh.isLt
    rw [iblk1_0_apply V c t s (lane hh d) (ix3 (ptB t) (ptRow t s) (Cert.Spec.colQ (Cert.Spec.col (ptH t hh) d))) rfl rfl
          (by show (2 * (t.val / 2 % 8) + hh.val) * 64 + d.val = t.val / 2 % 8 * 128 + (hh.val * 64 + d.val); omega),
        iblk1_1_apply V c t k (lane hh d) (ix3 (ptB t) k (Cert.Spec.colK (Cert.Spec.col (ptH t hh) d))) rfl rfl
          (by show 1024 + ((2 * (t.val / 2 % 8) + hh.val) * 64 + d.val) = 1024 + t.val / 2 % 8 * 128 + (hh.val * 64 + d.val); omega)]

/-! ## The probabilities' buffer at an index -/

theorem hzRank3 : (![0, 0, 0] : Fin 3 → Nat) = fun _ => 0 := funext fun a => by fin_cases a <;> rfl
theorem hzRank2 : (![0, 0] : Fin 2 → Nat) = fun _ => 0 := funext fun a => by fin_cases a <;> rfl

/-- Slice hh of the probabilities' buffer holds head hh's softmax of the block's masked, scaled scores. -/
theorem out1_5_apply
    (hw0 : ∀ (v0 : Vec Ideal S512x1024 .i32) (v2 : Vec Ideal S1x512x128 .bf16) (v4 : Vec Ideal S1x1024x128 .bf16) (s : Fin 512) (t : Fin 1024),
      k1_pay9 (F := Ideal) v0 v2 v4 (ix3 0 s t) = Cert.Spec.smax (fun t' => blkScore v0 v2 v4 0 s t') t)
    (hw1 : ∀ (v0 : Vec Ideal S512x1024 .i32) (v2 : Vec Ideal S1x512x128 .bf16) (v4 : Vec Ideal S1x1024x128 .bf16) (s : Fin 512) (t : Fin 1024),
      k1_pay2 (F := Ideal) (k1_pay4 v0) (k1_pay12 v2 v4) (ix3 0 s t) = Cert.Spec.smax (fun t' => blkScore v0 v2 v4 1 s t') t)
    (x0 : Vec Ideal S1x512x128 .bf16) (x1 : Vec Ideal S1x1024x128 .bf16) (x3 : Vec Ideal S512x1024 .i32)
    (hh : Fin 2) (s : Fin 512) (k : Fin 1024) :
    out1_5 (F := Ideal) x0 x1 x3 (ix3 hh s k) = Cert.Spec.smax (fun k' => blkScore x3 x0 x1 hh s k') k := by
  unfold out1_5
  simp only [View.ld_unit_zero (S := S1x512x128) hzRank3, View.ld_unit_zero (S := S1x1024x128) hzRank3, View.ld_unit_zero (S := S512x1024) hzRank2]
  refine (View.canon_apply_of_pieces
    (fun y : S2x512x1024.Idx => Cert.Spec.smax (fun k' => blkScore x3 x0 x1 (y 0) (y 1) k') (y 2)) _ ?_ (ix3 hh s k) (cover1_5 _ _ _)).trans rfl
  intro p hp x
  rcases List.mem_cons.mp hp with rfl | hp
  · obtain ⟨u, s', k', rfl⟩ : ∃ (u : Fin 1) (s' : Fin 512) (k' : Fin 1024), x = ix3 u s' k' := ⟨x 0, x 1, x 2, eq_ix3 x⟩
    obtain rfl : u = 0 := Subsingleton.elim _ _
    have eE : r1_p1.emb (ix3 (0 : Fin 1) s' k') = ix3 (1 : Fin 2) s' k' := funext fun a => Fin.ext (by
      match a with
      | ⟨0, _⟩ => show 1 + 1 * ((0 : Fin 1) : Nat) = ((1 : Fin 2) : Nat); rfl
      | ⟨1, _⟩ => show 0 + 1 * s'.val = s'.val; omega
      | ⟨2, _⟩ => show 0 + 1 * k'.val = k'.val; omega)
    show k1_pay2 (F := Ideal) (k1_pay4 x3) (k1_pay12 x0 x1) (ix3 0 s' k') = _
    rw [hw1, eE]
  · obtain rfl := List.mem_singleton.mp hp
    obtain ⟨u, s', k', rfl⟩ : ∃ (u : Fin 1) (s' : Fin 512) (k' : Fin 1024), x = ix3 u s' k' := ⟨x 0, x 1, x 2, eq_ix3 x⟩
    obtain rfl : u = 0 := Subsingleton.elim _ _
    have eE : r1_p0.emb (ix3 (0 : Fin 1) s' k') = ix3 (0 : Fin 2) s' k' := funext fun a => Fin.ext (by
      match a with
      | ⟨0, _⟩ => show 0 + 1 * ((0 : Fin 1) : Nat) = ((0 : Fin 2) : Nat); rfl
      | ⟨1, _⟩ => show 0 + 1 * s'.val = s'.val; omega
      | ⟨2, _⟩ => show 0 + 1 * k'.val = k'.val; omega)
    show k1_pay9 (F := Ideal) x3 x0 x1 (ix3 0 s' k') = _
    rw [hw0, eE]

/-! ## What a point writes back, and the array after the run -/

/-- The slab of head hh of point t's pair: (t / 2)·2 + hh = (batch entry)·16 + head. -/
def ptSlab (t : Fin cfg1.N) (hh : Fin 2) : Fin 64 := ⟨t.val / 2 * 2 + hh.val, by have := lt_N1 t; have := hh.isLt; omega⟩

theorem slabB_ptSlab (t : Fin cfg1.N) (hh : Fin 2) : Cert.Spec.slabB (ptSlab t hh) = ptB t := by
  apply Fin.ext
  have := hh.isLt
  show (t.val / 2 * 2 + hh.val) / 16 = t.val / 16
  omega

theorem slabH_ptSlab (t : Fin cfg1.N) (hh : Fin 2) : Cert.Spec.slabH (ptSlab t hh) = ptH t hh := by
  apply Fin.ext
  have := hh.isLt
  show (t.val / 2 * 2 + hh.val) % 16 = 2 * (t.val / 2 % 8) + hh.val
  omega

/-- An element of the probabilities' block at point t sits in the array at slab (t / 2)·2 + hh, row (t % 2)·512 + s. -/
theorem emb5 (t : Fin cfg1.N) (hh : Fin 2) (s : Fin 512) (k : Fin 1024) :
    ((cfg1.win 5).blk t).view.emb (ix3 hh s k) = (ix3 (ptSlab t hh) (ptRow t s) k : S64x1024x1024.Idx) := by
  obtain ⟨-, -, -, -, -, -, -, -, e0, e1, e2⟩ := idx_facts1 t
  funext a
  apply Fin.ext
  match a with
  | ⟨0, _⟩ => show win1_5.index t (0 : Fin 3) * 2 + 1 * hh.val = t.val / 2 * 2 + hh.val; rw [e0]; omega
  | ⟨1, _⟩ => show win1_5.index t (1 : Fin 3) * 512 + 1 * s.val = t.val % 2 * 512 + s.val; rw [e1]; omega
  | ⟨2, _⟩ => show win1_5.index t (2 : Fin 3) * 1024 + 1 * k.val = k.val; rw [e2]; omega

/-- WHAT POINT t WRITES BACK is block t of the specification's weights. -/
theorem flushed5_eq
    (hw0 : ∀ (v0 : Vec Ideal S512x1024 .i32) (v2 : Vec Ideal S1x512x128 .bf16) (v4 : Vec Ideal S1x1024x128 .bf16) (s : Fin 512) (t : Fin 1024),
      k1_pay9 (F := Ideal) v0 v2 v4 (ix3 0 s t) = Cert.Spec.smax (fun t' => blkScore v0 v2 v4 0 s t') t)
    (hw1 : ∀ (v0 : Vec Ideal S512x1024 .i32) (v2 : Vec Ideal S1x512x128 .bf16) (v4 : Vec Ideal S1x1024x128 .bf16) (s : Fin 512) (t : Fin 1024),
      k1_pay2 (F := Ideal) (k1_pay4 v0) (k1_pay12 v2 v4) (ix3 0 s t) = Cert.Spec.smax (fun t' => blkScore v0 v2 v4 1 s t') t)
    (c : Dev nD) (t : Fin cfg1.N) :
    (dat1 (F := Ideal) V c).flushed 5 t
      = ((cfg1.win 5).blk t).view.read (Elt Ideal) (Cert.Spec.attw (V c main_v3) (maskWords V c)) := by
  show (cfg1.win 5).cut (grid1.coords t) ((dat1 (F := Ideal) V c).after 5 t) = _
  rw [after1_5]
  refine funext fun (j : S2x512x1024.Idx) => ?_
  obtain ⟨hh, s, k, rfl⟩ : ∃ (hh : Fin 2) (s : Fin 512) (k : Fin 1024), j = ix3 hh s k := ⟨j 0, j 1, j 2, eq_ix3 j⟩
  rw [View.read_apply]
  show out1_5 (F := Ideal) (iblk1 V c 0 t) (iblk1 V c 1 t) (iblk1 V c 3 t) (ix3 hh s k)
    = Cert.Spec.attw (V c main_v3) (maskWords V c) (((cfg1.win 5).blk t).view.emb (ix3 hh s k))
  rw [out1_5_apply hw0 hw1, emb5 t hh s k]
  show _ = Cert.Spec.weight (V c main_v3) (maskWords V c) (Cert.Spec.slabB (ptSlab t hh)) (Cert.Spec.slabH (ptSlab t hh)) (ptRow t s) k
  rw [slabB_ptSlab, slabH_ptSlab]
  unfold Cert.Spec.weight
  exact congrArg (fun r => Cert.Spec.smax r k) (funext fun k' => blkScore_iblk1 V c t hh s k')

/-- An index of the array is in point t's block iff each coordinate is in the block's range on its axis. -/
theorem mem_blk5 (t : Fin cfg1.N) (i : S64x1024x1024.Idx) :
    i ∈ ((cfg1.win 5).blk t).view.set ↔ ∀ a : Fin 3, win1_5.index t a * S2x512x1024.size a ≤ (i a).val ∧ (i a).val < win1_5.index t a * S2x512x1024.size a + S2x512x1024.size a := by
  show i ∈ ((View.whole main_v5_1).slice (win1_5.rect t)).set ↔ _
  rw [View.set_slice_whole, Rect.mem_set_unit]
  exact Iff.rfl

/-- Every index of the array is in some point's block: slab g, row r is in the block of point (g / 2)·2 + r / 512. -/
theorem cover5 (i : S64x1024x1024.Idx) :
    ∃ t : Fin cfg1.N, (cfg1.win 5).flush t = true ∧ i ∈ ((cfg1.win 5).blk t).view.set := by
  have h0 : (i 0).val < 64 := (i 0).isLt
  have h1 : (i 1).val < 1024 := (i 1).isLt
  have h2 : (i 2).val < 1024 := (i 2).isLt
  obtain ⟨t, tv⟩ : ∃ t : Fin cfg1.N, t.val = (i 0).val / 2 * 2 + (i 1).val / 512 :=
    ⟨⟨(i 0).val / 2 * 2 + (i 1).val / 512, by rw [show cfg1.N = 64 from N_1]; omega⟩, rfl⟩
  obtain ⟨-, -, -, -, -, -, -, -, e0, e1, e2⟩ := idx_facts1 t
  refine ⟨t, flush1_5 t, ?_⟩
  rw [mem_blk5]
  intro a
  match a with
  | ⟨0, _⟩ =>
    show win1_5.index t (0 : Fin 3) * 2 ≤ (i 0).val ∧ (i 0).val < win1_5.index t (0 : Fin 3) * 2 + 2
    rw [e0, tv]; omega
  | ⟨1, _⟩ =>
    show win1_5.index t (1 : Fin 3) * 512 ≤ (i 1).val ∧ (i 1).val < win1_5.index t (1 : Fin 3) * 512 + 512
    rw [e1, tv]; omega
  | ⟨2, _⟩ =>
    show win1_5.index t (2 : Fin 3) * 1024 ≤ (i 2).val ∧ (i 2).val < win1_5.index t (2 : Fin 3) * 1024 + 1024
    rw [e2]; omega

end Blocks

/-- THE ARRAY after the run: the specification's attention weights of the projected array and the mask's words. -/
theorem final1_weights_of
    (hw0 : ∀ (v0 : Vec Ideal S512x1024 .i32) (v2 : Vec Ideal S1x512x128 .bf16) (v4 : Vec Ideal S1x1024x128 .bf16) (s : Fin 512) (t : Fin 1024),
      k1_pay9 (F := Ideal) v0 v2 v4 (ix3 0 s t) = Cert.Spec.smax (fun t' => blkScore v0 v2 v4 0 s t') t)
    (hw1 : ∀ (v0 : Vec Ideal S512x1024 .i32) (v2 : Vec Ideal S1x512x128 .bf16) (v4 : Vec Ideal S1x1024x128 .bf16) (s : Fin 512) (t : Fin 1024),
      k1_pay2 (F := Ideal) (k1_pay4 v0) (k1_pay12 v2 v4) (ix3 0 s t) = Cert.Spec.smax (fun t' => blkScore v0 v2 v4 1 s t') t)
    (V : (c : Dev nD) → (b : Ref sig .tc) → Buf (Elt Ideal) ((c : Thread nD τ).loc b)) (c : Dev nD) :
    (dat1 (F := Ideal) V c).arrAt 5 cfg1.N = Cert.Spec.attw (V c main_v3) (maskWords V c) :=
  (dat1 (F := Ideal) V c).arrAt_eq_of_cover 5 (Cert.Spec.attw (V c main_v3) (maskWords V c))
    (fun t _ => flushed5_eq V hw0 hw1 c t) cover5

end Cert.KernelIdeal.Hand

end
-- ==== Proof.KiVal1c.lean ====
/-
  What the attention call of the idealized kernel leaves in its context array, on the extended reals.

  The call runs a 4 × 8 × 2 grid. At the point of batch entry b, head pair h2 and query half qi the body holds query
  rows qi·512 … qi·512 + 511 of batch b in the 128 query columns h2·128 … of the projected array, all 1024 key rows and
  all 1024 value rows of batch b in the same 128 columns of the key third and of the value third, and rows
  qi·512 … of the mask's words; it stores the 512 × 128 block of the context at rows qi·512 …, columns h2·128 … of
  batch b. Lane hh·64 + d of the 128 belongs to head h = 2·h2 + hh, and column h2·128 + hh·64 + d is column h·64 + d.
  Given that the body's stored entry (s, hh·64 + d) is the sum over the key rows t of the softmax of the block's masked
  scores of row s in head hh, at t, times the value block's entry (t, hh·64 + d), every point writes back exactly its
  block of the specification's context: the block's masked score is the specification's score at batch b, head h,
  query row qi·512 + s, and the value entry is the projected array's at batch b, row t, value column h·64 + d. The
  blocks tile the array (row s, column e of batch b lies in the block of the point with qi = s / 512, h2 = e / 128),
  so the array ends holding the context.
-/
import proofs.«404232_j53352083751420_3_alg».proof.Proof.KiR1
import proofs.«404232_j53352083751420_3_alg».proof.Proof.KiBlk
import proofs.«404232_j53352083751420_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand.Ctx

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## Heads, rows and columns of a grid point -/

/-- Head `2·h2 + hh`: head `hh` of pair `h2`. -/
def head (h2 : Fin 8) (hh : Fin 2) : Fin 16 := ⟨2 * h2.val + hh.val, by have := h2.isLt; have := hh.isLt; omega⟩
/-- Query row `qi·512 + s`: row `s` of half `qi`. -/
def qrow (qi : Fin 2) (s : Fin 512) : Fin 1024 := ⟨qi.val * 512 + s.val, by have := qi.isLt; have := s.isLt; omega⟩
/-- Column `h2·128 + l` of a 1024-wide third: lane `l` of pair `h2`. -/
def pcol (h2 : Fin 8) (l : Fin 128) : Fin 1024 := ⟨h2.val * 128 + l.val, by have := h2.isLt; have := l.isLt; omega⟩

/-- Lane `hh·64 + d` of pair `h2` is column `h·64 + d` of head `h = 2·h2 + hh`. -/
theorem pcol_lane (h2 : Fin 8) (hh : Fin 2) (d : Fin 64) : pcol h2 (lane hh d) = Cert.Spec.col (head h2 hh) d :=
  Fin.ext (by show h2.val * 128 + (hh.val * 64 + d.val) = (2 * h2.val + hh.val) * 64 + d.val; omega)

/-- That column belongs to head `2·h2 + hh`. -/
theorem headOf_pcol_lane (h2 : Fin 8) (hh : Fin 2) (d : Fin 64) : Cert.Spec.headOf (pcol h2 (lane hh d)) = head h2 hh :=
  Fin.ext (by show (h2.val * 128 + (hh.val * 64 + d.val)) / 64 = 2 * h2.val + hh.val; have := d.isLt; omega)

/-- Every lane of the 128 is lane `d` of one of the two heads. -/
theorem lane_surj (l : Fin 128) : ∃ (hh : Fin 2) (d : Fin 64), l = lane hh d :=
  ⟨⟨l.val / 64, by have := l.isLt; omega⟩, ⟨l.val % 64, Nat.mod_lt _ (by decide)⟩,
    Fin.ext (by show l.val = l.val / 64 * 64 + l.val % 64; omega)⟩

/-- The mask as a relation: it holds where the word is not zero. -/
abbrev maskRel (M : IVec S1024x1024 32) : Fin 1024 → Fin 1024 → Prop := fun s t => M (ix2 s t) ≠ 0#32

/-- The context at batch `b`, row `s`, column `e`. -/
theorem ctx_apply (qkv : FVec Ideal (Cert.Spec.Sh3 4 1024 3072) .f32) (mk : Fin 1024 → Fin 1024 → Prop)
    (b : Fin 4) (s e : Fin 1024) :
    Cert.Spec.ctx qkv mk (ix3 b s e)
      = ∑ t : Fin 1024, Cert.Spec.weight qkv mk b (Cert.Spec.headOf e) s t * qkv (ix3 b t (Cert.Spec.colV e)) := rfl

/-! ## The windows' index maps over the grid -/

theorem hz3 : (![0, 0, 0] : Fin 3 → Nat) = fun _ => 0 := funext fun a => by fin_cases a <;> rfl
theorem hz2 : (![0, 0] : Fin 2 → Nat) = fun _ => 0 := funext fun a => by fin_cases a <;> rfl

/-- The query block moves with the output block; the key and value blocks sit at the output's batch entry, row block 0
    and the output's column block shifted by 8 and by 16; the mask block sits at the output's row block; the output's
    batch entry is at most 3, its row block at most 1, its column block at most 7. -/
theorem idx_facts : ∀ t : Fin cfg1.N,
    (win1_0.index t (0 : Fin 3) = win1_4.index t (0 : Fin 3) ∧ win1_0.index t (1 : Fin 3) = win1_4.index t (1 : Fin 3)
      ∧ win1_0.index t (2 : Fin 3) = win1_4.index t (2 : Fin 3))
    ∧ (win1_1.index t (0 : Fin 3) = win1_4.index t (0 : Fin 3) ∧ win1_1.index t (1 : Fin 3) = 0
      ∧ win1_1.index t (2 : Fin 3) = 8 + win1_4.index t (2 : Fin 3))
    ∧ (win1_2.index t (0 : Fin 3) = win1_4.index t (0 : Fin 3) ∧ win1_2.index t (1 : Fin 3) = 0
      ∧ win1_2.index t (2 : Fin 3) = 16 + win1_4.index t (2 : Fin 3))
    ∧ (win1_3.index t (0 : Fin 2) = win1_4.index t (1 : Fin 3) ∧ win1_3.index t (1 : Fin 2) = 0)
    ∧ win1_4.index t (0 : Fin 3) ≤ 3 ∧ win1_4.index t (1 : Fin 3) ≤ 1 ∧ win1_4.index t (2 : Fin 3) ≤ 7 :=
  (by decide +kernel : ∀ t : Fin grid1.N, _)

/-- Every triple of a batch entry, a row block and a column block is some point's. -/
theorem idx_onto : ∀ (q0 : Fin 4) (q1 : Fin 2) (q2 : Fin 8), ∃ t : Fin cfg1.N, win1_4.index t = ![q0.val, q1.val, q2.val] :=
  (by decide +kernel : ∀ (q0 : Fin 4) (q1 : Fin 2) (q2 : Fin 8), ∃ t : Fin grid1.N, win1_4.index t = ![q0.val, q1.val, q2.val])

/-! ## The four input blocks at a point -/

variable (V : (c : Dev nD) → (b : Ref sig .tc) → Buf (Elt Ideal) ((c : Thread nD τ).loc b))

/-- The query block at point `t`, entry (s, l): the projected array at batch `b`, row `qi·512 + s`, query column
    `h2·128 + l`. -/
theorem qblk_apply (c : Dev nD) (t : Fin cfg1.N) (b : Fin 4) (qi : Fin 2) (h2 : Fin 8)
    (e0 : win1_0.index t (0 : Fin 3) = b.val) (e1 : win1_0.index t (1 : Fin 3) = qi.val) (e2 : win1_0.index t (2 : Fin 3) = h2.val)
    (s : Fin 512) (l : Fin 128) :
    (iblk1 V c 0 t : Vec Ideal S1x512x128 .bf16) (ix3 (0 : Fin 1) s l)
      = (V c main_v3 : S4x1024x3072.Idx → EReal) (ix3 b (qrow qi s) (Cert.Spec.colQ (pcol h2 l))) := by
  unfold iblk1
  show V c main_v3 (((cfg1.win 0).blk t).view.emb (ix3 (0 : Fin 1) s l)) = V c main_v3 (ix3 b (qrow qi s) (Cert.Spec.colQ (pcol h2 l)))
  refine congrArg (V c main_v3) (funext fun a => Fin.ext ?_)
  match a with
  | ⟨0, _⟩ => show win1_0.index t (0 : Fin 3) * 1 + 1 * 0 = b.val; omega
  | ⟨1, _⟩ => show win1_0.index t (1 : Fin 3) * 512 + 1 * s.val = qi.val * 512 + s.val; omega
  | ⟨2, _⟩ => show win1_0.index t (2 : Fin 3) * 128 + 1 * l.val = h2.val * 128 + l.val; omega

/-- The key block at point `t`, entry (t', l): the projected array at batch `b`, row `t'`, key column `h2·128 + l`. -/
theorem kblk_apply (c : Dev nD) (t : Fin cfg1.N) (b : Fin 4) (h2 : Fin 8)
    (e0 : win1_1.index t (0 : Fin 3) = b.val) (e1 : win1_1.index t (1 : Fin 3) = 0) (e2 : win1_1.index t (2 : Fin 3) = 8 + h2.val)
    (t' : Fin 1024) (l : Fin 128) :
    (iblk1 V c 1 t : Vec Ideal S1x1024x128 .bf16) (ix3 (0 : Fin 1) t' l)
      = (V c main_v3 : S4x1024x3072.Idx → EReal) (ix3 b t' (Cert.Spec.colK (pcol h2 l))) := by
  unfold iblk1
  show V c main_v3 (((cfg1.win 1).blk t).view.emb (ix3 (0 : Fin 1) t' l)) = V c main_v3 (ix3 b t' (Cert.Spec.colK (pcol h2 l)))
  refine congrArg (V c main_v3) (funext fun a => Fin.ext ?_)
  match a with
  | ⟨0, _⟩ => show win1_1.index t (0 : Fin 3) * 1 + 1 * 0 = b.val; omega
  | ⟨1, _⟩ => show win1_1.index t (1 : Fin 3) * 1024 + 1 * t'.val = t'.val; omega
  | ⟨2, _⟩ => show win1_1.index t (2 : Fin 3) * 128 + 1 * l.val = 1024 + (h2.val * 128 + l.val); omega

/-- The value block at point `t`, entry (t', l): the projected array at batch `b`, row `t'`, value column `h2·128 + l`. -/
theorem vblk_apply (c : Dev nD) (t : Fin cfg1.N) (b : Fin 4) (h2 : Fin 8)
    (e0 : win1_2.index t (0 : Fin 3) = b.val) (e1 : win1_2.index t (1 : Fin 3) = 0) (e2 : win1_2.index t (2 : Fin 3) = 16 + h2.val)
    (t' : Fin 1024) (l : Fin 128) :
    (iblk1 V c 2 t : Vec Ideal S1x1024x128 .bf16) (ix3 (0 : Fin 1) t' l)
      = (V c main_v3 : S4x1024x3072.Idx → EReal) (ix3 b t' (Cert.Spec.colV (pcol h2 l))) := by
  unfold iblk1
  show V c main_v3 (((cfg1.win 2).blk t).view.emb (ix3 (0 : Fin 1) t' l)) = V c main_v3 (ix3 b t' (Cert.Spec.colV (pcol h2 l)))
  refine congrArg (V c main_v3) (funext fun a => Fin.ext ?_)
  match a with
  | ⟨0, _⟩ => show win1_2.index t (0 : Fin 3) * 1 + 1 * 0 = b.val; omega
  | ⟨1, _⟩ => show win1_2.index t (1 : Fin 3) * 1024 + 1 * t'.val = t'.val; omega
  | ⟨2, _⟩ => show win1_2.index t (2 : Fin 3) * 128 + 1 * l.val = 2048 + (h2.val * 128 + l.val); omega

/-- The mask block at point `t`, entry (s, t'): the mask's word at row `qi·512 + s`, column `t'`. -/
theorem mblk_apply (c : Dev nD) (t : Fin cfg1.N) (qi : Fin 2)
    (e0 : win1_3.index t (0 : Fin 2) = qi.val) (e1 : win1_3.index t (1 : Fin 2) = 0) (s : Fin 512) (t' : Fin 1024) :
    (iblk1 V c 3 t : Vec Ideal S512x1024 .i32) (ix2 s t') = (V c main_v4 : IVec S1024x1024 32) (ix2 (qrow qi s) t') := by
  unfold iblk1
  show V c main_v4 (((cfg1.win 3).blk t).view.emb (ix2 s t')) = V c main_v4 (ix2 (qrow qi s) t')
  refine congrArg (V c main_v4) (funext fun a => Fin.ext ?_)
  match a with
  | ⟨0, _⟩ => show win1_3.index t (0 : Fin 2) * 512 + 1 * s.val = qi.val * 512 + s.val; omega
  | ⟨1, _⟩ => show win1_3.index t (1 : Fin 2) * 1024 + 1 * t'.val = t'.val; omega

/-! ## The block's masked score is the specification's -/

/-- At the point of batch `b`, pair `h2` and half `qi`: the block's masked, scaled score of its query row `s` against key
    row `t'` in head `hh` of the pair is the specification's score at batch `b`, head `2·h2 + hh`, query row `qi·512 + s`. -/
theorem blkScore_eq (c : Dev nD) (t : Fin cfg1.N) (b : Fin 4) (qi : Fin 2) (h2 : Fin 8)
    (q0 : win1_0.index t (0 : Fin 3) = b.val) (q1 : win1_0.index t (1 : Fin 3) = qi.val) (q2 : win1_0.index t (2 : Fin 3) = h2.val)
    (k0 : win1_1.index t (0 : Fin 3) = b.val) (k1 : win1_1.index t (1 : Fin 3) = 0) (k2 : win1_1.index t (2 : Fin 3) = 8 + h2.val)
    (m0 : win1_3.index t (0 : Fin 2) = qi.val) (m1 : win1_3.index t (1 : Fin 2) = 0)
    (hh : Fin 2) (s : Fin 512) (t' : Fin 1024) :
    blkScore (iblk1 V c 3 t) (iblk1 V c 0 t) (iblk1 V c 1 t) hh s t'
      = Cert.Spec.score (V c main_v3) (maskRel (V c main_v4)) b (head h2 hh) (qrow qi s) t' := by
  unfold blkScore
  rw [mblk_apply V c t qi m0 m1 s t']
  by_cases hm : (V c main_v4 : IVec S1024x1024 32) (ix2 (qrow qi s) t') ≠ 0#32
  · rw [if_pos hm, Cert.Spec.score_of_mask (mk := maskRel (V c main_v4)) hm]
  · rw [if_neg hm, Cert.Spec.score_of_not_mask (mk := maskRel (V c main_v4)) hm]
    refine congrArg (· * Cert.Spec.scale) (Finset.sum_congr rfl fun d _ => congrArg₂ (· * ·) ?_ ?_)
    · exact (qblk_apply V c t b qi h2 q0 q1 q2 s (lane hh d)).trans (by rw [pcol_lane])
    · exact (kblk_apply V c t b h2 k0 k1 k2 t' (lane hh d)).trans (by rw [pcol_lane])

/-! ## What a point writes back -/

/-- What point `t` writes back is block `t` of the specification's context of the arrays as the region finds them, given
    the body's stored entry as the sum over the key rows of the softmax of the block's masked scores times the value
    block's entries. -/
theorem flushed_eq
    (hc : ∀ (v0 : Vec Ideal S512x1024 .i32) (v2 : Vec Ideal S1x512x128 .bf16) (v4 v6 : Vec Ideal S1x1024x128 .bf16)
      (s : Fin 512) (hh : Fin 2) (d : Fin 64),
      k1_pay3 (F := Ideal) (k1_pay4 v0) (k1_pay10 v0 v2 v4 v6) (k1_pay11 v6) (k1_pay12 v2 v4) (ix3 0 s (lane hh d))
        = ∑ t : Fin 1024, Cert.Spec.smax (fun t' => blkScore v0 v2 v4 hh s t') t * v6 (ix3 0 t (lane hh d)))
    (c : Dev nD) (t : Fin cfg1.N) :
    (dat1 (F := Ideal) V c).flushed 4 t
      = ((cfg1.win 4).blk t).view.read (Elt Ideal) (Cert.Spec.ctx (V c main_v3) (maskRel (V c main_v4))) := by
  show (cfg1.win 4).cut (grid1.coords t) ((dat1 V c).after 4 t) = _
  rw [after1_4]
  unfold out1_4
  rw [View.canon_unit_zero hz3]
  simp only [View.ld_unit_zero (S := S1x512x128) hz3, View.ld_unit_zero (S := S1x1024x128) hz3, View.ld_unit_zero (S := S512x1024) hz2]
  obtain ⟨⟨q0, q1, q2⟩, ⟨k0, k1, k2⟩, ⟨v0, v1, v2⟩, ⟨m0, m1⟩, o0, o1, o2⟩ := idx_facts t
  funext j
  obtain ⟨z, s, l, rfl⟩ : ∃ (z : Fin 1) (s : Fin 512) (l : Fin 128), j = ix3 z s l := ⟨j 0, j 1, j 2, eq_ix3 j⟩
  obtain rfl : z = 0 := Subsingleton.elim _ _
  obtain ⟨hh, d, rfl⟩ := lane_surj l
  obtain ⟨b, hb⟩ : ∃ b : Fin 4, win1_4.index t (0 : Fin 3) = b.val := ⟨⟨win1_4.index t (0 : Fin 3), by omega⟩, rfl⟩
  obtain ⟨qi, hqi⟩ : ∃ qi : Fin 2, win1_4.index t (1 : Fin 3) = qi.val := ⟨⟨win1_4.index t (1 : Fin 3), by omega⟩, rfl⟩
  obtain ⟨h2, hh2⟩ : ∃ h2 : Fin 8, win1_4.index t (2 : Fin 3) = h2.val := ⟨⟨win1_4.index t (2 : Fin 3), by omega⟩, rfl⟩
  have hemb : ((cfg1.win 4).blk t).view.emb (ix3 (0 : Fin 1) s (lane hh d))
      = (ix3 b (qrow qi s) (pcol h2 (lane hh d)) : S4x1024x1024.Idx) := by
    funext a; apply Fin.ext
    match a with
    | ⟨0, _⟩ => show win1_4.index t (0 : Fin 3) * 1 + 1 * 0 = b.val; omega
    | ⟨1, _⟩ => show win1_4.index t (1 : Fin 3) * 512 + 1 * s.val = qi.val * 512 + s.val; rw [hqi]; omega
    | ⟨2, _⟩ => show win1_4.index t (2 : Fin 3) * 128 + 1 * (lane hh d).val = h2.val * 128 + (lane hh d).val; rw [hh2]; omega
  show k1_pay3 (F := Ideal) (k1_pay4 (iblk1 V c 3 t)) (k1_pay10 (iblk1 V c 3 t) (iblk1 V c 0 t) (iblk1 V c 1 t) (iblk1 V c 2 t))
      (k1_pay11 (iblk1 V c 2 t)) (k1_pay12 (iblk1 V c 0 t) (iblk1 V c 1 t)) (ix3 (0 : Fin 1) s (lane hh d))
    = Cert.Spec.ctx (V c main_v3) (maskRel (V c main_v4)) (((cfg1.win 4).blk t).view.emb (ix3 (0 : Fin 1) s (lane hh d)))
  rw [hemb, ctx_apply, headOf_pcol_lane]
  refine (hc (iblk1 V c 3 t) (iblk1 V c 0 t) (iblk1 V c 1 t) (iblk1 V c 2 t) s hh d).trans ?_
  refine Finset.sum_congr rfl fun t' _ => congrArg₂ (· * ·) ?_ ?_
  · exact congrArg (fun r => Cert.Spec.smax r t') (funext fun t'' =>
      blkScore_eq V c t b qi h2 (by omega) (by omega) (by omega) (by omega) k1 (by omega) (by omega) m1 hh s t'')
  · exact vblk_apply V c t b h2 (by omega) v1 (by omega) t' (lane hh d)

/-! ## From the blocks to the array -/

/-- An index of the array is in point `t`'s block iff each coordinate is in the block's range on its axis. -/
theorem mem_blk (t : Fin cfg1.N) (i : S4x1024x1024.Idx) :
    i ∈ ((cfg1.win 4).blk t).view.set ↔ ∀ a : Fin 3, win1_4.index t a * S1x512x128.size a ≤ (i a).val ∧ (i a).val < win1_4.index t a * S1x512x128.size a + S1x512x128.size a := by
  show i ∈ ((View.whole main_v5_0).slice (win1_4.rect t)).set ↔ _
  rw [View.set_slice_whole, Rect.mem_set_unit]
  exact Iff.rfl

/-- Row `s`, column `e` of batch `b` is in the block of the point whose batch entry is `b`, whose row block is `s / 512`
    and whose column block is `e / 128`; every point writes its block back. -/
theorem cover (i : S4x1024x1024.Idx) :
    ∃ t : Fin cfg1.N, (cfg1.win 4).flush t = true ∧ i ∈ ((cfg1.win 4).blk t).view.set := by
  have hi0 : (i 0).val < 4 := (i 0).isLt
  have hi1 : (i 1).val < 1024 := (i 1).isLt
  have hi2 : (i 2).val < 1024 := (i 2).isLt
  obtain ⟨t, ht⟩ := idx_onto ⟨(i 0).val, hi0⟩ ⟨(i 1).val / 512, by omega⟩ ⟨(i 2).val / 128, by omega⟩
  have p0 : win1_4.index t (0 : Fin 3) = (i 0).val := congrFun ht 0
  have p1 : win1_4.index t (1 : Fin 3) = (i 1).val / 512 := congrFun ht 1
  have p2 : win1_4.index t (2 : Fin 3) = (i 2).val / 128 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 128 ≤ (i 2).val ∧ (i 2).val < win1_4.index t (2 : Fin 3) * 128 + 128; omega

end Cert.KernelIdeal.Hand.Ctx

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- After the attention call's points the context array holds the specification's context of the projected array and
    the mask's words as the region found them, given the body's stored entry as the sum over the key rows of the
    softmax of the block's masked scores times the value block's entries. -/
theorem final1_ctx_of
    (hc : ∀ (v0 : Vec Ideal S512x1024 .i32) (v2 : Vec Ideal S1x512x128 .bf16) (v4 v6 : Vec Ideal S1x1024x128 .bf16)
      (s : Fin 512) (hh : Fin 2) (d : Fin 64),
      k1_pay3 (F := Ideal) (k1_pay4 v0) (k1_pay10 v0 v2 v4 v6) (k1_pay11 v6) (k1_pay12 v2 v4) (ix3 0 s (lane hh d))
        = ∑ t : Fin 1024, Cert.Spec.smax (fun t' => blkScore v0 v2 v4 hh s t') t * v6 (ix3 0 t (lane hh d)))
    (V : (c : Dev nD) → (b : Ref sig .tc) → Buf (Elt Ideal) ((c : Thread nD τ).loc b)) (c : Dev nD) :
    (dat1 (F := Ideal) V c).arrAt 4 cfg1.N
      = Cert.Spec.ctx (V c main_v3) (fun s t => (V c main_v4 : IVec S1024x1024 32) (ix2 s t) ≠ 0#32) :=
  (dat1 (F := Ideal) V c).arrAt_eq_of_cover 4 (Cert.Spec.ctx (V c main_v3) (Ctx.maskRel (V c main_v4)))
    (fun t _ => Ctx.flushed_eq V hc c t) Ctx.cover

end Cert.KernelIdeal.Hand

end
-- ==== Proof.KiVal2.lean ====
/- What region 2 of the idealized kernel leaves in its output array, on the extended reals: the output projection
  out[r, n] = (∑ k, a[r, k] · w[n, k]) + bias[0, n],  r < 4096, n < 1024, of the three arrays the region finds.

  The region runs a 1 × 8 grid. At the point with coordinates (0, i1) the body holds rows 512·i1 … 512·i1 + 511 of the
  context rows, the whole 1024 × 1024 weight and the whole bias row, and it stores the 512 × 1024 block of the output at
  rows 512·i1 …: entry (p, q) of that block is row p of the rows' block against row q of the weight, summed over the 1024
  contracted positions, plus entry q of the bias. The body's change of float format is the identity on the extended
  reals and its product accumulates into zero. So every point writes back exactly its block of the projection; the 8
  blocks tile the array (row r lies in the block of the point with i1 = r / 512), and the array ends holding the projection.
-/
import proofs.«404232_j53352083751420_3_alg».proof.Proof.KiR2
import proofs.«404232_j53352083751420_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! ## The body's block product and bias, at an entry -/

/-- The product's left operand is read at the output's row and the contracted position, -/
theorem dotL2_0 (i : S512x1024.Idx) (q : dot_S512x1024_S1024x1024_S512x1024_1_1_0_0_n_n.contr.Idx) :
    (dot_S512x1024_S1024x1024_S512x1024_1_1_0_0_n_n.lhsIdx i q 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
theorem dotL2_1 (i : S512x1024.Idx) (q : dot_S512x1024_S1024x1024_S512x1024_1_1_0_0_n_n.contr.Idx) :
    (dot_S512x1024_S1024x1024_S512x1024_1_1_0_0_n_n.lhsIdx i q 1).val = (q ⟨0, by decide⟩).val :=
  dot_S512x1024_S1024x1024_S512x1024_1_1_0_0_n_n.lhsIdx_val_of_single rfl i q
/-- and its right operand at the output's column, as a row, and the contracted position. -/
theorem dotR2_0 (i : S512x1024.Idx) (q : dot_S512x1024_S1024x1024_S512x1024_1_1_0_0_n_n.contr.Idx) :
    (dot_S512x1024_S1024x1024_S512x1024_1_1_0_0_n_n.rhsIdx i q 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
theorem dotR2_1 (i : S512x1024.Idx) (q : dot_S512x1024_S1024x1024_S512x1024_1_1_0_0_n_n.contr.Idx) :
    (dot_S512x1024_S1024x1024_S512x1024_1_1_0_0_n_n.rhsIdx i q 1).val = (q ⟨0, by decide⟩).val :=
  dot_S512x1024_S1024x1024_S512x1024_1_1_0_0_n_n.rhsIdx_val_of_single rfl i q

/-- The block product into the zero splat, at row `p` and column `q`: the sum over the 1024 contracted positions of the
    left block's row `p` times the right block's row `q`. -/
theorem blockProduct2_apply (l : FVec Ideal S512x1024 .bf16) (r : FVec Ideal S1024x1024 .bf16) (p : Fin 512) (q : Fin 1024) :
    matmul dot_S512x1024_S1024x1024_S512x1024_1_1_0_0_n_n none l r (constant (F := Ideal) S512x1024 .f32 0x00000000#32) (ix2 p q)
      = ∑ k : Fin 1024, l (ix2 p k) * r (ix2 q k) := by
  simp only [matmul]
  rw [Ideal.matmul_constant_zero_apply, ← Equiv.sum_comp (ValueIdx.contrEquiv1 dot_S512x1024_S1024x1024_S512x1024_1_1_0_0_n_n 1024 rfl rfl).symm]
  refine Finset.sum_congr rfl fun k _ => ?_
  have hk := ValueIdx.contrEquiv1_symm_val dot_S512x1024_S1024x1024_S512x1024_1_1_0_0_n_n 1024 rfl rfl k
  have el : dot_S512x1024_S1024x1024_S512x1024_1_1_0_0_n_n.lhsIdx (ix2 p q) ((ValueIdx.contrEquiv1 dot_S512x1024_S1024x1024_S512x1024_1_1_0_0_n_n 1024 rfl rfl).symm k) = ix2 p k := funext fun a => Fin.ext (by
    match a with
    | ⟨0, _⟩ => exact dotL2_0 _ _
    | ⟨1, _⟩ => exact (dotL2_1 _ _).trans hk)
  have er : dot_S512x1024_S1024x1024_S512x1024_1_1_0_0_n_n.rhsIdx (ix2 p q) ((ValueIdx.contrEquiv1 dot_S512x1024_S1024x1024_S512x1024_1_1_0_0_n_n 1024 rfl rfl).symm k) = ix2 q k := funext fun a => Fin.ext (by
    match a with
    | ⟨0, _⟩ => exact dotR2_0 _ _
    | ⟨1, _⟩ => exact (dotR2_1 _ _).trans hk)
  rw [el, er]

/-- The bias row spread over the 512 rows reads, in every row, the row's entry of the column. -/
theorem biasRows2_apply (b : FVec Ideal S1x1024 .f32) (p : Fin 512) (q : Fin 1024) :
    broadcastTo S512x1024 b broadcasts_S1x1024_S512x1024 (ix2 p q) = b (ix2 0 q) :=
  broadcastTo_apply b broadcasts_S1x1024_S512x1024 (ix2 p q) (ix2 0 q) fun a => by
    match a with
    | ⟨0, _⟩ => rfl
    | ⟨1, _⟩ => rfl

/-- What the body stores at row `p`, column `q` of its block: row `p` of the first block against row `q` of the second,
    plus the third's entry `q`. The changes of float format are the identity on the extended reals. -/
theorem pay2_apply (x0 : Vec Ideal S512x1024 .bf16) (x1 : Vec Ideal S1024x1024 .f32) (x2 : Vec Ideal S1x1024 .f32)
    (p : Fin 512) (q : Fin 1024) :
    k2_pay1 (F := Ideal) x0 x1 x2 (ix2 p q) = (∑ k : Fin 1024, x0 (ix2 p k) * x1 (ix2 q k)) + x2 (ix2 0 q) := by
  unfold k2_pay1
  simp only [shapeCast_self]
  refine (congrArg₂ (· + ·) (blockProduct2_apply _ _ p q) (biasRows2_apply x2 p q)).trans ?_
  rfl

/-! ## The projection's blocks -/

variable (V : (c : Dev nD) → (b : Ref sig .tc) → Buf (Elt Ideal) ((c : Thread nD τ).loc b))

theorem hz2 : (![0, 0] : Fin 2 → Nat) = fun _ => 0 := funext fun a => by fin_cases a <;> rfl

/-- The projection at row `r`, column `n`. -/
theorem lin1024_apply (A : FVec Ideal (Cert.Spec.Sh2 4096 1024) .f32) (W : FVec Ideal (Cert.Spec.Sh2 1024 1024) .f32)
    (B : FVec Ideal (Cert.Spec.Sh2 1 1024) .f32) (r : Fin 4096) (n : Fin 1024) :
    Cert.Spec.lin1024 A W B (ix2 r n) = (∑ k : Fin 1024, A (ix2 r k) * W (ix2 n k)) + B (ix2 (0 : Fin 1) n) := rfl

/-- The windows' index maps over the grid's points: the first block moves with the output's row block, the second and the
    third with the output's column block; the row block's index is at most 7, the column block's at most 0. -/
theorem idx_facts2 : ∀ t : Fin cfg2.N, win2_0.index t (0 : Fin 2) = win2_3.index t (0 : Fin 2)
    ∧ win2_0.index t (1 : Fin 2) = 0
    ∧ win2_1.index t (0 : Fin 2) = win2_3.index t (1 : Fin 2)
    ∧ win2_1.index t (1 : Fin 2) = 0
    ∧ win2_2.index t (0 : Fin 2) = 0
    ∧ win2_2.index t (1 : Fin 2) = win2_3.index t (1 : Fin 2)
    ∧ win2_3.index t (0 : Fin 2) ≤ 7
    ∧ win2_3.index t (1 : Fin 2) ≤ 0 :=
  (by decide +kernel : ∀ t : Fin grid2.N, _)

/-- Every pair of a row block and a column block is some point's. -/
theorem idx_onto2 : ∀ (q0 : Fin 8) (q1 : Fin 1), ∃ t : Fin cfg2.N, win2_3.index t = ![q0.val, q1.val] :=
  (by decide +kernel : ∀ (q0 : Fin 8) (q1 : Fin 1), ∃ t : Fin grid2.N, win2_3.index t = ![q0.val, q1.val])

/-- The first block at point `t`, entry (p, k): the array at row (block index) · 512 + p. -/
theorem ablk2_apply (c : Dev nD) (t : Fin cfg2.N) (p : Fin 512) (k : Fin 1024) (r : Fin 4096)
    (hr : r.val = win2_0.index t (0 : Fin 2) * 512 + p.val) (h1 : win2_0.index t (1 : Fin 2) = 0) :
    (iblk2 V c 0 t : Vec Ideal S512x1024 .bf16) (ix2 p k) = (V c main_v7 : S4096x1024.Idx → EReal) (ix2 r k) := by
  unfold iblk2
  show V c main_v7 (((cfg2.win 0).blk t).view.emb (ix2 p k)) = V c main_v7 (ix2 r k)
  refine congrArg (V c main_v7) (funext fun a => Fin.ext ?_)
  match a with
  | ⟨0, _⟩ => show win2_0.index t (0 : Fin 2) * 512 + 1 * p.val = r.val; omega
  | ⟨1, _⟩ => show win2_0.index t (1 : Fin 2) * 1024 + 1 * k.val = k.val; omega

/-- The second block at point `t`, entry (q, k): the array at row (block index) · 1024 + q. -/
theorem wblk2_apply (c : Dev nD) (t : Fin cfg2.N) (q : Fin 1024) (k : Fin 1024) (n : Fin 1024)
    (hn : n.val = win2_1.index t (0 : Fin 2) * 1024 + q.val) (h1 : win2_1.index t (1 : Fin 2) = 0) :
    (iblk2 V c 1 t : Vec Ideal S1024x1024 .f32) (ix2 q k) = (V c main_arg4 : S1024x1024.Idx → EReal) (ix2 n k) := by
  unfold iblk2
  show V c main_arg4 (((cfg2.win 1).blk t).view.emb (ix2 q k)) = V c main_arg4 (ix2 n k)
  refine congrArg (V c main_arg4) (funext fun a => Fin.ext ?_)
  match a with
  | ⟨0, _⟩ => show win2_1.index t (0 : Fin 2) * 1024 + 1 * q.val = n.val; omega
  | ⟨1, _⟩ => show win2_1.index t (1 : Fin 2) * 1024 + 1 * k.val = k.val; omega

/-- The third block at point `t`, entry (0, q): the row at column (block index) · 1024 + q. -/
theorem bblk2_apply (c : Dev nD) (t : Fin cfg2.N) (q : Fin 1024) (n : Fin 1024)
    (h0 : win2_2.index t (0 : Fin 2) = 0) (hn : n.val = win2_2.index t (1 : Fin 2) * 1024 + q.val) :
    (iblk2 V c 2 t : Vec Ideal S1x1024 .f32) (ix2 (0 : Fin 1) q) = (V c main_v6 : S1x1024.Idx → EReal) (ix2 (0 : Fin 1) n) := by
  unfold iblk2
  show V c main_v6 (((cfg2.win 2).blk t).view.emb (ix2 (0 : Fin 1) q)) = V c main_v6 (ix2 (0 : Fin 1) n)
  refine congrArg (V c main_v6) (funext fun a => Fin.ext ?_)
  match a with
  | ⟨0, _⟩ => show win2_2.index t (0 : Fin 2) * 1 + 1 * 0 = 0; omega
  | ⟨1, _⟩ => show win2_2.index t (1 : Fin 2) * 1024 + 1 * q.val = n.val; omega

/-- What point `t` writes back is block `t` of the projection of the arrays as the region finds them. -/
theorem flushed2_eq (c : Dev nD) (t : Fin cfg2.N) :
    (dat2 (F := Ideal) V c).flushed 3 t
      = ((cfg2.win 3).blk t).view.read (Elt Ideal) (Cert.Spec.lin1024 (V c main_v7) (V c main_arg4) (V c main_v6)) := by
  show (cfg2.win 3).cut (grid2.coords t) ((dat2 V c).after 3 t) = _
  rw [after2_3]
  unfold out2_3
  rw [View.canon_unit_zero hz2]
  simp only [View.ld_unit_zero (S := S512x1024) hz2, View.ld_unit_zero (S := S1024x1024) hz2, View.ld_unit_zero (S := S1x1024) hz2]
  obtain ⟨e0, e1, e2, e3, e4, e5, e6, e7⟩ := idx_facts2 t
  funext j
  obtain ⟨p, q, rfl⟩ : ∃ (p : Fin 512) (q : Fin 1024), j = ix2 p q := ⟨j 0, j 1, eq_ix2 j⟩
  have hp := p.isLt
  have hq := q.isLt
  have hr : win2_3.index t (0 : Fin 2) * 512 + p.val < 4096 := by omega
  have hn : win2_3.index t (1 : Fin 2) * 1024 + q.val < 1024 := by omega
  have hemb : ((cfg2.win 3).blk t).view.emb (ix2 p q) = (ix2 (⟨_, hr⟩ : Fin 4096) (⟨_, hn⟩ : Fin 1024) : S4096x1024.Idx) := by
    funext a; apply Fin.ext
    match a with
    | ⟨0, _⟩ => show win2_3.index t (0 : Fin 2) * 512 + 1 * p.val = win2_3.index t (0 : Fin 2) * 512 + p.val; omega
    | ⟨1, _⟩ => show win2_3.index t (1 : Fin 2) * 1024 + 1 * q.val = win2_3.index t (1 : Fin 2) * 1024 + q.val; omega
  show k2_pay1 (F := Ideal) (iblk2 V c 0 t) (iblk2 V c 1 t) (iblk2 V c 2 t) (ix2 p q)
    = Cert.Spec.lin1024 (V c main_v7) (V c main_arg4) (V c main_v6) (((cfg2.win 3).blk t).view.emb (ix2 p q))
  rw [hemb, lin1024_apply]
  refine (pay2_apply (iblk2 V c 0 t) (iblk2 V c 1 t) (iblk2 V c 2 t) p q).trans ?_
  refine congrArg₂ (· + ·) (Finset.sum_congr rfl fun k _ => congrArg₂ (· * ·) ?_ ?_) ?_
  · exact ablk2_apply V c t p k ⟨_, hr⟩ (by show win2_3.index t (0 : Fin 2) * 512 + p.val = _; omega) e1
  · exact wblk2_apply V c t q k ⟨_, hn⟩ (by show win2_3.index t (1 : Fin 2) * 1024 + q.val = _; omega) e3
  · exact bblk2_apply V c t q ⟨_, hn⟩ e4 (by show win2_3.index t (1 : Fin 2) * 1024 + q.val = _; omega)

/-! ## From the blocks to the array -/

/-- An index of the array is in point `t`'s block iff each coordinate is in the block's range on its axis. -/
theorem mem_blk2 (t : Fin cfg2.N) (i : S4096x1024.Idx) :
    i ∈ ((cfg2.win 3).blk t).view.set ↔ ∀ a : Fin 2, win2_3.index t a * S512x1024.size a ≤ (i a).val ∧ (i a).val < win2_3.index t a * S512x1024.size a + S512x1024.size a := by
  show i ∈ ((View.whole main_v8).slice (win2_3.rect t)).set ↔ _
  rw [View.set_slice_whole, Rect.mem_set_unit]
  exact Iff.rfl

/-- Row `r`, column `n` of the array is in the block of the point whose row block is `r / 512` and whose column block is
    `n / 1024`; every point writes its block back. -/
theorem cover2 (i : S4096x1024.Idx) :
    ∃ t : Fin cfg2.N, (cfg2.win 3).flush t = true ∧ i ∈ ((cfg2.win 3).blk t).view.set := by
  have hi0 : (i 0).val < 4096 := (i 0).isLt
  have hi1 : (i 1).val < 1024 := (i 1).isLt
  obtain ⟨t, ht⟩ := idx_onto2 ⟨(i 0).val / 512, by omega⟩ ⟨(i 1).val / 1024, by omega⟩
  have q0 : win2_3.index t (0 : Fin 2) = (i 0).val / 512 := congrFun ht 0
  have q1 : win2_3.index t (1 : Fin 2) = (i 1).val / 1024 := congrFun ht 1
  refine ⟨t, flush2_3 t, ?_⟩
  rw [mem_blk2]
  intro a
  match a with
  | ⟨0, _⟩ => show win2_3.index t (0 : Fin 2) * 512 ≤ (i 0).val ∧ (i 0).val < win2_3.index t (0 : Fin 2) * 512 + 512; omega
  | ⟨1, _⟩ => show win2_3.index t (1 : Fin 2) * 1024 ≤ (i 1).val ∧ (i 1).val < win2_3.index t (1 : Fin 2) * 1024 + 1024; omega

/-- After the region's points the output array holds the projection of the arrays the region found: each of the first
    array's 4096 rows against each of the second's rows, plus the third's entry of the column. -/
theorem final2 (c : Dev nD) :
    (dat2 (F := Ideal) V c).arrAt 3 cfg2.N = Cert.Spec.lin1024 (V c main_v7) (V c main_arg4) (V c main_v6) :=
  (dat2 (F := Ideal) V c).arrAt_eq_of_cover 3 (Cert.Spec.lin1024 (V c main_v7) (V c main_arg4) (V c main_v6))
    (fun t _ => flushed2_eq V c t) (cover2)

end Cert.KernelIdeal.Hand

end
-- ==== Proof.KiPay1.lean ====
/-
  The arithmetic of the attention call's body at one grid point, on the extended reals, index by index.

  The body holds a 512 × 1024 block of the mask (as words: nonzero where the mask holds), 512 query rows, and all 1024
  key rows and value rows, each over the 128 columns of a PAIR of heads: head 0 of the pair in lanes 0..63, head 1 in
  lanes 64..127. For each head of the pair it forms the scores of the 512 query rows against the 1024 key rows (the
  sum over the head's 64 lanes of query times key, times 2⁻³, replaced by −∞ where the mask holds), takes the softmax
  of each row, and applies the weights to the head's 64 value columns. It stores the two heads' weights and the two
  heads' contexts side by side.

  This module reads those stored values at an index: each head's weights at (s, t) are the softmax at t of the row
  `t' ↦ blkScore … s t'`, and the context at (s, lane hh d) is the sum over t of that weight times the value at
  (t, lane hh d). First the pieces: the keepdims column forms of a shape cast and a broadcast; a row's maximum and
  sum; the softmax of every row of an abstract score matrix; the two contractions as sums over a lane or a key row.
-/
import proofs.«404232_j53352083751420_3_alg».proof.Proof.Gen.KernelIdeal.Skeleton
import proofs.«404232_j53352083751420_3_alg».proof.Proof.Spec
import proofs.«404232_j53352083751420_3_alg».proof.Proof.KiBlk
import Idealize.ShloMosaic.Lib.ValueLayout
import Idealize.ShloMosaic.Lib.ValueIdx
import Idealize.ShloMosaic.PureOps.Ideal.Laws
import Idealize.ShloMosaic.PureOps.IdealRules

set_option maxRecDepth 16384

noncomputable section

namespace Cert.KernelIdeal.Hand

open Cert.KernelIdeal Cert.KernelIdeal.Gen
open Idealize.ShloMosaic Idealize.ShloMosaic.ValueIdx

/-! ## The keepdims column forms -/

/-- An `[a]` vector cast to the column `[a, 1]` reads, at `(i, u)`, the operand at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A row's maximum and sum -/

/-- The lane maximum of row `s` of a 512 × 1024 matrix is the fold of `max` from −∞ over the row. -/
theorem rowMax_read (sc : FVec Ideal S512x1024 .f32) (s : Fin 512) :
    multiReduction (F := Ideal) .maximumf [1] S512 sc 0xFF800000#32 reduces_S512x1024_S512 (.inl rfl) rfl (ix1 s)
      = Cert.Spec.rowMax (fun t' => sc (ix2 s t')) := by
  refine (Ideal.multiReduction_maximumf_single sc 0xFF800000#32 reduces_S512x1024_S512 (.inl rfl) rfl (ix1 s)).trans ?_
  have h0 : FloatOps.ofBits (F := Ideal) .f32 0xFF800000#32 = (⊥ : EReal) := by simp [Ideal.ofBits, Ideal.ieee]
  have hl : (sc ∘ reduces_S512x1024_S512.lift (ix1 s)) = fun t' : Fin 1024 => sc (ix2 s t') :=
    funext fun k => congrArg sc (funext fun a => Fin.ext (by
      match a with
      | ⟨0, _⟩ => rfl
      | ⟨1, _⟩ => rfl))
  rw [h0, hl]
  rfl

/-- The lane sum of row `s` of a 512 × 1024 matrix is the sum over the row. -/
theorem rowSum_read (e : FVec Ideal S512x1024 .f32) (s : Fin 512) :
    multiReduction (F := Ideal) .add [1] S512 e 0x00000000#32 reduces_S512x1024_S512 (.inl rfl) rfl (ix1 s)
      = ∑ t' : Fin 1024, e (ix2 s t') := by
  refine (Ideal.multiReduction_add_single e 0x00000000#32 reduces_S512x1024_S512 (.inl rfl) rfl (ix1 s)).trans ?_
  refine Finset.sum_congr rfl fun k _ => congrArg e (funext fun a => Fin.ext (by
    match a with
    | ⟨0, _⟩ => rfl
    | ⟨1, _⟩ => rfl))

/-! ## The softmax of every row of a score matrix -/

/-- The body's softmax of a 512 × 1024 score matrix: each entry less its row's maximum, exponentiated, over the row's
    sum of those exponentials. -/
def softmaxRows (sc : FVec Ideal S512x1024 .f32) : FVec Ideal S512x1024 .f32 :=
  have v16 : FVec Ideal S512 .f32 := multiReduction .maximumf [1] S512 sc 0xFF800000#32 reduces_S512x1024_S512 (.inl rfl) rfl
  have v17 : FVec Ideal S512x1 .f32 := shapeCast S512x1 v16 shapeCasts_S512_S512x1
  have v18 : FVec Ideal S512x1024 .f32 := broadcastTo S512x1024 v17 broadcasts_S512x1_S512x1024
  have v19 : FVec Ideal S512x1024 .f32 := subf sc v18
  have v20 : FVec Ideal S512x1024 .f32 := exp v19
  have v21 : FVec Ideal S512 .f32 := multiReduction .add [1] S512 v20 0x00000000#32 reduces_S512x1024_S512 (.inl rfl) rfl
  have v22 : FVec Ideal S512x1 .f32 := shapeCast S512x1 v21 shapeCasts_S512_S512x1
  have v23 : FVec Ideal S512x1024 .f32 := broadcastTo S512x1024 v22 broadcasts_S512x1_S512x1024
  divf v20 v23

/-- At `(s, t)` it is the softmax of row `s` at `t`. -/
theorem softmaxRows_apply (sc : FVec Ideal S512x1024 .f32) (s : Fin 512) (t : Fin 1024) :
    softmaxRows sc (ix2 s t) = Cert.Spec.smax (fun t' => sc (ix2 s t')) t := by
  have hmax : ∀ (p : Fin 512) (c : Fin 1024),
      broadcastTo S512x1024 (shapeCast S512x1 (multiReduction (F := Ideal) .maximumf [1] S512 sc 0xFF800000#32
        reduces_S512x1024_S512 (.inl rfl) rfl) shapeCasts_S512_S512x1) broadcasts_S512x1_S512x1024 (ix2 p c)
        = Cert.Spec.rowMax (fun t' => sc (ix2 p t')) := fun p c =>
    (broadcastTo_a1_ab_apply _ broadcasts_S512x1_S512x1024 p c).trans
      ((shapeCast_a_a1_apply _ shapeCasts_S512_S512x1 p 0).trans (rowMax_read sc p))
  unfold softmaxRows Cert.Spec.smax
  simp only [divf_apply]
  refine congrArg₂ Ideal.div ?_ ?_
  · show Ideal.exp (sc (ix2 s t) - _) = _
    rw [hmax s t]
  · refine (broadcastTo_a1_ab_apply _ broadcasts_S512x1_S512x1024 s t).trans
      ((shapeCast_a_a1_apply _ shapeCasts_S512_S512x1 s 0).trans ((rowSum_read _ s).trans ?_))
    refine Finset.sum_congr rfl fun t' _ => ?_
    show Ideal.exp (sc (ix2 s t') - _) = _
    rw [hmax s t']

/-! ## The two contractions as sums -/

theorem lhs_qk_0 (i : S512x1024.Idx) (q : dot_S512x64_S1024x64_S512x1024_1_1_0_0_n_n.contr.Idx) :
    (dot_S512x64_S1024x64_S512x1024_1_1_0_0_n_n.lhsIdx i q 0).val = (i 0).val := by
  unfold DotDims.lhsIdx
  rw [dif_neg (show ¬(0 : Fin S512x64.rank) ∈ dot_S512x64_S1024x64_S512x1024_1_1_0_0_n_n.lhsBatch by decide), dif_pos (show (0 : Fin S512x64.rank) ∈ dot_S512x64_S1024x64_S512x1024_1_1_0_0_n_n.lhsNonContracting by decide)]
  rfl
theorem lhs_qk_1 (i : S512x1024.Idx) (q : dot_S512x64_S1024x64_S512x1024_1_1_0_0_n_n.contr.Idx) :
    (dot_S512x64_S1024x64_S512x1024_1_1_0_0_n_n.lhsIdx i q 1).val = (q ⟨0, by decide⟩).val :=
  dot_S512x64_S1024x64_S512x1024_1_1_0_0_n_n.lhsIdx_val_of_single rfl i q
theorem rhs_qk_0 (i : S512x1024.Idx) (q : dot_S512x64_S1024x64_S512x1024_1_1_0_0_n_n.contr.Idx) :
    (dot_S512x64_S1024x64_S512x1024_1_1_0_0_n_n.rhsIdx i q 0).val = (i 1).val := by
  unfold DotDims.rhsIdx
  rw [dif_neg (show ¬(0 : Fin S1024x64.rank) ∈ dot_S512x64_S1024x64_S512x1024_1_1_0_0_n_n.rhsBatch by decide), dif_pos (show (0 : Fin S1024x64.rank) ∈ dot_S512x64_S1024x64_S512x1024_1_1_0_0_n_n.rhsNonContracting by decide)]
  rfl
theorem rhs_qk_1 (i : S512x1024.Idx) (q : dot_S512x64_S1024x64_S512x1024_1_1_0_0_n_n.contr.Idx) :
    (dot_S512x64_S1024x64_S512x1024_1_1_0_0_n_n.rhsIdx i q 1).val = (q ⟨0, by decide⟩).val :=
  dot_S512x64_S1024x64_S512x1024_1_1_0_0_n_n.rhsIdx_val_of_single rfl i q

/-- Queries times transposed keys into the zero splat: at `(s, t)` the sum over the 64 lanes of query row `s` times
    key row `t`. -/
theorem qk_apply (a : FVec Ideal S512x64 .bf16) (b : FVec Ideal S1024x64 .bf16) (s : Fin 512) (t : Fin 1024) :
    matmul dot_S512x64_S1024x64_S512x1024_1_1_0_0_n_n none a b (constant (F := Ideal) S512x1024 .f32 0x00000000#32) (ix2 s t)
      = ∑ d : Fin 64, a (ix2 s d) * b (ix2 t d) := by
  simp only [matmul]
  rw [Ideal.matmul_constant_zero_apply, ← Equiv.sum_comp (contrEquiv1 dot_S512x64_S1024x64_S512x1024_1_1_0_0_n_n 64 rfl rfl).symm]
  refine Finset.sum_congr rfl fun k _ => ?_
  have hk := contrEquiv1_symm_val dot_S512x64_S1024x64_S512x1024_1_1_0_0_n_n 64 rfl rfl k
  have el : dot_S512x64_S1024x64_S512x1024_1_1_0_0_n_n.lhsIdx (ix2 s t) ((contrEquiv1 dot_S512x64_S1024x64_S512x1024_1_1_0_0_n_n 64 rfl rfl).symm k) = ix2 s k := funext fun ax => Fin.ext (by
    match ax with
    | ⟨0, _⟩ => exact lhs_qk_0 _ _
    | ⟨1, _⟩ => exact (lhs_qk_1 _ _).trans hk)
  have er : dot_S512x64_S1024x64_S512x1024_1_1_0_0_n_n.rhsIdx (ix2 s t) ((contrEquiv1 dot_S512x64_S1024x64_S512x1024_1_1_0_0_n_n 64 rfl rfl).symm k) = ix2 t k := funext fun ax => Fin.ext (by
    match ax with
    | ⟨0, _⟩ => exact rhs_qk_0 _ _
    | ⟨1, _⟩ => exact (rhs_qk_1 _ _).trans hk)
  rw [el, er]

theorem lhs_pv_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_pv_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_pv_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_pv_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

/-- Weights times values into the zero splat: at `(s, d)` the sum over the 1024 key rows of the weight at `(s, t)`
    times the value at `(t, d)`. -/
theorem pv_apply (p : FVec Ideal S512x1024 .bf16) (v : FVec Ideal S1024x64 .bf16) (s : Fin 512) (d : Fin 64) :
    matmul dot_S512x1024_S1024x64_S512x64_1_0_0_1_n_n none p v (constant (F := Ideal) S512x64 .f32 0x00000000#32) (ix2 s d)
      = ∑ t : Fin 1024, p (ix2 s t) * v (ix2 t d) := by
  simp only [matmul]
  rw [Ideal.matmul_constant_zero_apply, ← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 s d) ((contrEquiv1 dot_S512x1024_S1024x64_S512x64_1_0_0_1_n_n 1024 rfl rfl).symm k) = ix2 s k := funext fun ax => Fin.ext (by
    match ax with
    | ⟨0, _⟩ => exact lhs_pv_0 _ _
    | ⟨1, _⟩ => exact (lhs_pv_1 _ _).trans hk)
  have er : dot_S512x1024_S1024x64_S512x64_1_0_0_1_n_n.rhsIdx (ix2 s d) ((contrEquiv1 dot_S512x1024_S1024x64_S512x64_1_0_0_1_n_n 1024 rfl rfl).symm k) = ix2 k d := funext fun ax => Fin.ext (by
    match ax with
    | ⟨0, _⟩ => exact (rhs_pv_0 _ _).trans hk
    | ⟨1, _⟩ => exact rhs_pv_1 _ _)
  rw [el, er]

/-! ## The masked, scaled score matrix -/

/-- The body's −∞: the named constant the table gives `⊥`. -/
theorem neg_big : Named.named (F := Ideal) Cert.KernelIdeal.κ "neg_big" (φ := .f32) 0xFF333332#32 = (⊥ : EReal) :=
  IdealRules.named_const.ideal_named_scalar _ _ _ _ rfl

/-- A product matrix scaled by 2⁻³, replaced by −∞ where the mask bit is set. -/
def maskScale (m : IVec S512x1024 1) (p : FVec Ideal S512x1024 .f32) : FVec Ideal S512x1024 .f32 :=
  select m (broadcast S512x1024 (Named.named (F := Ideal) κ "neg_big" (φ := .f32) 0xFF333332#32))
    (mulf p (broadcast S512x1024 (Scalar.ofBits (F := Ideal) .f32 0x3E000000#32)))

theorem maskScale_apply (m : IVec S512x1024 1) (p : FVec Ideal S512x1024 .f32) (s : Fin 512) (t : Fin 1024) :
    maskScale m p (ix2 s t) = if m (ix2 s t) = 1#1 then ⊥ else p (ix2 s t) * Cert.Spec.scale := by
  unfold maskScale
  rw [select_apply, broadcast_apply, mulf_apply, broadcast_apply, neg_big]
  rfl

/-- The mask bit is set exactly where the mask word is nonzero. -/
theorem maskBit_eq_one_iff (v0 : Vec Ideal S512x1024 .i32) (j : S512x1024.Idx) :
    k1_pay4 (F := Ideal) v0 j = 1#1 ↔ v0 j ≠ 0#32 := by
  show IntOp.cmpi .ne (v0 j) 0#32 = 1#1 ↔ _
  unfold IntOp.cmpi
  by_cases h : v0 j = 0#32
  · simp [h]
  · have hb : (v0 j != 0#32) = true := bne_iff_ne.mpr h
    rw [hb]
    exact ⟨fun _ => h, fun _ => rfl⟩

/-- A `[1, a, 128]` block with its unit axis dropped and cut to the 64 columns from `o` reads, at `(s, d)`, the
    block at `(0, s, o + d)`. -/
theorem slice_cast_apply {α : Type} {a : ℕ} (x : (⟨3, ![1, a, 128]⟩ : Shape).Idx → α)
    (hc : (⟨3, ![1, a, 128]⟩ : Shape).ShapeCasts ⟨2, ![a, 128]⟩) (o : ℕ)
    (hs : (⟨2, ![a, 128]⟩ : Shape).Slices ![0, o] ⟨2, ![a, 64]⟩) (s : Fin a) (d : Fin 64) (l : Fin 128)
    (hl : l.val = o + d.val) :
    extractStridedSlice ⟨2, ![a, 64]⟩ ![0, o] (shapeCast ⟨2, ![a, 128]⟩ x hc) hs (ix2 s d) = x (ix3 (0 : Fin 1) s l) :=
  (slice2_axis1_apply o _ hs s d l hl).trans (shapeCast_1ab_ab_apply x hc s l)

theorem lane0_val (d : Fin 64) : (lane 0 d).val = 0 + d.val := by show 0 * 64 + d.val = 0 + d.val; omega
theorem lane1_val (d : Fin 64) : (lane 1 d).val = 64 + d.val := by show 1 * 64 + d.val = 64 + d.val; omega

/-- The masked, scaled scores of a head of the pair, from the head's 64 query lanes and 64 key lanes. -/
theorem scoreRow_eq (v0 : Vec Ideal S512x1024 .i32) (v2 : Vec Ideal S1x512x128 .bf16) (v4 : Vec Ideal S1x1024x128 .bf16)
    (hh : Fin 2) (a : FVec Ideal S512x64 .bf16) (b : FVec Ideal S1024x64 .bf16)
    (ha : ∀ (s : Fin 512) (d : Fin 64), a (ix2 s d) = v2 (ix3 (0 : Fin 1) s (lane hh d)))
    (hb : ∀ (t : Fin 1024) (d : Fin 64), b (ix2 t d) = v4 (ix3 (0 : Fin 1) t (lane hh d)))
    (s : Fin 512) (t : Fin 1024) :
    maskScale (k1_pay4 (F := Ideal) v0)
        (matmul dot_S512x64_S1024x64_S512x1024_1_1_0_0_n_n none a b (constant (F := Ideal) S512x1024 .f32 0x00000000#32)) (ix2 s t)
      = blkScore v0 v2 v4 hh s t := by
  rw [maskScale_apply, qk_apply]
  unfold blkScore
  simp only [ha, hb]
  by_cases h : v0 (ix2 s t) = 0#32
  · rw [if_neg (fun h1 => (maskBit_eq_one_iff v0 _).mp h1 h), if_neg (not_not.mpr h)]
  · rw [if_pos ((maskBit_eq_one_iff v0 _).mpr h), if_pos h]

/-- So the softmax of that score matrix is the softmax of the head's score rows. -/
theorem weights_eq (v0 : Vec Ideal S512x1024 .i32) (v2 : Vec Ideal S1x512x128 .bf16) (v4 : Vec Ideal S1x1024x128 .bf16)
    (hh : Fin 2) (a : FVec Ideal S512x64 .bf16) (b : FVec Ideal S1024x64 .bf16)
    (ha : ∀ (s : Fin 512) (d : Fin 64), a (ix2 s d) = v2 (ix3 (0 : Fin 1) s (lane hh d)))
    (hb : ∀ (t : Fin 1024) (d : Fin 64), b (ix2 t d) = v4 (ix3 (0 : Fin 1) t (lane hh d)))
    (s : Fin 512) (t : Fin 1024) :
    softmaxRows (maskScale (k1_pay4 (F := Ideal) v0)
        (matmul dot_S512x64_S1024x64_S512x1024_1_1_0_0_n_n none a b (constant (F := Ideal) S512x1024 .f32 0x00000000#32))) (ix2 s t)
      = Cert.Spec.smax (fun t' => blkScore v0 v2 v4 hh s t') t := by
  rw [softmaxRows_apply]
  exact congrArg (fun r => Cert.Spec.smax r t) (funext fun t' => scoreRow_eq v0 v2 v4 hh a b ha hb s t')

/-! ## The two heads' weights -/

/-- Head 0's weight matrix is the softmax of the score matrix of lanes 0..63. -/
theorem k1_pay8_eq (v0 : Vec Ideal S512x1024 .i32) (v2 : Vec Ideal S1x512x128 .bf16) (v4 : Vec Ideal S1x1024x128 .bf16) :
    k1_pay8 (F := Ideal) v0 v2 v4 = softmaxRows (maskScale (k1_pay4 (F := Ideal) v0)
      (matmul dot_S512x64_S1024x64_S512x1024_1_1_0_0_n_n none
        (extractStridedSlice S512x64 ![0, 0] (k1_pay5 (F := Ideal) v2) slices_S512x128_o0_0_S512x64)
        (extractStridedSlice S1024x64 ![0, 0] (k1_pay6 (F := Ideal) v4) slices_S1024x128_o0_0_S1024x64)
        (constant (F := Ideal) S512x1024 .f32 0x00000000#32))) := rfl

/-- Head 1's is the softmax of the masked, scaled product it is handed. -/
theorem k1_pay1_eq (v1 : IVec S512x1024 1) (v33 : FVec Ideal S512x1024 .f32) :
    k1_pay1 (F := Ideal) v1 v33 = softmaxRows (maskScale v1 v33) := rfl

/-- The product it is handed: of lanes 64..127. -/
theorem k1_pay12_eq (v2 : Vec Ideal S1x512x128 .bf16) (v4 : Vec Ideal S1x1024x128 .bf16) :
    k1_pay12 (F := Ideal) v2 v4 = matmul dot_S512x64_S1024x64_S512x1024_1_1_0_0_n_n none
        (extractStridedSlice S512x64 ![0, 64] (k1_pay5 (F := Ideal) v2) slices_S512x128_o0_64_S512x64)
        (extractStridedSlice S1024x64 ![0, 64] (k1_pay6 (F := Ideal) v4) slices_S1024x128_o0_64_S1024x64)
        (constant (F := Ideal) S512x1024 .f32 0x00000000#32) := rfl

theorem weights0_apply (v0 : Vec Ideal S512x1024 .i32) (v2 : Vec Ideal S1x512x128 .bf16) (v4 : Vec Ideal S1x1024x128 .bf16)
    (s : Fin 512) (t : Fin 1024) :
    k1_pay8 (F := Ideal) v0 v2 v4 (ix2 s t) = Cert.Spec.smax (fun t' => blkScore v0 v2 v4 0 s t') t := by
  rw [k1_pay8_eq]
  exact weights_eq v0 v2 v4 0 _ _
    (fun s d => slice_cast_apply v2 shapeCasts_S1x512x128_S512x128 0 slices_S512x128_o0_0_S512x64 s d (lane 0 d) (lane0_val d))
    (fun t d => slice_cast_apply v4 shapeCasts_S1x1024x128_S1024x128 0 slices_S1024x128_o0_0_S1024x64 t d (lane 0 d) (lane0_val d))
    s t

theorem weights1_apply (v0 : Vec Ideal S512x1024 .i32) (v2 : Vec Ideal S1x512x128 .bf16) (v4 : Vec Ideal S1x1024x128 .bf16)
    (s : Fin 512) (t : Fin 1024) :
    k1_pay1 (F := Ideal) (k1_pay4 (F := Ideal) v0) (k1_pay12 (F := Ideal) v2 v4) (ix2 s t)
      = Cert.Spec.smax (fun t' => blkScore v0 v2 v4 1 s t') t := by
  rw [k1_pay1_eq, k1_pay12_eq]
  exact weights_eq v0 v2 v4 1 _ _
    (fun s d => slice_cast_apply v2 shapeCasts_S1x512x128_S512x128 64 slices_S512x128_o0_64_S512x64 s d (lane 1 d) (lane1_val d))
    (fun t d => slice_cast_apply v4 shapeCasts_S1x1024x128_S1024x128 64 slices_S1024x128_o0_64_S1024x64 t d (lane 1 d) (lane1_val d))
    s t

/-- Head 0's stored weights. -/
theorem pay_weights0 (v0 : Vec Ideal S512x1024 .i32) (v2 : Vec Ideal S1x512x128 .bf16) (v4 : Vec Ideal S1x1024x128 .bf16)
    (s : Fin 512) (t : Fin 1024) :
    k1_pay9 (F := Ideal) v0 v2 v4 (ix3 (0 : Fin 1) s t) = Cert.Spec.smax (fun t' => blkScore v0 v2 v4 0 s t') t :=
  (shapeCast_ab_1ab_apply (k1_pay8 (F := Ideal) v0 v2 v4) shapeCasts_S512x1024_S1x512x1024 0 s t).trans
    (weights0_apply v0 v2 v4 s t)

/-- Head 1's stored weights. -/
theorem pay_weights1 (v0 : Vec Ideal S512x1024 .i32) (v2 : Vec Ideal S1x512x128 .bf16) (v4 : Vec Ideal S1x1024x128 .bf16)
    (s : Fin 512) (t : Fin 1024) :
    k1_pay2 (F := Ideal) (k1_pay4 (F := Ideal) v0) (k1_pay12 (F := Ideal) v2 v4) (ix3 (0 : Fin 1) s t)
      = Cert.Spec.smax (fun t' => blkScore v0 v2 v4 1 s t') t :=
  (shapeCast_ab_1ab_apply (k1_pay1 (F := Ideal) (k1_pay4 (F := Ideal) v0) (k1_pay12 (F := Ideal) v2 v4))
      shapeCasts_S512x1024_S1x512x1024 0 s t).trans
    (weights1_apply v0 v2 v4 s t)

/-! ## The two heads' contexts -/

/-- Head 0's context matrix: its weights times the value lanes 0..63. -/
theorem k1_pay10_eq (v0 : Vec Ideal S512x1024 .i32) (v2 : Vec Ideal S1x512x128 .bf16) (v4 : Vec Ideal S1x1024x128 .bf16)
    (v6 : Vec Ideal S1x1024x128 .bf16) :
    k1_pay10 (F := Ideal) v0 v2 v4 v6 = matmul dot_S512x1024_S1024x64_S512x64_1_0_0_1_n_n none
      (truncf .bf16 (k1_pay8 (F := Ideal) v0 v2 v4) bitsLt_bf16_f32)
      (extractStridedSlice S1024x64 ![0, 0] (k1_pay7 (F := Ideal) v6) slices_S1024x128_o0_0_S1024x64)
      (constant (F := Ideal) S512x64 .f32 0x00000000#32) := rfl

theorem ctx0_apply (v0 : Vec Ideal S512x1024 .i32) (v2 : Vec Ideal S1x512x128 .bf16) (v4 : Vec Ideal S1x1024x128 .bf16)
    (v6 : Vec Ideal S1x1024x128 .bf16) (s : Fin 512) (d : Fin 64) :
    k1_pay10 (F := Ideal) v0 v2 v4 v6 (ix2 s d)
      = ∑ t : Fin 1024, Cert.Spec.smax (fun t' => blkScore v0 v2 v4 0 s t') t * v6 (ix3 (0 : Fin 1) t (lane 0 d)) := by
  rw [k1_pay10_eq, pv_apply]
  refine Finset.sum_congr rfl fun t _ => ?_
  exact congrArg₂ (· * ·) ((truncf_apply _ bitsLt_bf16_f32 _).trans (weights0_apply v0 v2 v4 s t))
    (slice_cast_apply v6 shapeCasts_S1x1024x128_S1024x128 0 slices_S1024x128_o0_0_S1024x64 t d (lane 0 d) (lane0_val d))

/-- What the body stores of the contexts: head 0's matrix beside head 1's weights times the value lanes it is handed. -/
theorem k1_pay3_eq (v1 : IVec S512x1024 1) (v29 : FVec Ideal S512x64 .f32) (v32 : FVec Ideal S1024x64 .bf16)
    (v33 : FVec Ideal S512x1024 .f32) :
    k1_pay3 (F := Ideal) v1 v29 v32 v33 = shapeCast S1x512x128 (truncf .bf16 (concatenate S512x128 1
      [⟨S512x64, v29⟩, ⟨S512x64, matmul dot_S512x1024_S1024x64_S512x64_1_0_0_1_n_n none
        (truncf .bf16 (k1_pay1 (F := Ideal) v1 v33) bitsLt_bf16_f32) v32 (constant (F := Ideal) S512x64 .f32 0x00000000#32)⟩]
      concatenates_S512x64_S512x64_S512x128_d1) bitsLt_bf16_f32) shapeCasts_S512x128_S1x512x128 := rfl

/-- In lanes 0..63 it is the first matrix. -/
theorem pay3_left (v1 : IVec S512x1024 1) (v29 : FVec Ideal S512x64 .f32) (v32 : FVec Ideal S1024x64 .bf16)
    (v33 : FVec Ideal S512x1024 .f32) (s : Fin 512) (d : Fin 64) :
    k1_pay3 (F := Ideal) v1 v29 v32 v33 (ix3 (0 : Fin 1) s (lane 0 d)) = v29 (ix2 s d) := by
  rw [k1_pay3_eq]
  refine (shapeCast_ab_1ab_apply _ shapeCasts_S512x128_S1x512x128 0 s (lane 0 d)).trans ?_
  rw [truncf_apply]
  exact concatenate_pair_apply_left (1 : Fin S512x128.rank) v29 _ concatenates_S512x64_S512x64_S512x128_d1
    (ix2 s (lane 0 d)) rfl (ix2 s d) (fun b => by
      match b with
      | ⟨0, _⟩ => rfl
      | ⟨1, _⟩ => show d.val = 0 * 64 + d.val; omega)

/-- In lanes 64..127 it is the second. -/
theorem pay3_right (v1 : IVec S512x1024 1) (v29 : FVec Ideal S512x64 .f32) (v32 : FVec Ideal S1024x64 .bf16)
    (v33 : FVec Ideal S512x1024 .f32) (s : Fin 512) (d : Fin 64) :
    k1_pay3 (F := Ideal) v1 v29 v32 v33 (ix3 (0 : Fin 1) s (lane 1 d))
      = matmul dot_S512x1024_S1024x64_S512x64_1_0_0_1_n_n none
          (truncf .bf16 (k1_pay1 (F := Ideal) v1 v33) bitsLt_bf16_f32) v32 (constant (F := Ideal) S512x64 .f32 0x00000000#32) (ix2 s d) := by
  rw [k1_pay3_eq]
  refine (shapeCast_ab_1ab_apply _ shapeCasts_S512x128_S1x512x128 0 s (lane 1 d)).trans ?_
  rw [truncf_apply]
  exact concatenate_pair_apply_right (1 : Fin S512x128.rank) v29 _ concatenates_S512x64_S512x64_S512x128_d1
    (ix2 s (lane 1 d)) rfl rfl (ix2 s d) (fun b hb => by
      match b, hb with
      | ⟨0, _⟩, _ => rfl
      | ⟨1, _⟩, hb => exact absurd rfl hb)
    (by show d.val + 64 = 1 * 64 + d.val; omega)

theorem pay_ctx0 (v0 : Vec Ideal S512x1024 .i32) (v2 : Vec Ideal S1x512x128 .bf16) (v4 : Vec Ideal S1x1024x128 .bf16)
    (v6 : Vec Ideal S1x1024x128 .bf16) (s : Fin 512) (d : Fin 64) :
    k1_pay3 (F := Ideal) (k1_pay4 (F := Ideal) v0) (k1_pay10 (F := Ideal) v0 v2 v4 v6) (k1_pay11 (F := Ideal) v6)
        (k1_pay12 (F := Ideal) v2 v4) (ix3 (0 : Fin 1) s (lane 0 d))
      = ∑ t : Fin 1024, Cert.Spec.smax (fun t' => blkScore v0 v2 v4 0 s t') t * v6 (ix3 (0 : Fin 1) t (lane 0 d)) :=
  (pay3_left _ _ _ _ s d).trans (ctx0_apply v0 v2 v4 v6 s d)

theorem pay_ctx1 (v0 : Vec Ideal S512x1024 .i32) (v2 : Vec Ideal S1x512x128 .bf16) (v4 : Vec Ideal S1x1024x128 .bf16)
    (v6 : Vec Ideal S1x1024x128 .bf16) (s : Fin 512) (d : Fin 64) :
    k1_pay3 (F := Ideal) (k1_pay4 (F := Ideal) v0) (k1_pay10 (F := Ideal) v0 v2 v4 v6) (k1_pay11 (F := Ideal) v6)
        (k1_pay12 (F := Ideal) v2 v4) (ix3 (0 : Fin 1) s (lane 1 d))
      = ∑ t : Fin 1024, Cert.Spec.smax (fun t' => blkScore v0 v2 v4 1 s t') t * v6 (ix3 (0 : Fin 1) t (lane 1 d)) := by
  rw [pay3_right, pv_apply]
  refine Finset.sum_congr rfl fun t _ => ?_
  exact congrArg₂ (· * ·) ((truncf_apply _ bitsLt_bf16_f32 _).trans (weights1_apply v0 v2 v4 s t))
    (slice_cast_apply v6 shapeCasts_S1x1024x128_S1024x128 64 slices_S1024x128_o0_64_S1024x64 t d (lane 1 d) (lane1_val d))

/-- The stored contexts: at row `s` and lane `d` of head `hh` of the pair, the head's weights applied to its value lane. -/
theorem pay_ctx (v0 : Vec Ideal S512x1024 .i32) (v2 : Vec Ideal S1x512x128 .bf16) (v4 : Vec Ideal S1x1024x128 .bf16)
    (v6 : Vec Ideal S1x1024x128 .bf16) (s : Fin 512) (hh : Fin 2) (d : Fin 64) :
    k1_pay3 (F := Ideal) (k1_pay4 (F := Ideal) v0) (k1_pay10 (F := Ideal) v0 v2 v4 v6) (k1_pay11 (F := Ideal) v6)
        (k1_pay12 (F := Ideal) v2 v4) (ix3 (0 : Fin 1) s (lane hh d))
      = ∑ t : Fin 1024, Cert.Spec.smax (fun t' => blkScore v0 v2 v4 hh s t') t * v6 (ix3 (0 : Fin 1) t (lane hh d)) := by
  match hh with
  | ⟨0, _⟩ => exact pay_ctx0 v0 v2 v4 v6 s d
  | ⟨1, _⟩ => exact pay_ctx1 v0 v2 v4 v6 s d

end Cert.KernelIdeal.Hand

end
-- ==== Proof.KiFin.lean ====
/-
  The idealized kernel's two results as the specification's functions of its arguments.
  The run ends with every unscoped buffer at the last contents of the fold through @main's seven segments. Here the
  fold is read in closed form, boundary by boundary, at the ideal values: a host reshape between [4, 1024, n] and
  [4096, n] is the row re-layout (row b·1024 + s), a reshape of a bias to one row reads the same entries, the mask
  widened to words is nonzero exactly where the mask holds; the projection region leaves a · wᵀ + b over the 4096 rows,
  the attention region the softmax weights and the context of the projected array, the output projection a · wᵀ + b
  again. Composed, the weights' buffer holds `resWeights` and the output's `resOut` of the six arguments.
-/
import proofs.«404232_j53352083751420_3_alg».proof.Proof.KiRun
import proofs.«404232_j53352083751420_3_alg».proof.Proof.KiVal0
import proofs.«404232_j53352083751420_3_alg».proof.Proof.KiVal1
import proofs.«404232_j53352083751420_3_alg».proof.Proof.KiVal1c
import proofs.«404232_j53352083751420_3_alg».proof.Proof.KiVal2
import proofs.«404232_j53352083751420_3_alg».proof.Proof.KiPay1
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem

/-! ## The re-layouts -/

/-- [4, 1024, 1024] cast to [4096, 1024]: row `r` is (r / 1024, r % 1024). -/
theorem cast_rows (x : S4x1024x1024.Idx → EReal) :
    shapeCast S4096x1024 x shapeCasts_S4x1024x1024_S4096x1024 = Cert.Spec.rows x := by
  funext j
  exact shapeCast_apply x _ j (ix3 (Cert.Spec.rowB (j 0)) (Cert.Spec.rowS (j 0)) (j 1)) (by
    rw [Shape.rowMajor_val_three, Shape.rowMajor_val_two]
    have h0 : (j 0).val < 4096 := (j 0).isLt
    show ((j 0).val / 1024 * 1024 + (j 0).val % 1024) * 1024 + (j 1).val = (j 0).val * 1024 + (j 1).val
    omega)

/-- [4096, 3072] cast to [4, 1024, 3072]: (b, s) is row b·1024 + s. -/
theorem cast_unrows3072 (y : S4096x3072.Idx → EReal) :
    shapeCast S4x1024x3072 y shapeCasts_S4096x3072_S4x1024x3072 = Cert.Spec.unrows3072 y := by
  funext j
  exact shapeCast_apply y _ j (ix2 (Cert.Spec.row (j 0) (j 1)) (j 2)) (by
    rw [Shape.rowMajor_val_three, Shape.rowMajor_val_two]; rfl)

/-- [4096, 1024] cast to [4, 1024, 1024]. -/
theorem cast_unrows1024 (y : S4096x1024.Idx → EReal) :
    shapeCast S4x1024x1024 y shapeCasts_S4096x1024_S4x1024x1024 = Cert.Spec.unrows1024 y := by
  funext j
  exact shapeCast_apply y _ j (ix2 (Cert.Spec.row (j 0) (j 1)) (j 2)) (by
    rw [Shape.rowMajor_val_three, Shape.rowMajor_val_two]; rfl)

/-- A bias of 3072 entries as one row. -/
theorem cast_asRow3072 (b : S3072.Idx → EReal) :
    shapeCast S1x3072 b shapeCasts_S3072_S1x3072 = Cert.Spec.asRow3072 b := by
  funext j
  exact shapeCast_apply b _ j (ix1 (j 1)) (by
    rw [Shape.rowMajor_val_two, Shape.rowMajor_val_one]
    have h0 : (j 0).val < 1 := (j 0).isLt
    show (j 1).val = (j 0).val * 3072 + (j 1).val
    omega)

/-- A bias of 1024 entries as one row. -/
theorem cast_asRow1024 (b : S1024.Idx → EReal) :
    shapeCast S1x1024 b shapeCasts_S1024_S1x1024 = Cert.Spec.asRow1024 b := by
  funext j
  exact shapeCast_apply b _ j (ix1 (j 1)) (by
    rw [Shape.rowMajor_val_two, Shape.rowMajor_val_one]
    have h0 : (j 0).val < 1 := (j 0).isLt
    show (j 1).val = (j 0).val * 1024 + (j 1).val
    omega)

/-- A mask bit widened to a word is nonzero exactly when the bit is one. -/
theorem word_ne_zero_iff (b : BitVec 1) : b.setWidth 32 ≠ 0#32 ↔ b = 1#1 := by
  rcases BitVec.eq_zero_or_eq_one b with h | h <;> subst h <;> decide

variable (m : (ℓ : Loc nD τ sig) → Buf (Elt Ideal) ℓ) (ρ : Dev nD → PrngReg)

/-! ## The projection's entry -/

theorem W1_v1 (c : Dev nD) :
    (W1 m ρ c (Proc.devRef .tc main_v1) : S4096x1024.Idx → EReal) = Cert.Spec.rows (m ((c : Thread nD τ).loc main_arg0)) := by
  have e : W1 m ρ c (Proc.devRef .tc main_v1)
      = shapeCast S4096x1024 (m ((c : Thread nD τ).loc main_arg0)) shapeCasts_S4x1024x1024_S4096x1024 := by
    show StableHlo.after hostOps0 (W0 m ρ c) (Proc.devRef .tc main_v1) = _
    after_results <;> rfl
  rw [e]; exact cast_rows _

theorem W1_v0 (c : Dev nD) :
    (W1 m ρ c (Proc.devRef .tc main_v0) : S1x3072.Idx → EReal) = Cert.Spec.asRow3072 (m ((c : Thread nD τ).loc main_arg3)) := by
  have e : W1 m ρ c (Proc.devRef .tc main_v0)
      = shapeCast S1x3072 (m ((c : Thread nD τ).loc main_arg3)) shapeCasts_S3072_S1x3072 := by
    show StableHlo.after hostOps0 (W0 m ρ c) (Proc.devRef .tc main_v0) = _
    after_results <;> rfl
  rw [e]; exact cast_asRow3072 _

theorem W1_arg2 (c : Dev nD) : W1 m ρ c (Proc.devRef .tc main_arg2) = m ((c : Thread nD τ).loc main_arg2) :=
  (W1_of m ρ c main_arg2 (by decide)).trans rfl

/-! ## The projected rows -/

theorem W2_v2 (c : Dev nD) :
    (W2 m ρ c (Proc.devRef .tc main_v2) : S4096x3072.Idx → EReal)
      = Cert.Spec.lin3072 (Cert.Spec.rows (m ((c : Thread nD τ).loc main_arg0))) (m ((c : Thread nD τ).loc main_arg2))
          (Cert.Spec.asRow3072 (m ((c : Thread nD τ).loc main_arg3))) := by
  have e := (W2_arr m ρ c 3).trans (final0 (V1 m ρ) c)
  rw [show V1 m ρ c main_v1 = _ from W1_v1 m ρ c, show V1 m ρ c main_arg2 = _ from W1_arg2 m ρ c,
    show V1 m ρ c main_v0 = _ from W1_v0 m ρ c] at e
  exact e

/-! ## Attention's entry -/

theorem W3_v3 (c : Dev nD) :
    (W3 m ρ c (Proc.devRef .tc main_v3) : S4x1024x3072.Idx → EReal)
      = Cert.Spec.qkvOf (m ((c : Thread nD τ).loc main_arg0)) (m ((c : Thread nD τ).loc main_arg2)) (m ((c : Thread nD τ).loc main_arg3)) := by
  have e : W3 m ρ c (Proc.devRef .tc main_v3)
      = shapeCast S4x1024x3072 (W2 m ρ c (Proc.devRef .tc main_v2)) shapeCasts_S4096x3072_S4x1024x3072 := by
    show StableHlo.after hostOps1 (W2 m ρ c) (Proc.devRef .tc main_v3) = _
    after_results <;> rfl
  rw [e, cast_unrows3072, W2_v2]; rfl

theorem W3_v4 (c : Dev nD) :
    (W3 m ρ c (Proc.devRef .tc main_v4) : IVec S1024x1024 32) = extui 32 (m ((c : Thread nD τ).loc main_arg1)) natLt_1_32 := by
  have e : W3 m ρ c (Proc.devRef .tc main_v4) = extui 32 (W2 m ρ c (Proc.devRef .tc main_arg1)) natLt_1_32 := by
    show StableHlo.after hostOps1 (W2 m ρ c) (Proc.devRef .tc main_v4) = _
    after_results <;> rfl
  rw [e, W2_kept m ρ c main_arg1 (by decide) (by decide)]

/-- The mask words are nonzero exactly where the mask holds. -/
theorem maskWords_V3 (c : Dev nD) : maskWords (V3 m ρ) c = Cert.Spec.maskOf (m ((c : Thread nD τ).loc main_arg1)) := by
  funext s t
  apply propext
  show (W3 m ρ c (Proc.devRef .tc main_v4) : IVec S1024x1024 32) (ix2 s t) ≠ 0#32 ↔ _
  rw [W3_v4]
  exact word_ne_zero_iff _

/-! ## The weights and the context -/

theorem W4_weights (c : Dev nD) :
    (W4 m ρ c (Proc.devRef .tc main_v5_1) : S64x1024x1024.Idx → EReal)
      = Cert.Spec.resWeights (m ((c : Thread nD τ).loc main_arg0)) (m ((c : Thread nD τ).loc main_arg1))
          (m ((c : Thread nD τ).loc main_arg2)) (m ((c : Thread nD τ).loc main_arg3)) := by
  have e := (W4_main_v5_1 m ρ c).trans (final1_weights_of pay_weights0 pay_weights1 (V3 m ρ) c)
  rw [show V3 m ρ c main_v3 = _ from W3_v3 m ρ c, maskWords_V3] at e
  exact e

theorem W4_ctx (c : Dev nD) :
    (W4 m ρ c (Proc.devRef .tc main_v5_0) : S4x1024x1024.Idx → EReal)
      = Cert.Spec.ctx (Cert.Spec.qkvOf (m ((c : Thread nD τ).loc main_arg0)) (m ((c : Thread nD τ).loc main_arg2)) (m ((c : Thread nD τ).loc main_arg3)))
          (Cert.Spec.maskOf (m ((c : Thread nD τ).loc main_arg1))) := by
  have e := (W4_main_v5_0 m ρ c).trans (final1_ctx_of pay_ctx (V3 m ρ) c)
  change _ = Cert.Spec.ctx _ (maskWords (V3 m ρ) c) at e
  rw [show V3 m ρ c main_v3 = _ from W3_v3 m ρ c, maskWords_V3] at e
  exact e

/-! ## The output projection's entry -/

theorem W5_v7 (c : Dev nD) :
    (W5 m ρ c (Proc.devRef .tc main_v7) : S4096x1024.Idx → EReal)
      = Cert.Spec.rows (Cert.Spec.ctx (Cert.Spec.qkvOf (m ((c : Thread nD τ).loc main_arg0)) (m ((c : Thread nD τ).loc main_arg2)) (m ((c : Thread nD τ).loc main_arg3)))
          (Cert.Spec.maskOf (m ((c : Thread nD τ).loc main_arg1)))) := by
  have e : W5 m ρ c (Proc.devRef .tc main_v7)
      = shapeCast S4096x1024 (W4 m ρ c (Proc.devRef .tc main_v5_0)) shapeCasts_S4x1024x1024_S4096x1024 := by
    show StableHlo.after hostOps2 (W4 m ρ c) (Proc.devRef .tc main_v7) = _
    after_results <;> rfl
  rw [e, cast_rows, W4_ctx]

theorem W5_v6 (c : Dev nD) :
    (W5 m ρ c (Proc.devRef .tc main_v6) : S1x1024.Idx → EReal) = Cert.Spec.asRow1024 (m ((c : Thread nD τ).loc main_arg5)) := by
  have e : W5 m ρ c (Proc.devRef .tc main_v6)
      = shapeCast S1x1024 (W4 m ρ c (Proc.devRef .tc main_arg5)) shapeCasts_S1024_S1x1024 := by
    show StableHlo.after hostOps2 (W4 m ρ c) (Proc.devRef .tc main_v6) = _
    after_results <;> rfl
  rw [e, W4_kept m ρ c main_arg5 (by decide) (by decide) (by decide) (by decide) (by decide)]; exact cast_asRow1024 _

theorem W5_arg4 (c : Dev nD) : W5 m ρ c (Proc.devRef .tc main_arg4) = m ((c : Thread nD τ).loc main_arg4) :=
  (W5_of m ρ c main_arg4 (by decide)).trans (W4_kept m ρ c main_arg4 (by decide) (by decide) (by decide) (by decide) (by decide))

/-! ## The results -/

/-- The first result's buffer at the return: the output projection of the context. -/
theorem W7_out (c : Dev nD) :
    (W7 m ρ c (Proc.devRef .tc main_v9) : S4x1024x1024.Idx → EReal)
      = Cert.Spec.resOut (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e8 := (W6_arr m ρ c 3).trans (final2 (V5 m ρ) c)
  rw [show V5 m ρ c main_v7 = _ from W5_v7 m ρ c, show V5 m ρ c main_arg4 = _ from W5_arg4 m ρ c,
    show V5 m ρ c main_v6 = _ from W5_v6 m ρ c] at e8
  have e : W7 m ρ c (Proc.devRef .tc main_v9)
      = shapeCast S4x1024x1024 (W6 m ρ c (Proc.devRef .tc main_v8)) shapeCasts_S4096x1024_S4x1024x1024 := by
    show StableHlo.after hostOps3 (W6 m ρ c) (Proc.devRef .tc main_v9) = _
    after_results <;> rfl
  rw [e, cast_unrows1024]
  rw [show W6 m ρ c (Proc.devRef .tc main_v8) = _ from e8]; rfl

/-- The second result's buffer at the return: the attention weights, untouched since the attention region. -/
theorem W7_weights (c : Dev nD) :
    (W7 m ρ c (Proc.devRef .tc main_v5_1) : S64x1024x1024.Idx → EReal)
      = Cert.Spec.resWeights (m ((c : Thread nD τ).loc main_arg0)) (m ((c : Thread nD τ).loc main_arg1))
          (m ((c : Thread nD τ).loc main_arg2)) (m ((c : Thread nD τ).loc main_arg3)) :=
  ((W7_of m ρ c main_v5_1 (by decide)).trans <| (W6_of_ne m ρ c main_v5_1 (by decide)).trans <| W5_of m ρ c main_v5_1 (by decide)).trans
    (W4_weights m ρ c)

end Cert.KernelIdeal.Hand

end
-- ==== Proof.RefW.lean ====
/-
  The reference's attention weights are the specification's.

  Entry by entry the reference computes: the fused projection (a sum of products over the 1024 model columns plus
  the bias), the query and key thirds of it split into 16 heads of 64 lanes, the scaled query-key products with −∞
  where the mask holds, and the softmax of each row of those scores — the exponential of the entry less the row's
  maximum over the sum of those exponentials. Each is the specification's function at the same coordinates; the
  second result is the weights re-laid from [b, h, s, t] to [b·16 + h, s, t].
-/
import proofs.«404232_j53352083751420_3_alg».proof.Proof.Gen.ReferenceIdeal.Run
import proofs.«404232_j53352083751420_3_alg».proof.Proof.Gen.ReferenceIdeal.Read
import proofs.«404232_j53352083751420_3_alg».proof.Proof.Spec
import Idealize.ShloMosaic.PureOps.Ideal
import Idealize.ShloMosaic.PureOps.Ideal.Laws
import Idealize.ShloMosaic.PureOps.Reduce
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx Cert.Spec

/-! ## Rows and slabs -/

/-- Row `b·1024 + s` lies in batch `b`. -/
theorem rowB_row (b : Fin 4) (s : Fin 1024) : rowB (row b s) = b :=
  Fin.ext (by show (b.val * 1024 + s.val) / 1024 = b.val; have := s.isLt; omega)

/-- Row `b·1024 + s` is token `s` of its batch. -/
theorem rowS_row (b : Fin 4) (s : Fin 1024) : rowS (row b s) = s :=
  Fin.ext (by show (b.val * 1024 + s.val) % 1024 = s.val; have := s.isLt; omega)

/-! ## The fused projection -/

/-- The projected array at (b, s, f): the row's product with weight row `f`, plus the bias. -/
theorem qkvOf_apply (x : FVec Ideal (Sh3 4 1024 1024) .f32) (w : FVec Ideal (Sh2 3072 1024) .f32) (bias : FVec Ideal (Sh1 3072) .f32)
    (b : Fin 4) (s : Fin 1024) (f : Fin 3072) :
    qkvOf x w bias (ix3 b s f)
      = (∑ k : Fin 1024, x (ix3 (rowB (row b s)) (rowS (row b s)) k) * w (ix2 f k)) + bias (ix1 f) := rfl

theorem lidx_v0 (b : Fin 4) (s : Fin 1024) (f : Fin 3072) (k : Fin 1024) : lidx_main_v0 (ix3 b s f) k = ix3 b s k :=
  funext fun a => by match a with | ⟨0, _⟩ => rfl | ⟨1, _⟩ => rfl | ⟨2, _⟩ => rfl

theorem ridx_v0 (b : Fin 4) (s : Fin 1024) (f : Fin 3072) (k : Fin 1024) : ridx_main_v0 (ix3 b s f) k = ix2 f k :=
  funext fun a => by match a with | ⟨0, _⟩ => rfl | ⟨1, _⟩ => rfl

theorem idx_v2_v1 (b : Fin 4) (s : Fin 1024) (f : Fin 3072) : idx_main_v1 (idx_main_v2 (ix3 b s f)) = ix1 f :=
  funext fun a => by match a with | ⟨0, _⟩ => rfl

/-- The reference's projection is the specification's. -/
theorem ref_qkv (x0 : FVec Ideal S4x1024x1024 .f32) (x2 : FVec Ideal S3072x1024 .f32) (x3 : FVec Ideal S3072 .f32) :
    val_main_v3 (F := Ideal) x0 x2 x3 = Cert.Spec.qkvOf x0 x2 x3 := by
  funext i
  obtain ⟨b, s, f, rfl⟩ : ∃ (b : Fin 4) (s : Fin 1024) (f : Fin 3072), i = ix3 b s f := ⟨i 0, i 1, i 2, eq_ix3 i⟩
  rw [qkvOf_apply, rowB_row, rowS_row, val_main_v3_apply, val_main_v0_apply, val_main_v2_apply, val_main_v1_apply, idx_v2_v1]
  simp only [lidx_v0, ridx_v0, Ideal.addf_def]

/-! ## The masked scores -/

/-- Lane `d` of head `h` of query token `s` in batch `b`: column `h·64 + d` of the query third. -/
theorem idx_q (b : Fin 4) (h : Fin 16) (s t : Fin 1024) (d : Fin 64) :
    idx_main_v4 (idx_main_v7 (idx_main_v8 (lidx_main_v13 (ix4 b h s t) d))) = ix3 b s (colQ (col h d)) :=
  funext fun a => Fin.ext (by
    have hb := b.isLt; have hh := h.isLt; have hs := s.isLt; have hd := d.isLt
    match a with
    | ⟨0, _⟩ => show (((b.val * 1024 + s.val) * 16 + h.val) * 64 + d.val) / 1048576 = b.val; omega
    | ⟨1, _⟩ => show (((b.val * 1024 + s.val) * 16 + h.val) * 64 + d.val) / 1024 % 1024 = s.val; omega
    | ⟨2, _⟩ => show (((b.val * 1024 + s.val) * 16 + h.val) * 64 + d.val) % 1024 = h.val * 64 + d.val; omega)

/-- Lane `d` of head `h` of key token `t` in batch `b`: column `h·64 + d` of the key third. -/
theorem idx_k (b : Fin 4) (h : Fin 16) (s t : Fin 1024) (d : Fin 64) :
    idx_main_v5 (idx_main_v9 (idx_main_v10 (ridx_main_v13 (ix4 b h s t) d))) = ix3 b t (colK (col h d)) :=
  funext fun a => Fin.ext (by
    have hb := b.isLt; have hh := h.isLt; have ht := t.isLt; have hd := d.isLt
    match a with
    | ⟨0, _⟩ => show (((b.val * 1024 + t.val) * 16 + h.val) * 64 + d.val) / 1048576 = b.val; omega
    | ⟨1, _⟩ => show (((b.val * 1024 + t.val) * 16 + h.val) * 64 + d.val) / 1024 % 1024 = t.val; omega
    | ⟨2, _⟩ => show 1024 + (((b.val * 1024 + t.val) * 16 + h.val) * 64 + d.val) % 1024 = 1024 + (h.val * 64 + d.val); omega)

/-- The mask is shared by every batch and head: its entry for (b, h, s, t) is the one at (s, t). -/
theorem idx_mask (b : Fin 4) (h : Fin 16) (s t : Fin 1024) : idx_main_v16 (idx_main_call0_v1 (ix4 b h s t)) = ix2 s t :=
  funext fun a => by match a with | ⟨0, _⟩ => rfl | ⟨1, _⟩ => rfl

/-- The word 0xFF800000 is −∞. -/
theorem negInf : Ideal.ofBits .f32 0xFF800000#32 = (⊥ : EReal) := by simp [Ideal.ofBits, Ideal.ieee]

/-- The reference's masked, scaled query-key product is the specification's score. -/
theorem ref_score (x0 : FVec Ideal S4x1024x1024 .f32) (x1 : IVec S1024x1024 1) (x2 : FVec Ideal S3072x1024 .f32)
    (x3 : FVec Ideal S3072 .f32) (b : Fin 4) (h : Fin 16) (s t : Fin 1024) :
    val_main_v17 (F := Ideal) x0 x1 x2 x3 (ix4 b h s t) = score (qkvOf x0 x2 x3) (maskOf x1) b h s t := by
  rw [val_main_v17_apply, val_main_call0_v1_apply, val_main_v16_apply, idx_mask, val_main_call0_v2_apply, val_main_call0_v0_apply,
    val_main_cst_0_apply, val_main_v15_apply, val_main_v13_apply, val_main_v14_apply, val_main_cst_apply]
  simp only [val_main_v8_apply, val_main_v7_apply, val_main_v4_apply, val_main_v10_apply, val_main_v9_apply, val_main_v5_apply,
    idx_q, idx_k, ref_qkv, Ideal.ofBits_def, Ideal.mulf_def, negInf]
  by_cases hm : x1 (ix2 s t) = 1#1
  · rw [hm, select_one, score_of_mask (mk := maskOf x1) hm]
  · rw [eq_zero_of_ne_one hm, select_zero, score_of_not_mask (mk := maskOf x1) hm]
    unfold Cert.Spec.scale
    rfl

/-! ## One row of scores to one row of weights -/

/-- Dropping the last axis of [4, 16, 1024, 1024] leaves [4, 16, 1024]. -/
theorem reduces_d3 : S4x16x1024x1024.Reduces [3] S4x16x1024 := by decide

/-- The row index (b, h, s) with `k` put back on the last axis is (b, h, s, k). -/
theorem lift_d3 (b : Fin 4) (h : Fin 16) (s : Fin 1024) (k : Fin (S4x16x1024x1024.size 3)) :
    reduces_d3.lift (ix3 b h s) k = ix4 b h s (⟨k.val, k.isLt⟩ : Fin 1024) :=
  funext fun c => Fin.ext (by match c with | ⟨0, _⟩ => rfl | ⟨1, _⟩ => rfl | ⟨2, _⟩ => rfl | ⟨3, _⟩ => rfl)

/-- A fold of `max` does not change when its start and its row are replaced by equal ones. -/
theorem fold_max_congr (i0 : EReal) (f g : Fin 1024 → EReal) (hi : i0 = ⊥) (hfg : f = g) :
    Finset.fold max i0 f (Finset.univ : Finset (Fin 1024)) = Finset.fold max ⊥ g Finset.univ := by
  subst hi; subst hfg; rfl

/-- The maximum over the last axis, from −∞, at (b, h, s), is the maximum of that row. -/
theorem hostRowMax (y : FVec Ideal S4x16x1024x1024 .f32) (b : Fin 4) (h : Fin 16) (s : Fin 1024) :
    Host.reduce FloatOps.maximumf y (constant (F := Ideal) S_ .f32 0xFF800000#32) reducesTo_S4x16x1024x1024_S4x16x1024_d3 h_S_ (ix3 b h s)
      = rowMax fun t' => y (ix4 b h s t') := by
  unfold Cert.Spec.rowMax
  rw [Host.reduce_eq_fold_single FloatOps.maximumf y _ reducesTo_S4x16x1024x1024_S4x16x1024_d3 reduces_d3 h_S_]
  have hf : (y ∘ reduces_d3.lift (ix3 b h s)) = fun k : Fin 1024 => y (ix4 b h s k) :=
    funext fun k => congrArg y (lift_d3 b h s k)
  exact fold_max_congr _ _ _ negInf hf

/-- The row index of (b, h, s, k) is (b, h, s), whatever `k`. -/
theorem idx_rowOf_max (b : Fin 4) (h : Fin 16) (s k : Fin 1024) : idx_main_v21 (idx_main_v22 (ix4 b h s k)) = ix3 b h s :=
  funext fun a => by match a with | ⟨0, _⟩ => rfl | ⟨1, _⟩ => rfl | ⟨2, _⟩ => rfl

theorem idx_rowOf_sum (b : Fin 4) (h : Fin 16) (s k : Fin 1024) : idx_main_v26 (idx_main_v27 (ix4 b h s k)) = ix3 b h s :=
  funext fun a => by match a with | ⟨0, _⟩ => rfl | ⟨1, _⟩ => rfl | ⟨2, _⟩ => rfl

theorem idx_v25 (b : Fin 4) (h : Fin 16) (s k : Fin 1024) : idx_main_v25 (ix3 b h s) k = ix4 b h s k :=
  funext fun a => by match a with | ⟨0, _⟩ => rfl | ⟨1, _⟩ => rfl | ⟨2, _⟩ => rfl | ⟨3, _⟩ => rfl

/-- The reference's row maximum — the greater of −∞ and the maximum over the row from −∞ — is the row's maximum. -/
theorem ref_rowMax (x0 : FVec Ideal S4x1024x1024 .f32) (x1 : IVec S1024x1024 1) (x2 : FVec Ideal S3072x1024 .f32)
    (x3 : FVec Ideal S3072 .f32) (b : Fin 4) (h : Fin 16) (s : Fin 1024) :
    val_main_v20 (F := Ideal) x0 x1 x2 x3 (ix3 b h s) = rowMax fun t' => score (qkvOf x0 x2 x3) (maskOf x1) b h s t' := by
  rw [val_main_v20_apply, val_main_v19_apply, val_main_cst_2_apply]
  unfold val_main_v18 val_main_cst_1
  rw [hostRowMax]
  simp only [ref_score, Ideal.ofBits_def, Ideal.maximumf_def, negInf]
  exact max_bot_left _

/-- The reference's attention weight is the specification's: the softmax of the row of scores. -/
theorem ref_weight (x0 : FVec Ideal S4x1024x1024 .f32) (x1 : IVec S1024x1024 1) (x2 : FVec Ideal S3072x1024 .f32)
    (x3 : FVec Ideal S3072 .f32) (b : Fin 4) (h : Fin 16) (s t : Fin 1024) :
    val_main_v28 (F := Ideal) x0 x1 x2 x3 (ix4 b h s t)
      = Cert.Spec.weight (Cert.Spec.qkvOf x0 x2 x3) (Cert.Spec.maskOf x1) b h s t := by
  have hmax : ∀ k : Fin 1024, val_main_v22 (F := Ideal) x0 x1 x2 x3 (ix4 b h s k)
      = rowMax fun t' => score (qkvOf x0 x2 x3) (maskOf x1) b h s t' := by
    intro k
    rw [val_main_v22_apply, val_main_v21_apply, idx_rowOf_max, ref_rowMax]
  have hexp : ∀ k : Fin 1024, val_main_v24 (F := Ideal) x0 x1 x2 x3 (ix4 b h s k)
      = Ideal.exp (score (qkvOf x0 x2 x3) (maskOf x1) b h s k - rowMax fun t' => score (qkvOf x0 x2 x3) (maskOf x1) b h s t') := by
    intro k
    rw [val_main_v24_apply, val_main_v23_apply, ref_score, hmax]
    rfl
  rw [val_main_v28_apply, val_main_v27_apply, val_main_v26_apply, idx_rowOf_sum, val_main_v25_apply, val_main_cst_3_apply, hexp]
  simp only [idx_v25, hexp, Ideal.ofBits_def, Ideal.ofBits_zero_f32, zero_add, Ideal.hostDivf_def]
  rfl

/-! ## The second result -/

/-- Entry (g, s, t) of the [64, 1024, 1024] result is entry (g / 16, g % 16, s, t) of the [4, 16, 1024, 1024] weights. -/
theorem idx_slab (g : Fin 64) (s t : Fin 1024) : idx_main_v36 (ix3 g s t) = ix4 (slabB g) (slabH g) s t :=
  funext fun a => Fin.ext (by
    have hg := g.isLt; have hs := s.isLt; have ht := t.isLt
    match a with
    | ⟨0, _⟩ => show ((g.val * 1024 + s.val) * 1024 + t.val) / 16777216 = g.val / 16; omega
    | ⟨1, _⟩ => show ((g.val * 1024 + s.val) * 1024 + t.val) / 1048576 % 16 = g.val % 16; omega
    | ⟨2, _⟩ => show ((g.val * 1024 + s.val) * 1024 + t.val) / 1024 % 1024 = s.val; omega
    | ⟨3, _⟩ => show ((g.val * 1024 + s.val) * 1024 + t.val) % 1024 = t.val; omega)

/-- The reference's second result is the specification's weights. -/
theorem ref_weights (x0 : FVec Ideal S4x1024x1024 .f32) (x1 : IVec S1024x1024 1) (x2 : FVec Ideal S3072x1024 .f32)
    (x3 : FVec Ideal S3072 .f32) :
    val_main_v36 (F := Ideal) x0 x1 x2 x3 = Cert.Spec.resWeights x0 x1 x2 x3 := by
  funext i
  obtain ⟨g, s, t, rfl⟩ : ∃ (g : Fin 64) (s t : Fin 1024), i = ix3 g s t := ⟨i 0, i 1, i 2, eq_ix3 i⟩
  rw [val_main_v36_apply, idx_slab, ref_weight]
  rfl

end Cert.ReferenceIdeal.RefValue

end
-- ==== Proof.RefO.lean ====
/-
  The reference's first result, index by index: the output projection of the attention context is the
  specification's, given that the reference's attention weights and its projected array are the specification's.

  Reading the reference's operations at the index [b, s, f]:
    * the result is  (∑ e, c[b, s, e] · Wo[f, e]) + bo[f];
    * c[b, s, e] is the entry [b, e / 64, s, e % 64] of the per-head products  p[b, h, s, d] = ∑ t, w[b, h, s, t] · v[b, h, t, d];
    * v[b, h, t, d] is the entry [b, t, 2048 + h·64 + d] of the projected array.
  With  (e / 64)·64 + e % 64 = e  this is the specification's context followed by its output projection.
-/
import proofs.«404232_j53352083751420_3_alg».proof.Proof.Gen.ReferenceIdeal.Run
import proofs.«404232_j53352083751420_3_alg».proof.Proof.Gen.ReferenceIdeal.Read
import proofs.«404232_j53352083751420_3_alg».proof.Proof.Spec
import Idealize.ShloMosaic.Lib.ValueIdx
import Idealize.ShloMosaic.PureOps.Ideal

noncomputable section

namespace Cert.ReferenceIdeal.RefOut

open Cert.ReferenceIdeal Cert.ReferenceIdeal.Read Idealize.ShloMosaic Idealize.ShloMosaic.ValueIdx Cert.Spec

/-! ## Columns -/

/-- The lane of column e within its head: e % 64. -/
def laneOf (e : Fin 1024) : Fin 64 := ⟨e.val % 64, Nat.mod_lt _ (by decide)⟩

/-- Column e is lane e % 64 of head e / 64. -/
theorem col_headOf_laneOf (e : Fin 1024) : col (headOf e) (laneOf e) = e := by
  apply Fin.ext
  show e.val / 64 * 64 + e.val % 64 = e.val
  omega

/-- Row b·1024 + s belongs to batch b. -/
theorem rowB_row (b : Fin 4) (s : Fin 1024) : rowB (row b s) = b := by
  apply Fin.ext
  have := s.isLt
  show (b.val * 1024 + s.val) / 1024 = b.val
  omega

/-- Row b·1024 + s is token s of its batch. -/
theorem rowS_row (b : Fin 4) (s : Fin 1024) : rowS (row b s) = s := by
  apply Fin.ext
  have := s.isLt
  show (b.val * 1024 + s.val) % 1024 = s.val
  omega

/-! ## The specification at an index -/

theorem resOut_at (x0 : FVec Ideal S4x1024x1024 .f32) (x1 : IVec S1024x1024 1) (x2 : FVec Ideal S3072x1024 .f32)
    (x3 : FVec Ideal S3072 .f32) (x4 : FVec Ideal S1024x1024 .f32) (x5 : FVec Ideal S1024 .f32)
    (b : Fin 4) (s : Fin 1024) (f : Fin 1024) :
    Cert.Spec.resOut x0 x1 x2 x3 x4 x5 (ix3 b s f)
      = (∑ e : Fin 1024, ctx (qkvOf x0 x2 x3) (maskOf x1) (ix3 (rowB (row b s)) (rowS (row b s)) e) * x4 (ix2 f e))
          + x5 (ix1 f) := rfl

theorem ctx_at (qkv : FVec Ideal (Sh3 4 1024 3072) .f32) (mk : Fin 1024 → Fin 1024 → Prop)
    (b : Fin 4) (s : Fin 1024) (e : Fin 1024) :
    ctx qkv mk (ix3 b s e) = ∑ t : Fin 1024, weight qkv mk b (headOf e) s t * qkv (ix3 b t (colV e)) := rfl

/-! ## The reference's operations at an index -/

/-- The value slice, split into heads: v[b, h, t, d] is the projected array at [b, t, 2048 + h·64 + d]. -/
theorem v12_at (x0 : FVec Ideal S4x1024x1024 .f32) (x2 : FVec Ideal S3072x1024 .f32) (x3 : FVec Ideal S3072 .f32)
    (b : Fin 4) (h : Fin 16) (t : Fin 1024) (d : Fin 64) :
    val_main_v12 (F := Ideal) x0 x2 x3 (ix4 b h t d) = val_main_v3 (F := Ideal) x0 x2 x3 (ix3 b t (colV (col h d))) := by
  rw [val_main_v12_apply, val_main_v11_apply, val_main_v6_apply]
  refine congrArg (val_main_v3 (F := Ideal) x0 x2 x3) (funext fun a => Fin.ext ?_)
  have hb := b.isLt; have hh := h.isLt; have ht := t.isLt; have hd := d.isLt
  match a with
  | ⟨0, _⟩ =>
    show (((b.val * 1024 + t.val) * 16 + h.val) * 64 + d.val) / 1048576 = b.val
    omega
  | ⟨1, _⟩ =>
    show (((b.val * 1024 + t.val) * 16 + h.val) * 64 + d.val) / 1024 % 1024 = t.val
    omega
  | ⟨2, _⟩ =>
    show 2048 + (((b.val * 1024 + t.val) * 16 + h.val) * 64 + d.val) % 1024 = 2048 + (h.val * 64 + d.val)
    omega

/-- The per-head product of the weights with the values. -/
theorem v29_at (x0 : FVec Ideal S4x1024x1024 .f32) (x1 : IVec S1024x1024 1) (x2 : FVec Ideal S3072x1024 .f32)
    (x3 : FVec Ideal S3072 .f32) (b : Fin 4) (h : Fin 16) (s : Fin 1024) (d : Fin 64) :
    val_main_v29 (F := Ideal) x0 x1 x2 x3 (ix4 b h s d)
      = ∑ t : Fin 1024, val_main_v28 (F := Ideal) x0 x1 x2 x3 (ix4 b h s t) * val_main_v12 (F := Ideal) x0 x2 x3 (ix4 b h t d) := by
  rw [val_main_v29_apply]
  refine Finset.sum_congr rfl fun t _ => ?_
  have el : lidx_main_v29 (ix4 b h s d) t = ix4 b h s t :=
    funext fun a => match a with | ⟨0, _⟩ => rfl | ⟨1, _⟩ => rfl | ⟨2, _⟩ => rfl | ⟨3, _⟩ => rfl
  have er : ridx_main_v29 (ix4 b h s d) t = ix4 b h t d :=
    funext fun a => match a with | ⟨0, _⟩ => rfl | ⟨1, _⟩ => rfl | ⟨2, _⟩ => rfl | ⟨3, _⟩ => rfl
  rw [el, er]

/-- The heads laid side by side: c[b, s, e] is the product of head e / 64 at lane e % 64. -/
theorem v31_at (x0 : FVec Ideal S4x1024x1024 .f32) (x1 : IVec S1024x1024 1) (x2 : FVec Ideal S3072x1024 .f32)
    (x3 : FVec Ideal S3072 .f32) (b : Fin 4) (s : Fin 1024) (e : Fin 1024) :
    val_main_v31 (F := Ideal) x0 x1 x2 x3 (ix3 b s e)
      = val_main_v29 (F := Ideal) x0 x1 x2 x3 (ix4 b (headOf e) s (laneOf e)) := by
  rw [val_main_v31_apply, val_main_v30_apply]
  refine congrArg (val_main_v29 (F := Ideal) x0 x1 x2 x3) (funext fun a => Fin.ext ?_)
  have hb := b.isLt; have hs := s.isLt; have he := e.isLt
  match a with
  | ⟨0, _⟩ =>
    show ((b.val * 1024 + s.val) * 1024 + e.val) / 1048576 = b.val
    omega
  | ⟨1, _⟩ =>
    show ((b.val * 1024 + s.val) * 1024 + e.val) / 64 % 16 = e.val / 64
    omega
  | ⟨2, _⟩ =>
    show ((b.val * 1024 + s.val) * 1024 + e.val) / 1024 % 1024 = s.val
    omega
  | ⟨3, _⟩ =>
    show ((b.val * 1024 + s.val) * 1024 + e.val) % 64 = e.val % 64
    omega

/-- The output projection and its bias. -/
theorem v35_at (x0 : FVec Ideal S4x1024x1024 .f32) (x1 : IVec S1024x1024 1) (x2 : FVec Ideal S3072x1024 .f32)
    (x3 : FVec Ideal S3072 .f32) (x4 : FVec Ideal S1024x1024 .f32) (x5 : FVec Ideal S1024 .f32)
    (b : Fin 4) (s : Fin 1024) (f : Fin 1024) :
    val_main_v35 (F := Ideal) x0 x1 x2 x3 x4 x5 (ix3 b s f)
      = (∑ e : Fin 1024, val_main_v31 (F := Ideal) x0 x1 x2 x3 (ix3 b s e) * x4 (ix2 f e)) + x5 (ix1 f) := by
  rw [val_main_v35_apply, val_main_v32_apply, val_main_v34_apply, val_main_v33_apply, Ideal.addf_def]
  have eb : idx_main_v33 (idx_main_v34 (ix3 b s f)) = ix1 f := funext fun a => match a with | ⟨0, _⟩ => rfl
  rw [eb]
  refine congrArg (· + x5 (ix1 f)) (Finset.sum_congr rfl fun e _ => ?_)
  have el : lidx_main_v32 (ix3 b s f) e = ix3 b s e :=
    funext fun a => match a with | ⟨0, _⟩ => rfl | ⟨1, _⟩ => rfl | ⟨2, _⟩ => rfl
  have er : ridx_main_v32 (ix3 b s f) e = ix2 f e :=
    funext fun a => match a with | ⟨0, _⟩ => rfl | ⟨1, _⟩ => rfl
  rw [el, er]

/-! ## The first result -/

/-- The reference's first result is the specification's, given its projected array and its attention weights. -/
theorem ref_out_of (x0 : FVec Ideal S4x1024x1024 .f32) (x1 : IVec S1024x1024 1) (x2 : FVec Ideal S3072x1024 .f32)
    (x3 : FVec Ideal S3072 .f32) (x4 : FVec Ideal S1024x1024 .f32) (x5 : FVec Ideal S1024 .f32)
    (hqkv : val_main_v3 (F := Ideal) x0 x2 x3 = Cert.Spec.qkvOf x0 x2 x3)
    (hw : ∀ (b : Fin 4) (h : Fin 16) (s t : Fin 1024),
      val_main_v28 (F := Ideal) x0 x1 x2 x3 (ix4 b h s t)
        = Cert.Spec.weight (Cert.Spec.qkvOf x0 x2 x3) (Cert.Spec.maskOf x1) b h s t) :
    val_main_v35 (F := Ideal) x0 x1 x2 x3 x4 x5 = Cert.Spec.resOut x0 x1 x2 x3 x4 x5 := by
  funext i
  obtain ⟨b, s, f, rfl⟩ : ∃ (b : Fin 4) (s : Fin 1024) (f : Fin 1024), i = ix3 b s f := ⟨i 0, i 1, i 2, eq_ix3 i⟩
  rw [v35_at, resOut_at, rowB_row, rowS_row]
  refine congrArg (· + x5 (ix1 f)) (Finset.sum_congr rfl fun e _ => ?_)
  rw [v31_at, v29_at, ctx_at]
  refine congrArg (· * x4 (ix2 f e)) (Finset.sum_congr rfl fun t _ => ?_)
  rw [hw, v12_at, hqkv, col_headOf_laneOf]

end Cert.ReferenceIdeal.RefOut

end
-- ==== Proof.lean ====
/-
  Multi-head self-attention — a fused query/key/value projection, masked softmax attention over 16 heads, and an
  output projection — as three pallas_calls, against the same computation written with einsums on the host.

  At the ideal values both programs compute one function of the six arguments (Proof/Spec.lean): the projection
  a · wᵀ + b over the 4096 token rows; per batch and head the scores q · kᵀ · 2⁻³, −∞ where the mask holds; the softmax of
  each score row (the exponential of the entry less the row's maximum, over the sum of the exponentials); the weights
  applied to the head's value columns; and the output projection. The kernel tiles these (512-row blocks, two heads
  per grid point), rounds to bf16 on the way into each matrix product and writes −0.7 · max f32 where the mask holds;
  at the ideal values a change of format is the identity, a sum does not depend on its tiling, and the named constant
  is −∞ (the second claim: `preserves`), which is also what the reference writes. The reference takes
  `max (−∞, ·)` of the row maximum, the identity.

  The kernel side: each region's body leaves in its output window's buffer a function of the input blocks alone
  (Proof/KiR0.lean, KiR1.lean, KiR2.lean and their word-level copies KR0 … KR2), so @main runs to the end from any
  memory with every unscoped buffer at the fold of the seven segments (KiRun.lean, KRun.lean: the frames); the fold
  read in closed form (KiVal0, KiVal1 over KiPay1, KiVal2; KiFin.lean) puts `resOut` and `resWeights` of the
  arguments in the two result buffers. The reference side: its run's two result terms are the same two functions
  (RefW.lean, RefO.lean).
-/
import proofs.«404232_j53352083751420_3_alg».proof.Proof.Gen.Kernel
import proofs.«404232_j53352083751420_3_alg».proof.Proof.Gen.KernelIdeal
import proofs.«404232_j53352083751420_3_alg».proof.Proof.Gen.ReferenceIdeal
import proofs.«404232_j53352083751420_3_alg».proof.Proof.Gen.Pre_finite_inputs
import proofs.«404232_j53352083751420_3_alg».proof.Proof.Gen.ReferenceIdeal.Run
import proofs.«404232_j53352083751420_3_alg».proof.Proof.Gen.ReferenceIdeal.Read
import proofs.«404232_j53352083751420_3_alg».proof.Proof.KRun
import proofs.«404232_j53352083751420_3_alg».proof.Proof.KiFin
import proofs.«404232_j53352083751420_3_alg».proof.Proof.RefW
import proofs.«404232_j53352083751420_3_alg».proof.Proof.RefO
import proofs.«404232_j53352083751420_3_alg».proof.Defs
import Idealize.ShloMosaic.Adequacy
import Idealize.ShloMosaic.Init
import Idealize.ShloMosaic.PureOps.IdealRules

noncomputable section

namespace Cert.Proof

open Idealize.ShloMosaic Idealize.SL.Sem

/-- The kernel as printed runs to the end and leaves its arguments alone. -/
theorem frame_k : Cert.frame_Kernel := fun m ρ _ => Cert.Kernel.Hand.frame m ρ

/-- So does its idealization. -/
theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The two places where the kernel fills masked scores: the finite stand-in is named, and the name denotes −∞. -/
theorem preserves : Cert.preserves_Kernel_KernelIdeal :=
  ⟨IdealRules.named_const.statement Cert.KernelIdeal.κ "neg_big" .f32 0xFF333332#32 ⊥ rfl,
    IdealRules.named_const.statement Cert.KernelIdeal.κ "neg_big" .f32 0xFF333332#32 ⊥ rfl⟩

/-- From memories that agree on the arguments both idealized programs end with the output at `resOut` and the
    attention weights at `resWeights` of the arguments. -/
theorem algebraic : Cert.algebraic_KernelIdeal_ReferenceIdeal := by
  intro m ρ m' ρ' _ hagree
  refine ⟨fun c => Cert.Spec.resOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.Spec.resWeights (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · exact (θ_run Cert.KernelIdeal.defs _ _).mono (fun _ h c =>
      ⟨(h c Cert.KernelIdeal.main_v9 (by decide)).trans (Cert.KernelIdeal.Hand.W7_out m ρ c),
        (h c Cert.KernelIdeal.main_v5_1 (by decide)).trans (Cert.KernelIdeal.Hand.W7_weights m ρ c),
        (h c Cert.KernelIdeal.main_arg0 (by decide)).trans (Cert.KernelIdeal.Hand.W7_main_arg0 m ρ c),
        (h c Cert.KernelIdeal.main_arg1 (by decide)).trans (Cert.KernelIdeal.Hand.W7_main_arg1 m ρ c),
        (h c Cert.KernelIdeal.main_arg2 (by decide)).trans (Cert.KernelIdeal.Hand.W7_main_arg2 m ρ c),
        (h c Cert.KernelIdeal.main_arg3 (by decide)).trans (Cert.KernelIdeal.Hand.W7_main_arg3 m ρ c),
        (h c Cert.KernelIdeal.main_arg4 (by decide)).trans (Cert.KernelIdeal.Hand.W7_main_arg4 m ρ c),
        (h c Cert.KernelIdeal.main_arg5 (by decide)).trans (Cert.KernelIdeal.Hand.W7_main_arg5 m ρ c)⟩)
      (Cert.KernelIdeal.Hand.run (F := Ideal) m ρ)
  · refine (θ_run Cert.ReferenceIdeal.defs _ _).mono (fun _ h c => ⟨?_, ?_, (h c).2.2⟩)
      (Cert.ReferenceIdeal.Value.run (F := Ideal) m' ρ')
    · rw [(h c).1, Cert.ReferenceIdeal.Read.val_main_v35_eq, (hagree c).1, (hagree c).2.1, (hagree c).2.2.1,
        (hagree c).2.2.2.1, (hagree c).2.2.2.2.1, (hagree c).2.2.2.2.2]
      exact Cert.ReferenceIdeal.RefOut.ref_out_of _ _ _ _ _ _ (Cert.ReferenceIdeal.RefValue.ref_qkv _ _ _)
        (Cert.ReferenceIdeal.RefValue.ref_weight _ _ _ _)
    · rw [(h c).2.1, Cert.ReferenceIdeal.Read.val_main_v36_eq, (hagree c).1, (hagree c).2.1, (hagree c).2.2.1,
        (hagree c).2.2.2.1]
      exact Cert.ReferenceIdeal.RefValue.ref_weights _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
